-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x64 : Shape := ⟨2, ![800000, 64]⟩
abbrev S1x16 : Shape := ⟨2, ![1, 16]⟩
abbrev S50000 : Shape := ⟨1, ![50000]⟩
abbrev S128x128 : Shape := ⟨2, ![128, 128]⟩
abbrev S128 : Shape := ⟨1, ![128]⟩
abbrev S192x128 : Shape := ⟨2, ![192, 128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S1x16 : S_.BroadcastsInDim S1x16 (![] : Fin 0 → Fin S1x16.rank)
  reducesTo_S1x16_S_d0_1 : S1x16.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S192x128 : S_.BroadcastsInDim S192x128 (![] : Fin 0 → Fin S192x128.rank)
  reducesTo_S192x128_S_d0_1 : S192x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg16 : FVec F S64 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  main_v73

def fn_part3 {F : FTy → Type} [FloatOps F] (main_arg13 : FVec F S128 .f32) (main_arg14 : FVec F S128 .f32) (main_arg15 : FVec F S128x64 .f32) (main_arg16 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x64 .f32 := Host.absf main_arg15
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg16 main_v63 main_v67

def fn_part2 {F : FTy → Type} [FloatOps F] (main_arg9 : FVec F S128x128 .f32) (main_arg10 : FVec F S128 .f32) (main_arg11 : FVec F S192x128 .f32) (main_arg12 : FVec F S128 .f32) (main_arg13 : FVec F S128 .f32) (main_arg14 : FVec F S128 .f32) (main_arg15 : FVec F S128x64 .f32) (main_arg16 : FVec F S64 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S192x128 .f32 := Host.absf main_arg11
  let main_cst_16 : FVec F S_ .f32 := constant S_ .f32 0x7F800000#32
  let main_v45 : FVec F S192x128 .f32 := broadcastInDim S192x128 ![] bcast_S_S192x128 main_cst_16
  let main_v46 : IVec S192x128 1 := cmpf .olt main_v44 main_v45
  let main_c_17 : IVec S_ 1 := constantI S_ 1 1#1
  let main_v47 : IVec S_ 1 := (fun x v => Host.reduce IntOp.andi x v reducesTo_S192x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_v48 main_v49 main_v50

def fn_part1 {F : FTy → Type} [FloatOps F] (main_arg6 : FVec F S128 .f32) (main_arg7 : FVec F S128 .f32) (main_arg8 : FVec F S128 .f32) (main_arg9 : FVec F S128x128 .f32) (main_arg10 : FVec F S128 .f32) (main_arg11 : FVec F S192x128 .f32) (main_arg12 : FVec F S128 .f32) (main_arg13 : FVec F S128 .f32) (main_arg14 : FVec F S128 .f32) (main_arg15 : FVec F S128x64 .f32) (main_arg16 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S50000x64 .f32) (main_arg1 : IVec S2x800000 32) (main_arg2 : FVec F S800000x64 .f32) (main_arg3 : FVec F S1x16 .f32) (main_arg4 : IVec S50000 32) (main_arg5 : FVec F S128x128 .f32) (main_arg6 : FVec F S128 .f32) (main_arg7 : FVec F S128 .f32) (main_arg8 : FVec F S128 .f32) (main_arg9 : FVec F S128x128 .f32) (main_arg10 : FVec F S128 .f32) (main_arg11 : FVec F S192x128 .f32) (main_arg12 : FVec F S128 .f32) (main_arg13 : FVec F S128 .f32) (main_arg14 : FVec F S128 .f32) (main_arg15 : FVec F S128x64 .f32) (main_arg16 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S1x16 .f32 := Host.absf main_arg3
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S50000x64 : Shape := ⟨2, ![50000, 64]⟩
abbrev S2x800000 : Shape := ⟨2, ![2, 800000]⟩
abbrev S800000x64 : Shape := ⟨2, ![800000, 64]⟩
abbrev S1x16 : Shape := ⟨2, ![1, 16]⟩
abbrev S50000 : Shape := ⟨1, ![50000]⟩
abbrev S128x128 : Shape := ⟨2, ![128, 128]⟩
abbrev S128 : Shape := ⟨1, ![128]⟩
abbrev S192x128 : Shape := ⟨2, ![192, 128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S64x128 : Shape := ⟨2, ![64, 128]⟩
abbrev S1x128 : Shape := ⟨2, ![1, 128]⟩
abbrev S8000x64 : Shape := ⟨2, ![8000, 64]⟩
abbrev S8000x128 : Shape := ⟨2, ![8000, 128]⟩
abbrev S800000x128 : Shape := ⟨2, ![800000, 128]⟩
abbrev S50000x128 : Shape := ⟨2, ![50000, 128]⟩
abbrev S1x64 : Shape := ⟨2, ![1, 64]⟩
abbrev S5000x64 : Shape := ⟨2, ![5000, 64]⟩
abbrev S5000x128 : Shape := ⟨2, ![5000, 128]⟩

abbrev nBuf : Space → Nat
  | .hbm => 68
  | .vmem => 48
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x64, .f32⟩
  | .hbm, ⟨3, _⟩ => ⟨S1x16, .f32⟩
  | .hbm, ⟨4, _⟩ => ⟨S50000, .i32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S192x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128x64, .f32⟩
  | .hbm, ⟨16, _⟩ => ⟨S64, .f32⟩
  | .hbm, ⟨17, _⟩ => ⟨S1x800000, .i32⟩
  | .hbm, ⟨18, _⟩ => ⟨S800000, .i32⟩
  | .hbm, ⟨19, _⟩ => ⟨S1x800000, .i32⟩
  | .hbm, ⟨20, _⟩ => ⟨S800000, .i32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x64, .f32⟩
  | .hbm, ⟨30, _⟩ => ⟨S64x128, .f32⟩
  | .hbm, ⟨31, _⟩ => ⟨S64x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S_, .f32⟩
  | .hbm, ⟨39, _⟩ => ⟨S1x128, .f32⟩
  | .hbm, ⟨40, _⟩ => ⟨S1x128, .f32⟩
  | .hbm, ⟨41, _⟩ => ⟨S_, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S800000x128, .f32⟩
  | .hbm, ⟨47, _⟩ => ⟨S_, .f32⟩
  | .hbm, ⟨48, _⟩ => ⟨S50000x128, .f32⟩
  | .hbm, ⟨49, _⟩ => ⟨S800000x1, .i32⟩
  | .hbm, ⟨50, _⟩ => ⟨S50000x128, .f32⟩
  | .hbm, ⟨51, _⟩ => ⟨S64x128, .f32⟩
  | .hbm, ⟨52, _⟩ => ⟨S128x128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x64, .f32⟩
  | .hbm, ⟨57, _⟩ => ⟨S1x128, .f32⟩
  | .hbm, ⟨58, _⟩ => ⟨S1x128, .f32⟩
  | .hbm, ⟨59, _⟩ => ⟨S_, .f32⟩
  | .hbm, ⟨60, _⟩ => ⟨S1x128, .f32⟩
  | .hbm, ⟨61, _⟩ => ⟨S1x128, .f32⟩
  | .hbm, ⟨62, _⟩ => ⟨S_, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S50000x64, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S8000x64, .f32⟩
  | .local _ .vmem, ⟨10, _⟩ => ⟨S8000x64, .f32⟩
  | .local _ .vmem, ⟨11, _⟩ => ⟨S8000x64, .f32⟩
  | .local _ .vmem, ⟨12, _⟩ => ⟨S8000x64, .f32⟩
  | .local _ .vmem, ⟨13, _⟩ => ⟨S64x128, .f32⟩
  | .local _ .vmem, ⟨14, _⟩ => ⟨S64x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S8000x128, .f32⟩
  | .local _ .vmem, ⟨23, _⟩ => ⟨S8000x128, .f32⟩
  | .local _ .vmem, ⟨24, _⟩ => ⟨S5000x64, .f32⟩
  | .local _ .vmem, ⟨25, _⟩ => ⟨S5000x64, .f32⟩
  | .local _ .vmem, ⟨26, _⟩ => ⟨S5000x128, .f32⟩
  | .local _ .vmem, ⟨27, _⟩ => ⟨S5000x128, .f32⟩
  | .local _ .vmem, ⟨28, _⟩ => ⟨S64x128, .f32⟩
  | .local _ .vmem, ⟨29, _⟩ => ⟨S128x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S5000x64, .f32⟩
  | .local _ .vmem, ⟨34, _⟩ => ⟨S5000x64, .f32⟩
  | .local _ .vmem, ⟨35, _⟩ => ⟨S5000x128, .f32⟩
  | .local _ .vmem, ⟨36, _⟩ => ⟨S5000x128, .f32⟩
  | .local _ .vmem, ⟨37, _⟩ => ⟨S64x128, .f32⟩
  | .local _ .vmem, ⟨38, _⟩ => ⟨S128x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S128x64, .f32⟩
  | .local _ .vmem, ⟨45, _⟩ => ⟨S1x64, .f32⟩
  | .local _ .vmem, ⟨46, _⟩ => ⟨S5000x64, .f32⟩
  | .local _ .vmem, ⟨47, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17_0 : Ref sig .tc := ⟨.hbm, 36, rfl⟩
abbrev main_v17_1 : Ref sig .tc := ⟨.hbm, 37, rfl⟩
abbrev main_cst : Ref sig .tc := ⟨.hbm, 38, rfl⟩
abbrev main_v18 : Ref sig .tc := ⟨.hbm, 39, rfl⟩
abbrev main_v19 : Ref sig .tc := ⟨.hbm, 40, rfl⟩
abbrev main_cst_1 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_2 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34_0 : Ref sig .tc := ⟨.hbm, 57, rfl⟩
abbrev main_v34_1 : Ref sig .tc := ⟨.hbm, 58, rfl⟩
abbrev main_cst_3 : Ref sig .tc := ⟨.hbm, 59, rfl⟩
abbrev main_v35 : Ref sig .tc := ⟨.hbm, 60, rfl⟩
abbrev main_v36 : Ref sig .tc := ⟨.hbm, 61, rfl⟩
abbrev main_cst_4 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc1_stg11_0 : Ref sig .tc := ⟨.vmem, 22, rfl⟩
abbrev cc1_stg11_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc3_stg7_0 : Ref sig .tc := ⟨.vmem, 42, rfl⟩
abbrev cc3_stg8_0 : Ref sig .tc := ⟨.vmem, 43, rfl⟩
abbrev cc3_stg9_0 : Ref sig .tc := ⟨.vmem, 44, rfl⟩
abbrev cc3_stg10_0 : Ref sig .tc := ⟨.vmem, 45, rfl⟩
abbrev cc3_stg11_0 : Ref sig .tc := ⟨.vmem, 46, rfl⟩
abbrev cc3_stg11_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21
abbrev cc1_sem11_0 : DmaSem sig := 22
abbrev cc1_sem11_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem6_0 : DmaSem sig := 41
abbrev cc3_sem7_0 : DmaSem sig := 42
abbrev cc3_sem8_0 : DmaSem sig := 43
abbrev cc3_sem9_0 : DmaSem sig := 44
abbrev cc3_sem10_0 : DmaSem sig := 45
abbrev cc3_sem11_0 : DmaSem sig := 46
abbrev cc3_sem11_1 : DmaSem sig := 47

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S8000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S128x64 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x64 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S5000x64 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S128x128_S64x128_0_0 : S128x128.Slices ![0, 0] S64x128
  slices_S128x128_S64x128_64_0 : S128x128.Slices ![64, 0] S64x128
  shapeCasts_S128_S1x128 : S128.ShapeCasts S1x128
  inb_S1x128_S1x128_0_0 : ∀ a, (![0, 0] : Fin 2 → Nat) a + S1x128.size a ≤ S1x128.size a
  h_S1x128 : 0 < S1x128.numel
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S1x128_S1x128 : S1x128.ShapeCasts S1x128
  broadcasts_S1x128_S8000x128 : S1x128.Broadcasts S8000x128
  reduces_S8000x128_S128 : S8000x128.Reduces [0] S128
  bcast_S_S1x128 : S_.BroadcastsInDim S1x128 (![] : Fin 0 → Fin S1x128.rank)
  inb_S128x128_S128x128_0_0 : ∀ a, (![0, 0] : Fin 2 → Nat) a + S128x128.size a ≤ S128x128.size a
  h_S128x128 : 0 < S128x128.numel
  inb_S8000x128_S8000x128_0_0 : ∀ a, (![0, 0] : Fin 2 → Nat) a + S8000x128.size a ≤ S8000x128.size a
  h_S8000x128 : 0 < S8000x128.numel
  bcast_S_S50000x128 : S_.BroadcastsInDim S50000x128 (![] : Fin 0 → Fin S50000x128.rank)
  slices_S192x128_S64x128_0_0 : S192x128.Slices ![0, 0] S64x128
  slices_S192x128_S128x128_64_0 : S192x128.Slices ![64, 0] S128x128
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S128x128_S128x128 : S128x128.ShapeCasts S128x128
  broadcasts_S1x128_S5000x128 : S1x128.Broadcasts S5000x128
  reduces_S5000x128_S128 : S5000x128.Reduces [0] S128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  dot_S8000x64_S64x128_S8000x128_1_0_0_1_n_n_wf : DotDims.WF S8000x64 S64x128 S8000x128 [1] [0] [0] [1] [] []
  dot_S8000x128_S128x128_S8000x128_1_0_0_1_n_n_wf : DotDims.WF S8000x128 S128x128 S8000x128 [1] [0] [0] [1] [] []
  scatter_S50000x128_S800000x1_S800000x128_1_0_0_1_wf : ScatterDims.WF S50000x128 S800000x1 S800000x128 [1] [0] [0] 1
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .f32 = 32 ∨ (Rect.block (s := S800000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S800000x64.size a
  hwx0_1 : ∀ i : grid0.Coords, EltTy.bits .f32 = 32 ∨ (Rect.block (s := S800000x64) S8000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S800000x64.size a
  hwx1_0 : ∀ i : grid1.Coords, EltTy.bits .f32 = 32 ∨ (Rect.block (s := S800000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x64.size a ≤ S800000x64.size a
  hwx1_1 : ∀ i : grid1.Coords, EltTy.bits .f32 = 32 ∨ (Rect.block (s := S800000x64) S8000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x128.size a ≤ S128x128.size a
  hwx1_9 : ∀ i : grid1.Coords, EltTy.bits .f32 = 32 ∨ (Rect.block (s := S128x128) S128x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S8000x128.size a ≤ S800000x128.size a
  hwx1_11 : ∀ i : grid1.Coords, EltTy.bits .f32 = 32 ∨ (Rect.block (s := S800000x128) S8000x128.size (cc1_transform_11 i) (hinb1_11 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x128.size a ≤ S64x128.size a
  hwx3_2 : ∀ i : grid3.Coords, EltTy.bits .f32 = 32 ∨ (Rect.block (s := S64x128) S64x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S128x64.size a ≤ S128x64.size a
  hwx3_9 : ∀ i : grid3.Coords, EltTy.bits .f32 = 32 ∨ (Rect.block (s := S128x64) S128x64.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x64.size a ≤ S1x64.size a
  hwx3_10 : ∀ i : grid3.Coords, EltTy.bits .f32 = 32 ∨ (Rect.block (s := S1x64) S1x64.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S5000x64.size a ≤ S50000x64.size a
  hwx3_11 : ∀ i : grid3.Coords, EltTy.bits .f32 = 32 ∨ (Rect.block (s := S50000x64) S5000x64.size (cc3_transform_11 i) (hinb3_11 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v10) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17_0) S1x128.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17_1) S1x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v10) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S8000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v23) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v14) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v15) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg9) S128x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v16) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v24) S8000x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win2_0 : Pipeline.Window sig grid2 :=
  Pipeline.Window.ofSpec (Memref.whole main_arg0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v30) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v34_0) S1x128.size cc2_transform_5 reads2_5 true true 1 stage2_5 sem2_5
    hrank2 hreads2_5 hinb2_5 nbuf2_5 (Memref.isWhole_whole _) hwx2_5 hstage2_5

abbrev win2_6 : Pipeline.Window sig grid2 :=
  Pipeline.Window.ofSpec (Memref.whole main_v34_1) S1x128.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_arg0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v27) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v28) S64x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v29) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v30) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v36) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v40) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v31) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v32) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_arg15) S128x64.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v33) S1x64.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v41) S5000x64.size cc3_transform_11 reads3_11 true false 2 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x64 : Shape := ⟨2, ![800000, 64]⟩
abbrev S1x16 : Shape := ⟨2, ![1, 16]⟩
abbrev S50000 : Shape := ⟨1, ![50000]⟩
abbrev S128x128 : Shape := ⟨2, ![128, 128]⟩
abbrev S128 : Shape := ⟨1, ![128]⟩
abbrev S192x128 : Shape := ⟨2, ![192, 128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x128 : Shape := ⟨2, ![50000, 128]⟩
abbrev S50000x192 : Shape := ⟨2, ![50000, 192]⟩
abbrev S1x64 : Shape := ⟨2, ![1, 64]⟩

abbrev nBuf : Space → Nat
  | .hbm => 118
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x64, .f32⟩
  | .hbm, ⟨3, _⟩ => ⟨S1x16, .f32⟩
  | .hbm, ⟨4, _⟩ => ⟨S50000, .i32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S192x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128x64, .f32⟩
  | .hbm, ⟨16, _⟩ => ⟨S64, .f32⟩
  | .hbm, ⟨17, _⟩ => ⟨S1x800000, .i32⟩
  | .hbm, ⟨18, _⟩ => ⟨S800000, .i32⟩
  | .hbm, ⟨19, _⟩ => ⟨S1x800000, .i32⟩
  | .hbm, ⟨20, _⟩ => ⟨S800000, .i32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x64, .f32⟩
  | .hbm, ⟨30, _⟩ => ⟨S800000x128, .f32⟩
  | .hbm, ⟨31, _⟩ => ⟨S800000x128, .f32⟩
  | .hbm, ⟨32, _⟩ => ⟨S1x128, .f32⟩
  | .hbm, ⟨33, _⟩ => ⟨S800000x128, .f32⟩
  | .hbm, ⟨34, _⟩ => ⟨S800000x128, .f32⟩
  | .hbm, ⟨35, _⟩ => ⟨S_, .f32⟩
  | .hbm, ⟨36, _⟩ => ⟨S128, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S1x128, .f32⟩
  | .hbm, ⟨41, _⟩ => ⟨S800000x128, .f32⟩
  | .hbm, ⟨42, _⟩ => ⟨S800000x128, .f32⟩
  | .hbm, ⟨43, _⟩ => ⟨S800000x128, .f32⟩
  | .hbm, ⟨44, _⟩ => ⟨S_, .f32⟩
  | .hbm, ⟨45, _⟩ => ⟨S128, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S1x128, .f32⟩
  | .hbm, ⟨50, _⟩ => ⟨S800000x128, .f32⟩
  | .hbm, ⟨51, _⟩ => ⟨S800000x128, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S128, .f32⟩
  | .hbm, ⟨56, _⟩ => ⟨S1x128, .f32⟩
  | .hbm, ⟨57, _⟩ => ⟨S800000x128, .f32⟩
  | .hbm, ⟨58, _⟩ => ⟨S800000x128, .f32⟩
  | .hbm, ⟨59, _⟩ => ⟨S1x128, .f32⟩
  | .hbm, ⟨60, _⟩ => ⟨S800000x128, .f32⟩
  | .hbm, ⟨61, _⟩ => ⟨S800000x128, .f32⟩
  | .hbm, ⟨62, _⟩ => ⟨S1x128, .f32⟩
  | .hbm, ⟨63, _⟩ => ⟨S800000x128, .f32⟩
  | .hbm, ⟨64, _⟩ => ⟨S800000x128, .f32⟩
  | .hbm, ⟨65, _⟩ => ⟨S_, .f32⟩
  | .hbm, ⟨66, _⟩ => ⟨S800000x128, .f32⟩
  | .hbm, ⟨67, _⟩ => ⟨S800000x128, .f32⟩
  | .hbm, ⟨68, _⟩ => ⟨S800000x128, .f32⟩
  | .hbm, ⟨69, _⟩ => ⟨S1x128, .f32⟩
  | .hbm, ⟨70, _⟩ => ⟨S800000x128, .f32⟩
  | .hbm, ⟨71, _⟩ => ⟨S800000x128, .f32⟩
  | .hbm, ⟨72, _⟩ => ⟨S_, .f32⟩
  | .hbm, ⟨73, _⟩ => ⟨S50000x128, .f32⟩
  | .hbm, ⟨74, _⟩ => ⟨S800000x1, .i32⟩
  | .hbm, ⟨75, _⟩ => ⟨S50000x128, .f32⟩
  | .hbm, ⟨76, _⟩ => ⟨S50000x192, .f32⟩
  | .hbm, ⟨77, _⟩ => ⟨S50000x128, .f32⟩
  | .hbm, ⟨78, _⟩ => ⟨S1x128, .f32⟩
  | .hbm, ⟨79, _⟩ => ⟨S50000x128, .f32⟩
  | .hbm, ⟨80, _⟩ => ⟨S50000x128, .f32⟩
  | .hbm, ⟨81, _⟩ => ⟨S_, .f32⟩
  | .hbm, ⟨82, _⟩ => ⟨S128, .f32⟩
  | .hbm, ⟨83, _⟩ => ⟨S_, .f32⟩
  | .hbm, ⟨84, _⟩ => ⟨S128, .f32⟩
  | .hbm, ⟨85, _⟩ => ⟨S128, .f32⟩
  | .hbm, ⟨86, _⟩ => ⟨S1x128, .f32⟩
  | .hbm, ⟨87, _⟩ => ⟨S50000x128, .f32⟩
  | .hbm, ⟨88, _⟩ => ⟨S50000x128, .f32⟩
  | .hbm, ⟨89, _⟩ => ⟨S50000x128, .f32⟩
  | .hbm, ⟨90, _⟩ => ⟨S_, .f32⟩
  | .hbm, ⟨91, _⟩ => ⟨S128, .f32⟩
  | .hbm, ⟨92, _⟩ => ⟨S_, .f32⟩
  | .hbm, ⟨93, _⟩ => ⟨S128, .f32⟩
  | .hbm, ⟨94, _⟩ => ⟨S128, .f32⟩
  | .hbm, ⟨95, _⟩ => ⟨S1x128, .f32⟩
  | .hbm, ⟨96, _⟩ => ⟨S50000x128, .f32⟩
  | .hbm, ⟨97, _⟩ => ⟨S50000x128, .f32⟩
  | .hbm, ⟨98, _⟩ => ⟨S_, .f32⟩
  | .hbm, ⟨99, _⟩ => ⟨S128, .f32⟩
  | .hbm, ⟨100, _⟩ => ⟨S128, .f32⟩
  | .hbm, ⟨101, _⟩ => ⟨S128, .f32⟩
  | .hbm, ⟨102, _⟩ => ⟨S1x128, .f32⟩
  | .hbm, ⟨103, _⟩ => ⟨S50000x128, .f32⟩
  | .hbm, ⟨104, _⟩ => ⟨S50000x128, .f32⟩
  | .hbm, ⟨105, _⟩ => ⟨S1x128, .f32⟩
  | .hbm, ⟨106, _⟩ => ⟨S50000x128, .f32⟩
  | .hbm, ⟨107, _⟩ => ⟨S50000x128, .f32⟩
  | .hbm, ⟨108, _⟩ => ⟨S1x128, .f32⟩
  | .hbm, ⟨109, _⟩ => ⟨S50000x128, .f32⟩
  | .hbm, ⟨110, _⟩ => ⟨S50000x128, .f32⟩
  | .hbm, ⟨111, _⟩ => ⟨S_, .f32⟩
  | .hbm, ⟨112, _⟩ => ⟨S50000x128, .f32⟩
  | .hbm, ⟨113, _⟩ => ⟨S50000x128, .f32⟩
  | .hbm, ⟨114, _⟩ => ⟨S50000x64, .f32⟩
  | .hbm, ⟨115, _⟩ => ⟨S1x64, .f32⟩
  | .hbm, ⟨116, _⟩ => ⟨S50000x64, .f32⟩
  | .hbm, ⟨117, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst : Ref sig .tc := ⟨.hbm, 35, rfl⟩
abbrev main_v16 : Ref sig .tc := ⟨.hbm, 36, rfl⟩
abbrev main_cst_1 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_2 : Ref sig .tc := ⟨.hbm, 44, rfl⟩
abbrev main_v23 : Ref sig .tc := ⟨.hbm, 45, rfl⟩
abbrev main_cst_3 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_4 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_call0_cst : Ref sig .tc := ⟨.hbm, 65, rfl⟩
abbrev main_call0_v0 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_5 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_6 : Ref sig .tc := ⟨.hbm, 81, rfl⟩
abbrev main_v54 : Ref sig .tc := ⟨.hbm, 82, rfl⟩
abbrev main_cst_7 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_8 : Ref sig .tc := ⟨.hbm, 90, rfl⟩
abbrev main_v61 : Ref sig .tc := ⟨.hbm, 91, rfl⟩
abbrev main_cst_9 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_10 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_call1_cst : Ref sig .tc := ⟨.hbm, 111, rfl⟩
abbrev main_call1_v0 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  reducesTo_S800000x128_S128_d0 : S800000x128.ReducesTo [0] S128
  h_S_ : 0 < S_.numel
  bcast_S_S128 : S_.BroadcastsInDim S128 (![] : Fin 0 → Fin S128.rank)
  bcast_S_S800000x128 : S_.BroadcastsInDim S800000x128 (![] : Fin 0 → Fin S800000x128.rank)
  bcast_S_S50000x128 : S_.BroadcastsInDim S50000x128 (![] : Fin 0 → Fin S50000x128.rank)
  concatenates_S50000x64_S50000x128_S50000x192_d1 : Shape.Concatenates [S50000x64, S50000x128] S50000x192 1
  bcast_S1x128_S50000x128_0_1 : S1x128.BroadcastsInDim S50000x128 (![0, 1] : Fin 2 → Fin S50000x128.rank)
  reducesTo_S50000x128_S128_d0 : S50000x128.ReducesTo [0] S128
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x192_S192x128_S50000x128_1_0_0_1_n_n_wf : DotDims.WF S50000x192 S192x128 S50000x128 [1] [0] [0] [1] [] []
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x192_S192x128_S50000x128_1_0_0_1_n_n : DotDims S50000x192 S192x128 S50000x128 where
  lhsContracting := [1]
  rhsContracting := [0]
  lhsNonContracting := [0]
  rhsNonContracting := [1]
  lhsBatch := []
  rhsBatch := []
  wf := dot_S50000x192_S192x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
/-
  Two layers of "linear map, normalisation over the rows, rectifier, linear map", written over the extended reals, with
  the normalising statistics computed in two ways.

  A layer takes two blocks of input columns `A` (R × Ka) and `B` (R × Kb), their weights `Wa`, `Wb`, a bias, and forms
  the hidden rows  h r j = Σₖ A r k · Wa k j + Σₖ B r k · Wb k j + bias j.  Each hidden column is normalised by its mean
  and variance over ALL rows, scaled and shifted, cut at zero from below, and sent through a second linear map.

  The two ways to get the statistics of column j:
    * from the two column sums  S j = Σᵣ h r j  and  Q j = Σᵣ (h r j)²:  mean = S/n,  variance = Q/n − (S/n)²;
    * directly:  mean = (0 + Σᵣ h r j)/n,  variance = (0 + Σᵣ (h r j − mean)²)/n.
  Over the reals with n the number of rows these agree (E[(h − μ)²] = E[h²] − μ²); over the extended reals they agree
  when every hidden entry is a real number, which holds when every input entry is one.
-/
import Idealize.ShloMosaic.PureOps.Ideal

noncomputable section

open scoped BigOperators

namespace Cert.Spec

open Idealize.ShloMosaic

variable {R Ka Kb H O : ℕ}

/-- An array of extended reals all of whose entries are real numbers. -/
def Fin2 {M N : ℕ} (f : Fin M → Fin N → EReal) : Prop := ∀ a b, ∃ x : ℝ, f a b = (x : EReal)
/-- A vector of extended reals all of whose entries are real numbers. -/
def Fin1 {N : ℕ} (f : Fin N → EReal) : Prop := ∀ a, ∃ x : ℝ, f a = (x : EReal)

/-- The hidden rows: row `r` of `A` against `Wa`, plus row `r` of `B` against `Wb`, plus the bias. -/
def hid (A : Fin R → Fin Ka → EReal) (B : Fin R → Fin Kb → EReal) (Wa : Fin Ka → Fin H → EReal)
    (Wb : Fin Kb → Fin H → EReal) (bias : Fin H → EReal) : Fin R → Fin H → EReal :=
  fun r j => (∑ k, A r k * Wa k j + ∑ k, B r k * Wb k j) + bias j

/-- The sum of each column over all rows. -/
def colSum (h : Fin R → Fin H → EReal) : Fin H → EReal := fun j => ∑ r, h r j
/-- The sum of the squares of each column over all rows. -/
def colSumSq (h : Fin R → Fin H → EReal) : Fin H → EReal := fun j => ∑ r, h r j * h r j

/-- The mean from the column sum. -/
def meanK (n : EReal) (s : Fin H → EReal) : Fin H → EReal := fun j => Ideal.div (s j) n
/-- The variance from the two column sums: the mean of the squares less the square of the mean. -/
def varK (n : EReal) (s q : Fin H → EReal) : Fin H → EReal :=
  fun j => Ideal.div (q j) n - Ideal.div (s j) n * Ideal.div (s j) n

/-- The mean taken directly (a sum from the initial value `z`, then the quotient). -/
def meanR (z n : EReal) (h : Fin R → Fin H → EReal) : Fin H → EReal := fun j => Ideal.div (z + ∑ r, h r j) n
/-- The variance taken directly: the mean of the squared deviations from the mean. -/
def varR (z n : EReal) (h : Fin R → Fin H → EReal) : Fin H → EReal :=
  fun j => Ideal.div (z + ∑ r, (h r j - meanR z n h j) * (h r j - meanR z n h j)) n

/-- Normalise, scale, shift and cut at `z` from below. -/
def act (h : Fin R → Fin H → EReal) (mean var g be : Fin H → EReal) (eps z : EReal) : Fin R → Fin H → EReal :=
  fun r k => max (((h r k - mean k) * Ideal.rsqrt (var k + eps)) * g k + be k) z

/-- The second linear map. -/
def lin (a : Fin R → Fin H → EReal) (W : Fin H → Fin O → EReal) (b : Fin O → EReal) : Fin R → Fin O → EReal :=
  fun r o => ∑ k, a r k * W k o + b o

/-- A layer with the statistics taken from the two column sums. -/
def layerK (n eps z : EReal) (A : Fin R → Fin Ka → EReal) (B : Fin R → Fin Kb → EReal) (Wa : Fin Ka → Fin H → EReal)
    (Wb : Fin Kb → Fin H → EReal) (bias g be : Fin H → EReal) (W2 : Fin H → Fin O → EReal) (b2 : Fin O → EReal) :
    Fin R → Fin O → EReal :=
  lin (act (hid A B Wa Wb bias) (meanK n (colSum (hid A B Wa Wb bias)))
    (varK n (colSum (hid A B Wa Wb bias)) (colSumSq (hid A B Wa Wb bias))) g be eps z) W2 b2

/-- A layer with the statistics taken directly. -/
def layerR (n eps z : EReal) (A : Fin R → Fin Ka → EReal) (B : Fin R → Fin Kb → EReal) (Wa : Fin Ka → Fin H → EReal)
    (Wb : Fin Kb → Fin H → EReal) (bias g be : Fin H → EReal) (W2 : Fin H → Fin O → EReal) (b2 : Fin O → EReal) :
    Fin R → Fin O → EReal :=
  lin (act (hid A B Wa Wb bias) (meanR z n (hid A B Wa Wb bias)) (varR z n (hid A B Wa Wb bias)) g be eps z) W2 b2

/-- Joining the columns of two blocks side by side. -/
def cat (A : Fin R → Fin Ka → EReal) (B : Fin R → Fin Kb → EReal) : Fin R → Fin (Ka + Kb) → EReal :=
  fun r k => Fin.addCases (A r) (B r) k

/-- The coercion of a finite sum of reals is the sum of the coercions. -/
theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- Sums, differences, products and maxima of real numbers, and finite sums of them, are real numbers. -/
theorem real_add {a b : EReal} (ha : ∃ x : ℝ, a = (x : EReal)) (hb : ∃ y : ℝ, b = (y : EReal)) :
    ∃ z : ℝ, a + b = (z : EReal) := by
  obtain ⟨x, rfl⟩ := ha; obtain ⟨y, rfl⟩ := hb; exact ⟨x + y, (EReal.coe_add x y).symm⟩

theorem real_sub {a b : EReal} (ha : ∃ x : ℝ, a = (x : EReal)) (hb : ∃ y : ℝ, b = (y : EReal)) :
    ∃ z : ℝ, a - b = (z : EReal) := by
  obtain ⟨x, rfl⟩ := ha; obtain ⟨y, rfl⟩ := hb; exact ⟨x - y, (EReal.coe_sub x y).symm⟩

theorem real_mul {a b : EReal} (ha : ∃ x : ℝ, a = (x : EReal)) (hb : ∃ y : ℝ, b = (y : EReal)) :
    ∃ z : ℝ, a * b = (z : EReal) := by
  obtain ⟨x, rfl⟩ := ha; obtain ⟨y, rfl⟩ := hb; exact ⟨x * y, (EReal.coe_mul x y).symm⟩

theorem real_max {a b : EReal} (ha : ∃ x : ℝ, a = (x : EReal)) (hb : ∃ y : ℝ, b = (y : EReal)) :
    ∃ z : ℝ, max a b = (z : EReal) := by
  obtain ⟨x, rfl⟩ := ha; obtain ⟨y, rfl⟩ := hb
  rcases le_total x y with hxy | hxy
  · exact ⟨y, max_eq_right (EReal.coe_le_coe_iff.mpr hxy)⟩
  · exact ⟨x, max_eq_left (EReal.coe_le_coe_iff.mpr hxy)⟩

theorem real_sum {ι : Type} {s : Finset ι} {f : ι → EReal} (hf : ∀ i, ∃ x : ℝ, f i = (x : EReal)) :
    ∃ z : ℝ, ∑ i ∈ s, f i = (z : EReal) := by
  choose x hx using hf
  exact ⟨∑ i ∈ s, x i, by rw [coe_sum]; exact Finset.sum_congr rfl fun i _ => hx i⟩

/-- A product against the joined columns splits into the two blocks' products (no finiteness needed: only the
    order of a finite sum changes). -/
theorem sum_cat (A : Fin R → Fin Ka → EReal) (B : Fin R → Fin Kb → EReal) (W : Fin (Ka + Kb) → Fin H → EReal)
    (r : Fin R) (j : Fin H) :
    ∑ k, cat A B r k * W k j
      = ∑ k, A r k * W (Fin.castAdd Kb k) j + ∑ k, B r k * W (Fin.natAdd Ka k) j := by
  rw [Fin.sum_univ_add]
  simp only [cat, Fin.addCases_left, Fin.addCases_right]

/-- A sum over `T` consecutive blocks of `tile` rows each is the sum over all `T * tile` rows. -/
theorem sum_tiles {M : Type} [AddCommMonoid M] (T tile : ℕ) (f : Fin (T * tile) → M) :
    ∑ t : Fin T, ∑ q : Fin tile, f ⟨t.val * tile + q.val, by
      have := t.isLt; have := q.isLt; nlinarith⟩ = ∑ r, f r := by
  -- pairs (block, place in the block) are in bijection with the rows: (t, q) ↦ q + tile · t
  rw [← Equiv.sum_comp (finProdFinEquiv : Fin T × Fin tile ≃ Fin (T * tile)) f, Fintype.sum_prod_type]
  refine Finset.sum_congr rfl fun t _ => Finset.sum_congr rfl fun q _ => ?_
  congr 1
  apply Fin.ext
  simp only [finProdFinEquiv_apply_val]
  rw [Nat.mul_comm, Nat.add_comm]

/-- The hidden rows of real inputs are real. -/
theorem hid_fin {A : Fin R → Fin Ka → EReal} {B : Fin R → Fin Kb → EReal} {Wa : Fin Ka → Fin H → EReal}
    {Wb : Fin Kb → Fin H → EReal} {bias : Fin H → EReal} (hA : Fin2 A) (hB : Fin2 B) (hWa : Fin2 Wa) (hWb : Fin2 Wb)
    (hb : Fin1 bias) : Fin2 (hid A B Wa Wb bias) := by
  intro r j
  exact real_add (real_add (real_sum fun k => real_mul (hA r k) (hWa k j))
    (real_sum fun k => real_mul (hB r k) (hWb k j))) (hb j)

/-- For real hidden rows and `n` the (positive) number of rows, the mean from the column sum is the direct one. -/
theorem meanK_eq_meanR {h : Fin R → Fin H → EReal} (hh : Fin2 h) : meanK ((R : ℝ) : EReal) (colSum h) = meanR 0 ((R : ℝ) : EReal) h := by
  funext j
  simp only [meanK, meanR, colSum, zero_add]

/-- The direct mean of real rows, as a real number: the column sum over the number of rows. -/
theorem meanR_coe {h : Fin R → Fin H → EReal} {x : Fin R → Fin H → ℝ} (hx : ∀ r j, h r j = (x r j : EReal))
    (hR : 0 < R) (j : Fin H) :
    meanR 0 ((R : ℝ) : EReal) h j = (((∑ r, x r j) * (1 / (R : ℝ)) : ℝ) : EReal) := by
  have hn : (R : ℝ) ≠ 0 := by exact_mod_cast hR.ne'
  simp only [meanR, hx, zero_add]
  rw [Ideal.div_coe hn, ← coe_sum, ← EReal.coe_mul]

/-- The direct variance of real rows, as a real number: the mean of the squared deviations. -/
theorem varR_coe {h : Fin R → Fin H → EReal} {x : Fin R → Fin H → ℝ} (hx : ∀ r j, h r j = (x r j : EReal))
    (hR : 0 < R) (j : Fin H) :
    varR 0 ((R : ℝ) : EReal) h j
      = (((∑ r, (x r j - (∑ r, x r j) * (1 / (R : ℝ))) * (x r j - (∑ r, x r j) * (1 / (R : ℝ)))) * (1 / (R : ℝ)) : ℝ) : EReal) := by
  have hn : (R : ℝ) ≠ 0 := by exact_mod_cast hR.ne'
  simp only [varR, meanR_coe hx hR, zero_add]
  simp only [hx, ← EReal.coe_sub, ← EReal.coe_mul]
  rw [Ideal.div_coe hn, ← coe_sum, ← EReal.coe_mul]

/-- For real hidden rows and `n` the (positive) number of rows, the variance from the two column sums is the direct one:
    the mean of the squares less the square of the mean is the mean of the squared deviations. -/
theorem varK_eq_varR {h : Fin R → Fin H → EReal} (hh : Fin2 h) (hR : 0 < R) :
    varK ((R : ℝ) : EReal) (colSum h) (colSumSq h) = varR 0 ((R : ℝ) : EReal) h := by
  funext j
  choose x hx using hh
  have hn : (R : ℝ) ≠ 0 := by exact_mod_cast hR.ne'
  rw [varR_coe hx hR]
  simp only [varK, colSum, colSumSq, hx, ← EReal.coe_mul]
  rw [Ideal.div_coe hn, Ideal.div_coe hn, ← coe_sum, ← coe_sum, ← EReal.coe_mul, ← EReal.coe_mul, ← EReal.coe_mul,
    ← EReal.coe_sub]
  congr 1
  -- over the reals: Σ (x − μ)² = Σ x² − 2 μ Σ x + n μ², with μ = (Σ x)/n
  have hdev : ∀ m : ℝ, ∑ r, (x r j - m) * (x r j - m)
      = ∑ r, x r j * x r j - 2 * m * ∑ r, x r j + (R : ℝ) * (m * m) := by
    intro m
    have : ∀ r, (x r j - m) * (x r j - m) = x r j * x r j - 2 * m * x r j + m * m := fun r => by ring
    simp only [this, Finset.sum_add_distrib, Finset.sum_sub_distrib, ← Finset.mul_sum, Finset.sum_const,
      Finset.card_univ, Fintype.card_fin, nsmul_eq_mul]
    ring
  rw [hdev]
  field_simp
  ring

/-- So on real inputs the two layers are one function. -/
theorem layerK_eq_layerR {A : Fin R → Fin Ka → EReal} {B : Fin R → Fin Kb → EReal} {Wa : Fin Ka → Fin H → EReal}
    {Wb : Fin Kb → Fin H → EReal} {bias : Fin H → EReal} (g be : Fin H → EReal) (W2 : Fin H → Fin O → EReal) (b2 : Fin O → EReal)
    (eps : EReal) (hA : Fin2 A) (hB : Fin2 B) (hWa : Fin2 Wa) (hWb : Fin2 Wb) (hb : Fin1 bias) (hR : 0 < R) :
    layerK ((R : ℝ) : EReal) eps 0 A B Wa Wb bias g be W2 b2 = layerR ((R : ℝ) : EReal) eps 0 A B Wa Wb bias g be W2 b2 := by
  have hh := hid_fin hA hB hWa hWb hb
  unfold layerK layerR
  rw [meanK_eq_meanR hh, varK_eq_varR hh hR]

/-- The direct variance of real hidden rows is a nonnegative real. -/
theorem varR_nonneg {h : Fin R → Fin H → EReal} (hh : Fin2 h) (hR : 0 < R) (j : Fin H) :
    ∃ v : ℝ, 0 ≤ v ∧ varR 0 ((R : ℝ) : EReal) h j = (v : EReal) := by
  choose x hx using hh
  have hn : (0 : ℝ) < (R : ℝ) := by exact_mod_cast hR
  refine ⟨_, ?_, varR_coe hx hR j⟩
  exact mul_nonneg (Finset.sum_nonneg fun r _ => mul_self_nonneg _) (one_div_pos.mpr hn).le

/-- A layer of real inputs and real parameters, with a positive real `eps`, has real outputs: the variance is
    nonnegative, so the reciprocal square root is taken of a positive real. -/
theorem layerR_fin {A : Fin R → Fin Ka → EReal} {B : Fin R → Fin Kb → EReal} {Wa : Fin Ka → Fin H → EReal}
    {Wb : Fin Kb → Fin H → EReal} {bias g be : Fin H → EReal} {W2 : Fin H → Fin O → EReal} {b2 : Fin O → EReal}
    {eps : EReal} (hA : Fin2 A) (hB : Fin2 B) (hWa : Fin2 Wa) (hWb : Fin2 Wb) (hb : Fin1 bias) (hg : Fin1 g) (hbe : Fin1 be)
    (hW2 : Fin2 W2) (hb2 : Fin1 b2) (heps : ∃ e : ℝ, 0 < e ∧ eps = (e : EReal)) (hR : 0 < R) :
    Fin2 (layerR ((R : ℝ) : EReal) eps 0 A B Wa Wb bias g be W2 b2) := by
  have hh := hid_fin hA hB hWa hWb hb
  obtain ⟨e, he, rfl⟩ := heps
  intro r o
  refine real_add (real_sum fun k => real_mul ?_ (hW2 k o)) (hb2 o)
  -- the mean is real
  have hmean : ∃ m : ℝ, meanR 0 ((R : ℝ) : EReal) (hid A B Wa Wb bias) k = (m : EReal) := by
    choose x hx using hh
    exact ⟨_, meanR_coe hx hR k⟩
  -- the reciprocal square root is taken of a positive real, so it is real
  have hrs : ∃ s : ℝ, Ideal.rsqrt (varR 0 ((R : ℝ) : EReal) (hid A B Wa Wb bias) k + (e : EReal)) = (s : EReal) := by
    obtain ⟨v, hv, hvar⟩ := varR_nonneg hh hR k
    have hpos : 0 < v + e := by linarith
    refine ⟨(Real.sqrt (v + e))⁻¹, ?_⟩
    rw [hvar, ← EReal.coe_add, Ideal.rsqrt_coe, if_neg (not_lt.mpr hpos.le), if_neg hpos.ne']
  exact real_max (real_add (real_mul (real_mul (real_sub (hh r k) hmean) hrs) (hg k)) (hbe k)) ⟨0, rfl⟩

end Cert.Spec

end
-- ==== Proof.Curry.lean ====
/-
  Arrays as functions of their coordinates: a matrix as a function of (row, column), a one-row matrix as a function of
  the column, a vector as a function of the position; and back.
-/
import Idealize.ShloMosaic.Lib.ValueIdx

namespace Cert.Spec

open Idealize.ShloMosaic Idealize.ShloMosaic.ValueIdx

/-- A matrix as a function of its row and its column. -/
abbrev cur2 {α : Type} {M N : ℕ} (f : (⟨2, ![M, N]⟩ : Shape).Idx → α) : Fin M → Fin N → α := fun a b => f (ix2 a b)
/-- A one-row matrix as a function of its column. -/
abbrev row1 {α : Type} {N : ℕ} (f : (⟨2, ![1, N]⟩ : Shape).Idx → α) : Fin N → α := fun b => f (ix2 (0 : Fin 1) b)
/-- A vector as a function of its position. -/
abbrev cur1 {α : Type} {N : ℕ} (f : (⟨1, ![N]⟩ : Shape).Idx → α) : Fin N → α := fun b => f (ix1 b)
/-- A function of (row, column) as a matrix. -/
def unc2 {α : Type} {M N : ℕ} (g : Fin M → Fin N → α) : (⟨2, ![M, N]⟩ : Shape).Idx → α := fun i => g (i 0) (i 1)

theorem unc2_ix2 {α : Type} {M N : ℕ} (g : Fin M → Fin N → α) (a : Fin M) (b : Fin N) : unc2 g (ix2 a b) = g a b := rfl

/-- A matrix is determined by its entries at every (row, column). -/
theorem eq_unc2 {α : Type} {M N : ℕ} (f : (⟨2, ![M, N]⟩ : Shape).Idx → α) (g : Fin M → Fin N → α)
    (h : ∀ a b, f (ix2 a b) = g a b) : f = unc2 g := by
  funext i
  rw [eq_ix2 i]
  exact h _ _

end Cert.Spec
-- ==== Proof.Top.lean ====
/-
  The whole network as one function of its inputs, in two forms: two layers with a scatter-sum between them, the
  statistics of each layer taken from the column sums (`netK`) or directly (`netR`). The first layer reads the gathered
  node rows `xg` and the edge rows `ea` against the top and the bottom rows of `W1a`; the scatter-sum `scat` turns the
  per-edge outputs into per-node rows; the second layer reads the node rows `x` and the summed rows against the top and
  the bottom rows of `W1b`. On real inputs the two forms agree, provided `scat` keeps real arrays real.
-/
import proofs.«151635_j7464653160946_1_alg».proof.Proof.Spec

noncomputable section

open scoped BigOperators

namespace Cert.Spec

open Idealize.ShloMosaic

variable {E N D1 D2 Hh O : ℕ}

/-- The network with each layer's statistics taken from its column sums. -/
def netK (nE nN eps z : EReal) (scat : (Fin E → Fin Hh → EReal) → Fin N → Fin Hh → EReal)
    (xg : Fin E → Fin D1 → EReal) (ea : Fin E → Fin D2 → EReal) (W1a : Fin (D1 + D2) → Fin Hh → EReal)
    (b1a g1a be1a : Fin Hh → EReal) (W2a : Fin Hh → Fin Hh → EReal) (b2a : Fin Hh → EReal)
    (x : Fin N → Fin D1 → EReal) (W1b : Fin (D1 + Hh) → Fin Hh → EReal) (b1b g1b be1b : Fin Hh → EReal)
    (W2b : Fin Hh → Fin O → EReal) (b2b : Fin O → EReal) : Fin N → Fin O → EReal :=
  layerK nN eps z x
    (scat (layerK nE eps z xg ea (fun k => W1a (Fin.castAdd D2 k)) (fun k => W1a (Fin.natAdd D1 k)) b1a g1a be1a W2a b2a))
    (fun k => W1b (Fin.castAdd Hh k)) (fun k => W1b (Fin.natAdd D1 k)) b1b g1b be1b W2b b2b

/-- The network with each layer's statistics taken directly. -/
def netR (nE nN eps z : EReal) (scat : (Fin E → Fin Hh → EReal) → Fin N → Fin Hh → EReal)
    (xg : Fin E → Fin D1 → EReal) (ea : Fin E → Fin D2 → EReal) (W1a : Fin (D1 + D2) → Fin Hh → EReal)
    (b1a g1a be1a : Fin Hh → EReal) (W2a : Fin Hh → Fin Hh → EReal) (b2a : Fin Hh → EReal)
    (x : Fin N → Fin D1 → EReal) (W1b : Fin (D1 + Hh) → Fin Hh → EReal) (b1b g1b be1b : Fin Hh → EReal)
    (W2b : Fin Hh → Fin O → EReal) (b2b : Fin O → EReal) : Fin N → Fin O → EReal :=
  layerR nN eps z x
    (scat (layerR nE eps z xg ea (fun k => W1a (Fin.castAdd D2 k)) (fun k => W1a (Fin.natAdd D1 k)) b1a g1a be1a W2a b2a))
    (fun k => W1b (Fin.castAdd Hh k)) (fun k => W1b (Fin.natAdd D1 k)) b1b g1b be1b W2b b2b

/-- On real inputs and parameters, with a positive real `eps`, the numbers of rows as the divisors and a scatter-sum that
    keeps real arrays real, the two forms of the network are one function: layer 1's two forms agree (its hidden rows
    are real), so the scatter-sum sees the same real array, whose image is real, so layer 2's hidden rows are real too. -/
theorem netK_eq_netR {scat : (Fin E → Fin Hh → EReal) → Fin N → Fin Hh → EReal}
    {xg : Fin E → Fin D1 → EReal} {ea : Fin E → Fin D2 → EReal} {W1a : Fin (D1 + D2) → Fin Hh → EReal}
    {b1a g1a be1a : Fin Hh → EReal} {W2a : Fin Hh → Fin Hh → EReal} {b2a : Fin Hh → EReal}
    {x : Fin N → Fin D1 → EReal} {W1b : Fin (D1 + Hh) → Fin Hh → EReal} {b1b : Fin Hh → EReal} (g1b be1b : Fin Hh → EReal)
    (W2b : Fin Hh → Fin O → EReal) (b2b : Fin O → EReal) {eps : EReal}
    (hscat : ∀ f, Fin2 f → Fin2 (scat f))
    (hxg : Fin2 xg) (hea : Fin2 ea) (hW1a : Fin2 W1a) (hb1a : Fin1 b1a) (hg1a : Fin1 g1a) (hbe1a : Fin1 be1a)
    (hW2a : Fin2 W2a) (hb2a : Fin1 b2a) (hx : Fin2 x) (hW1b : Fin2 W1b) (hb1b : Fin1 b1b)
    (heps : ∃ e : ℝ, 0 < e ∧ eps = (e : EReal)) (hE : 0 < E) (hN : 0 < N) :
    netK ((E : ℝ) : EReal) ((N : ℝ) : EReal) eps 0 scat xg ea W1a b1a g1a be1a W2a b2a x W1b b1b g1b be1b W2b b2b
      = netR ((E : ℝ) : EReal) ((N : ℝ) : EReal) eps 0 scat xg ea W1a b1a g1a be1a W2a b2a x W1b b1b g1b be1b W2b b2b := by
  -- the top and the bottom rows of a real array are real arrays
  have hWa1 : Fin2 (fun k => W1a (Fin.castAdd D2 k)) := fun k j => hW1a _ j
  have hWb1 : Fin2 (fun k => W1a (Fin.natAdd D1 k)) := fun k j => hW1a _ j
  have hWa2 : Fin2 (fun k => W1b (Fin.castAdd Hh k)) := fun k j => hW1b _ j
  have hWb2 : Fin2 (fun k => W1b (Fin.natAdd D1 k)) := fun k j => hW1b _ j
  unfold netK netR
  rw [layerK_eq_layerR g1a be1a W2a b2a eps hxg hea hWa1 hWb1 hb1a hE]
  exact layerK_eq_layerR g1b be1b W2b b2b eps hx
    (hscat _ (layerR_fin hxg hea hWa1 hWb1 hb1a hg1a hbe1a hW2a hb2a heps hE)) hWa2 hWb2 hb1b hN

end Cert.Spec

end
-- ==== Proof.LibRowOps.lean ====
/-
  Row-wise operations read at an index, at the ideal instance, for a matrix of any number of rows: a reduction along
  the columns (a sum, a maximum) read at a row is the sum, or the fold of `max`, over that row's entries; a vector of
  row values made a column and that column broadcast along the rows read at (row, column) are the row's value; and a
  matrix product into a zero accumulator read at (row, column) is the sum over the contracted axis of the row's entries
  against the column's. None of them depends on the other rows, which is why a kernel may cut the rows into blocks.
-/
import Idealize.ShloMosaic.PureOps.Ideal.Laws
import Idealize.ShloMosaic.Lib.ValueLayout

noncomputable section

open scoped BigOperators

namespace Cert.RowOps

open Idealize.ShloMosaic Idealize.ShloMosaic.ValueIdx

variable {R N K : ℕ} {φ φ₁ φ₂ : FTy} {α : Type}

/-- Over row `r` of an `R × N` matrix reduced along its columns, the source index with column `k` put back is
    `(r, k)`. -/
theorem lift_row (h : (⟨2, ![R, N]⟩ : Shape).Reduces [(1 : Fin 2)] ⟨1, ![R]⟩) (r : Fin R) (k : Fin N) :
    h.lift (ix1 r) k = ix2 r k := by
  funext c
  apply Fin.ext
  match c with
  | ⟨0, _⟩ => rfl
  | ⟨1, _⟩ => rfl

/-- A sum along the columns, read at row `r`: the sum of that row's entries. -/
theorem rowSum_apply (src : FVec Ideal ⟨2, ![R, N]⟩ φ) (acc : BitVec φ.bits)
    (h : (⟨2, ![R, N]⟩ : Shape).Reduces [(1 : Fin 2)] ⟨1, ![R]⟩) (hφ : FKind.Formats φ)
    (hacc : acc = FKind.add.neutral φ hφ) (r : Fin R) :
    multiReduction .add [(1 : Fin 2)] ⟨1, ![R]⟩ src acc h hφ hacc (ix1 r) = ∑ k : Fin N, src (ix2 r k) :=
  (Ideal.multiReduction_add_single src acc h hφ hacc (ix1 r)).trans
    (Finset.sum_congr rfl fun k _ => congrArg src (lift_row h r k))

/-- A maximum along the columns, read at row `r`: the fold of `max`, from the accumulator's value, over that row's
    entries. -/
theorem rowMax_apply (src : FVec Ideal ⟨2, ![R, N]⟩ φ) (acc : BitVec φ.bits)
    (h : (⟨2, ![R, N]⟩ : Shape).Reduces [(1 : Fin 2)] ⟨1, ![R]⟩) (hφ : FKind.Formats φ)
    (hacc : acc = FKind.maximumf.neutral φ hφ) (r : Fin R) :
    multiReduction .maximumf [(1 : Fin 2)] ⟨1, ![R]⟩ src acc h hφ hacc (ix1 r)
      = (Finset.univ : Finset (Fin N)).fold max (Ideal.ofBits φ acc) (fun k => src (ix2 r k)) := by
  have e : src ∘ h.lift (ix1 r) = fun k : Fin N => src (ix2 r k) := funext fun k => congrArg src (lift_row h r k)
  rw [Ideal.multiReduction_maximumf_single, e]
  rfl

/-- A vector of `R` values made an `R × 1` column reads, at `(r, u)`, the value at `r`. -/
theorem shapeCast_a_a1_apply (x : (⟨1, ![R]⟩ : Shape).Idx → α) (h : (⟨1, ![R]⟩ : Shape).ShapeCasts ⟨2, ![R, 1]⟩)
    (r : Fin R) (u : Fin 1) : shapeCast ⟨2, ![R, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `R × 1` column broadcast along `N` columns reads, at `(r, c)`, the column's entry at row `r`. -/
theorem broadcastTo_a1_ab_apply (v : (⟨2, ![R, 1]⟩ : Shape).Idx → α) (h : (⟨2, ![R, 1]⟩ : Shape).Broadcasts ⟨2, ![R, N]⟩)
    (r : Fin R) (c : Fin N) : broadcastTo ⟨2, ![R, N]⟩ v h (ix2 r c) = v (ix2 r (0 : Fin 1)) := by
  refine broadcastTo_apply v h (ix2 r c) (ix2 r (0 : Fin 1)) fun ax => ?_
  match ax with
  | ⟨0, _⟩ =>
    show r.val = if R = 1 then 0 else r.val
    split
    · have := r.isLt; omega
    · rfl
  | ⟨1, _⟩ =>
    show (0 : ℕ) = if (1 : ℕ) = 1 then 0 else c.val
    rw [if_pos rfl]

/-- The two together: a vector of row values, made a column and broadcast along the columns, reads the row's value. -/
theorem rowSplat_apply (x : (⟨1, ![R]⟩ : Shape).Idx → α) (hc : (⟨1, ![R]⟩ : Shape).ShapeCasts ⟨2, ![R, 1]⟩)
    (hb : (⟨2, ![R, 1]⟩ : Shape).Broadcasts ⟨2, ![R, N]⟩) (r : Fin R) (c : Fin N) :
    broadcastTo ⟨2, ![R, N]⟩ (shapeCast ⟨2, ![R, 1]⟩ x hc) hb (ix2 r c) = x (ix1 r) := by
  rw [broadcastTo_a1_ab_apply, shapeCast_a_a1_apply]

/-- A matrix index whose two coordinates are known is `ix2` of them. -/
theorem eq_ix2_of_val {n0 n1 : ℕ} (i : (⟨2, ![n0, n1]⟩ : Shape).Idx) (a : Fin n0) (b : Fin n1)
    (h0 : (i (0 : Fin 2)).val = a.val) (h1 : (i (1 : Fin 2)).val = b.val) : i = ix2 a b := by
  funext c
  apply Fin.ext
  match c with
  | ⟨0, _⟩ => exact h0
  | ⟨1, _⟩ => exact h1

/-- With no batch axes and the rows the left operand's one free axis, the left index's row is the result index's row,
    whatever the contraction position. -/
theorem lhsIdx_row (d : DotDims ⟨2, ![R, K]⟩ ⟨2, ![K, N]⟩ ⟨2, ![R, N]⟩)
    (hln : d.lhsNonContracting = [(0 : Fin 2)]) (hlb : d.lhsBatch = [])
    (j : (⟨2, ![R, N]⟩ : Shape).Idx) (q : d.contr.Idx) : (d.lhsIdx j q (0 : Fin 2)).val = (j (0 : Fin 2)).val := by
  have hnb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hnb, dif_pos hn]
  simp only [Fin.val_cast]
  have key : ∀ (p p' : ℕ) (hp : p < 2) (hp' : p' < 2), p = p' → (j ⟨p, hp⟩).val = (j ⟨p', hp'⟩).val :=
    fun p p' hp hp' e => by subst e; rfl
  exact key _ _ _ _ (by simp [hlb, hln])

/-- With no batch axes, the rows the left operand's one free axis and the columns the right operand's, the right index's
    column is the result index's column, whatever the contraction position. -/
theorem rhsIdx_col (d : DotDims ⟨2, ![R, K]⟩ ⟨2, ![K, N]⟩ ⟨2, ![R, N]⟩)
    (hln : d.lhsNonContracting = [(0 : Fin 2)]) (hrn : d.rhsNonContracting = [(1 : Fin 2)])
    (hlb : d.lhsBatch = []) (hrb : d.rhsBatch = [])
    (j : (⟨2, ![R, N]⟩ : Shape).Idx) (q : d.contr.Idx) : (d.rhsIdx j q (1 : Fin 2)).val = (j (1 : Fin 2)).val := by
  have hnb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hnb, dif_pos hn]
  simp only [Fin.val_cast]
  have key : ∀ (p p' : ℕ) (hp : p < 2) (hp' : p' < 2), p = p' → (j ⟨p, hp⟩).val = (j ⟨p', hp'⟩).val :=
    fun p p' hp hp' e => by subst e; rfl
  exact key _ _ _ _ (by simp [hlb, hln, hrn])

/-- A plain matrix product (`R × K` by `K × N`, the left operand's columns contracted against the right operand's rows,
    no batch axes) into the zero accumulator, read at `(r, j)`: the sum over `k` of row `r` of the left operand against
    column `j` of the right. -/
theorem matmul_row_apply (d : DotDims ⟨2, ![R, K]⟩ ⟨2, ![K, N]⟩ ⟨2, ![R, N]⟩)
    (hlc : d.lhsContracting = [(1 : Fin 2)]) (hrc : d.rhsContracting = [(0 : Fin 2)])
    (hln : d.lhsNonContracting = [(0 : Fin 2)]) (hrn : d.rhsNonContracting = [(1 : Fin 2)])
    (hlb : d.lhsBatch = []) (hrb : d.rhsBatch = [])
    (prec : Option ContractPrecision) (lhs : FVec Ideal ⟨2, ![R, K]⟩ φ₁) (rhs : FVec Ideal ⟨2, ![K, N]⟩ φ₂)
    (r : Fin R) (j : Fin N) :
    FloatOps.matmul d prec lhs rhs (constant ⟨2, ![R, N]⟩ .f32 0x00000000#32) (ix2 r j)
      = ∑ k : Fin K, lhs (ix2 r k) * rhs (ix2 k j) := by
  have hr : d.contr.rank = 1 := by rw [d.rank_contr, hlc]; rfl
  have hs : d.contr.size ⟨0, by omega⟩ = K := by
    have h0 : 0 < d.lhsContracting.length := by rw [hlc]; exact Nat.one_pos
    have e1 : d.lhsContracting[0] = (1 : Fin 2) := by simp [hlc]
    exact (d.size_contr 0 h0).trans (by rw [e1]; rfl)
  rw [Ideal.matmul_constant_zero_apply]
  refine ((contrEquiv1 d K hr hs).symm.sum_comp _).symm.trans (Finset.sum_congr rfl fun k _ => ?_)
  have hL : d.lhsIdx (ix2 r j) ((contrEquiv1 d K hr hs).symm k) = ix2 r k :=
    eq_ix2_of_val _ r k (lhsIdx_row d hln hlb _ _)
      ((d.lhsIdx_val_of_single hlc _ _).trans (contrEquiv1_symm_val d K hr hs k))
  have hR : d.rhsIdx (ix2 r j) ((contrEquiv1 d K hr hs).symm k) = ix2 k j :=
    eq_ix2_of_val _ k j ((d.rhsIdx_val_of_single hrc _ _).trans (contrEquiv1_symm_val d K hr hs k))
      (rhsIdx_col d hln hrn hlb hrb _ _)
  show lhs (d.lhsIdx (ix2 r j) ((contrEquiv1 d K hr hs).symm k)) * rhs (d.rhsIdx (ix2 r j) ((contrEquiv1 d K hr hs).symm k)) = _
  rw [hL, hR]

end Cert.RowOps

end
-- ==== Proof.Region0.lean ====
/-
  What pallas_call 0 (the statistics call over 800000 rows, 100 grid points of 8000 rows each) leaves in its two output arrays:
  the sum, and the sum of squares, of every hidden column over all 800000 rows. At each grid point the body adds the
  block's column sums to what the point before left (the first point starts from zero), so after point t the buffers
  hold the sums over the first (t+1)·8000 rows; only the last point's write-back reaches the array.
-/
import proofs.«151635_j7464653160946_1_alg».proof.Proof.Gen.KernelIdeal.Frame
import proofs.«151635_j7464653160946_1_alg».proof.Proof.Spec
import proofs.«151635_j7464653160946_1_alg».proof.Proof.Curry
import proofs.«151635_j7464653160946_1_alg».proof.Proof.LibRowOps
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.R0

open Cert.KernelIdeal Cert.KernelIdeal.Gen

open scoped BigOperators

/-! ## What each case of the body leaves in the two output buffers, for any float values -/

section Pieces

variable {F : FTy → Type} [FloatOps F]

theorem hz : (![0, 0] : Fin 2 → Nat) = fun _ => 0 := funext fun a => by fin_cases a <;> rfl

/-- At a later point the first output's buffer is left holding what it held plus the block's column sums. -/
theorem outB5 (c : Dev nD) (i : grid0.Coords) (arg1 : Memref sig .tc .vmem S8000x64 .f32) (harg1 : arg1.IsWhole) (arg2 : Memref sig .tc .vmem S8000x64 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond0_0 i)
    (x0 x1 : Vec F S8000x64 .f32) (x2 x3 : Vec F S64x128 .f32) (x4 xo5 xo6 : Vec F S1x128 .f32) :
    out0_B_5 c i arg1 harg1 arg2 harg2 arg3 harg3 arg4 harg4 arg5 harg5 arg6 harg6 arg7 harg7 hc0 x0 x1 x2 x3 x4 xo5 xo6 = k0_pay4 x0 x1 x2 x3 x4 xo5 := by
  unfold out0_B_5
  rw [View.read_writes_eq_canon _ _ _ (cover0_B_5 c i arg1 harg1 arg2 harg2 arg3 harg3 arg4 harg4 arg5 harg5 arg6 harg6 arg7 harg7 hc0 x0 x1 x2 x3 x4 xo5 xo6)]
  unfold kernelRun0_B
  dsimp only
  sl_unfold_words
  rw [View.canon_unit_zero hz]
  simp only [View.readAt_eq_ld, harg1.read_unread, harg2.read_unread, harg3.read_unread, harg4.read_unread, harg5.read_unread,
    harg6.read_unread, View.ld_unit_zero (S := S8000x64) hz, View.ld_unit_zero (S := S64x128) hz, View.ld_unit_zero (S := S1x128) hz]

/-- At a later point the second output's buffer is left holding what it held plus the block's column sums of squares. -/
theorem outB6 (c : Dev nD) (i : grid0.Coords) (arg1 : Memref sig .tc .vmem S8000x64 .f32) (harg1 : arg1.IsWhole) (arg2 : Memref sig .tc .vmem S8000x64 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond0_0 i)
    (x0 x1 : Vec F S8000x64 .f32) (x2 x3 : Vec F S64x128 .f32) (x4 xo5 xo6 : Vec F S1x128 .f32) :
    out0_B_6 c i arg1 harg1 arg2 harg2 arg3 harg3 arg4 harg4 arg5 harg5 arg6 harg6 arg7 harg7 hc0 x0 x1 x2 x3 x4 xo5 xo6 = k0_pay5 x0 x1 x2 x3 x4 xo6 := by
  unfold out0_B_6
  rw [View.read_writes_eq_canon _ _ _ (cover0_B_6 c i arg1 harg1 arg2 harg2 arg3 harg3 arg4 harg4 arg5 harg5 arg6 harg6 arg7 harg7 hc0 x0 x1 x2 x3 x4 xo5 xo6)]
  unfold kernelRun0_B
  dsimp only
  sl_unfold_words
  rw [View.canon_unit_zero hz]
  simp only [View.readAt_eq_ld, harg1.read_unread, harg2.read_unread, harg3.read_unread, harg4.read_unread, harg5.read_unread,
    harg7.read_unread, View.ld_unit_zero (S := S8000x64) hz, View.ld_unit_zero (S := S64x128) hz, View.ld_unit_zero (S := S1x128) hz]

/-- At the first point the first output's buffer is zeroed, read back, and left holding zero plus the block's column sums. -/
theorem outA5 (c : Dev nD) (i : grid0.Coords) (arg1 : Memref sig .tc .vmem S8000x64 .f32) (harg1 : arg1.IsWhole) (arg2 : Memref sig .tc .vmem S8000x64 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond0_0 i)
    (x0 x1 : Vec F S8000x64 .f32) (x2 x3 : Vec F S64x128 .f32) (x4 : Vec F S1x128 .f32) :
    out0_A_5 c i arg1 harg1 arg2 harg2 arg3 harg3 arg4 harg4 arg5 harg5 arg6 harg6 arg7 harg7 hc0 x0 x1 x2 x3 x4 = k0_pay4 x0 x1 x2 x3 x4 (k0_pay1 (F := F)) := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  unfold kernelRun0_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread,
    View.ld_unit_zero (S := S8000x64) hz, View.ld_unit_zero (S := S64x128) hz, View.ld_unit_zero (S := S1x128) hz]

/-- At the first point the second output's buffer likewise: zero plus the block's column sums of squares. -/
theorem outA6 (c : Dev nD) (i : grid0.Coords) (arg1 : Memref sig .tc .vmem S8000x64 .f32) (harg1 : arg1.IsWhole) (arg2 : Memref sig .tc .vmem S8000x64 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond0_0 i)
    (x0 x1 : Vec F S8000x64 .f32) (x2 x3 : Vec F S64x128 .f32) (x4 : Vec F S1x128 .f32) :
    out0_A_6 c i arg1 harg1 arg2 harg2 arg3 harg3 arg4 harg4 arg5 harg5 arg6 harg6 arg7 harg7 hc0 x0 x1 x2 x3 x4 = k0_pay5 x0 x1 x2 x3 x4 (k0_pay2 (F := F)) := by
  unfold out0_A_6
  rw [View.read_writes_eq_canon _ _ _ (cover0_A_6 c i arg1 harg1 arg2 harg2 arg3 harg3 arg4 harg4 arg5 harg5 arg6 harg6 arg7 harg7 hc0 x0 x1 x2 x3 x4)]
  unfold kernelRun0_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread,
    View.ld_unit_zero (S := S8000x64) hz, View.ld_unit_zero (S := S64x128) hz, View.ld_unit_zero (S := S1x128) hz]

end Pieces

/-! ## The body's arithmetic at an index, over the extended reals -/

/-- Over column j of an R × N matrix reduced along its rows, the source index with row k put back is (k, j). -/
theorem lift_col {R N : ℕ} (h : (⟨2, ![R, N]⟩ : Shape).Reduces [(0 : Fin 2)] ⟨1, ![N]⟩) (j : Fin N) (k : Fin R) :
    h.lift (ix1 j) k = ix2 k j := by
  funext c
  apply Fin.ext
  match c with
  | ⟨0, _⟩ => rfl
  | ⟨1, _⟩ => rfl

/-- A sum along the rows, read at column j: the sum of that column's entries. -/
theorem colSum_apply {R N : ℕ} {φ : FTy} (src : FVec Ideal ⟨2, ![R, N]⟩ φ) (acc : BitVec φ.bits)
    (h : (⟨2, ![R, N]⟩ : Shape).Reduces [(0 : Fin 2)] ⟨1, ![N]⟩) (hφ : FKind.Formats φ)
    (hacc : acc = FKind.add.neutral φ hφ) (j : Fin N) :
    multiReduction .add [(0 : Fin 2)] ⟨1, ![N]⟩ src acc h hφ hacc (ix1 j) = ∑ k : Fin R, src (ix2 k j) :=
  (Ideal.multiReduction_add_single src acc h hφ hacc (ix1 j)).trans
    (Finset.sum_congr rfl fun k _ => congrArg src (lift_col h j k))

/-- The zero row the first point stores is zero everywhere. -/
theorem pay1_apply (i : S1x128.Idx) : k0_pay1 (F := Ideal) i = 0 := Ideal.ofBits_zero_f32
theorem pay2_apply (i : S1x128.Idx) : k0_pay2 (F := Ideal) i = 0 := Ideal.ofBits_zero_f32

/-- The block's hidden entry at (q, j): row q of the first block against the first weights, plus row q of the second block
    against the second weights, plus the bias at j. -/
theorem pay3_apply (x0 x1 : Vec Ideal S8000x64 .f32) (x2 x3 : Vec Ideal S64x128 .f32) (x4 : Vec Ideal S1x128 .f32) (q : Fin 8000) (j : Fin 128) :
    k0_pay3 (F := Ideal) x0 x1 x2 x3 x4 (ix2 q j)
      = (∑ k : Fin 64, x0 (ix2 q k) * x2 (ix2 k j) + ∑ k : Fin 64, x1 (ix2 q k) * x3 (ix2 k j)) + x4 (ix2 (0 : Fin 1) j) := by
  unfold k0_pay3
  rw [shapeCast_self, shapeCast_self, shapeCast_self, shapeCast_self]
  rw [addf_apply, addf_apply]
  refine congrArg₂ (· + ·) (congrArg₂ (· + ·) ?_ ?_) ?_
  · exact Cert.RowOps.matmul_row_apply dot_S8000x64_S64x128_S8000x128_1_0_0_1_n_n rfl rfl rfl rfl rfl rfl none
      (truncf .bf16 x0 bitsLt_bf16_f32) (truncf .bf16 x2 bitsLt_bf16_f32) q j
  · exact Cert.RowOps.matmul_row_apply dot_S8000x64_S64x128_S8000x128_1_0_0_1_n_n rfl rfl rfl rfl rfl rfl none
      (truncf .bf16 x1 bitsLt_bf16_f32) (truncf .bf16 x3 bitsLt_bf16_f32) q j
  · exact broadcastTo_1b_ab_apply x4 broadcasts_S1x128_S8000x128 q j

/-- The running column sums updated by one block: the old value at column j plus the block's column sum. -/
theorem pay4_apply (x0 x1 : Vec Ideal S8000x64 .f32) (x2 x3 : Vec Ideal S64x128 .f32) (x4 xo : Vec Ideal S1x128 .f32) (j : Fin 128) :
    k0_pay4 (F := Ideal) x0 x1 x2 x3 x4 xo (ix2 (0 : Fin 1) j)
      = xo (ix2 (0 : Fin 1) j) + ∑ q : Fin 8000, k0_pay3 (F := Ideal) x0 x1 x2 x3 x4 (ix2 q j) := by
  unfold k0_pay4
  show shapeCast S1x128 xo shapeCasts_S1x128_S1x128 (ix2 (0 : Fin 1) j) + shapeCast S1x128 _ shapeCasts_S128_S1x128 (ix2 (0 : Fin 1) j) = _
  rw [shapeCast_self]
  refine congrArg (xo (ix2 (0 : Fin 1) j) + ·) ?_
  refine (shapeCast_a_1a_apply _ shapeCasts_S128_S1x128 (0 : Fin 1) j).trans ?_
  exact colSum_apply _ _ _ _ _ j

/-- The running column sums of squares updated by one block: the old value at column j plus the block's column sum of squares. -/
theorem pay5_apply (x0 x1 : Vec Ideal S8000x64 .f32) (x2 x3 : Vec Ideal S64x128 .f32) (x4 xo : Vec Ideal S1x128 .f32) (j : Fin 128) :
    k0_pay5 (F := Ideal) x0 x1 x2 x3 x4 xo (ix2 (0 : Fin 1) j)
      = xo (ix2 (0 : Fin 1) j) + ∑ q : Fin 8000, k0_pay3 (F := Ideal) x0 x1 x2 x3 x4 (ix2 q j) * k0_pay3 (F := Ideal) x0 x1 x2 x3 x4 (ix2 q j) := by
  unfold k0_pay5
  show shapeCast S1x128 xo shapeCasts_S1x128_S1x128 (ix2 (0 : Fin 1) j) + shapeCast S1x128 _ shapeCasts_S128_S1x128 (ix2 (0 : Fin 1) j) = _
  rw [shapeCast_self]
  refine congrArg (xo (ix2 (0 : Fin 1) j) + ·) ?_
  refine (shapeCast_a_1a_apply _ shapeCasts_S128_S1x128 (0 : Fin 1) j).trans ?_
  exact colSum_apply _ _ _ _ _ j

/-! ## Sums over the first rows -/

/-- A function of the rows as a function of the row NUMBER: zero from the number of rows on. -/
def pad {R : ℕ} (f : Fin R → EReal) (r : ℕ) : EReal := if h : r < R then f ⟨r, h⟩ else 0

/-- Its sum over the first R numbers is the sum over all rows. -/
theorem sum_pad {R : ℕ} (f : Fin R → EReal) : ∑ r ∈ Finset.range R, pad f r = ∑ r : Fin R, f r := by
  rw [Finset.sum_range]
  exact Finset.sum_congr rfl fun r _ => dif_pos r.isLt

variable (V : (c : Dev nD) → (b : Ref sig .tc) → Buf (Elt Ideal) ((c : Thread nD τ).loc b))

/-- The hidden rows this call sums: row r of the first input block against its weights, plus row r of the second
    against its weights, plus the bias (all read off the arrays as the call finds them). -/
abbrev hrows (c : Dev nD) : Fin 800000 → Fin 128 → EReal :=
  Spec.hid (Spec.cur2 (V c main_v10 : S800000x64.Idx → EReal)) (Spec.cur2 (V c main_arg2 : S800000x64.Idx → EReal))
    (Spec.cur2 (V c main_v11 : S64x128.Idx → EReal)) (Spec.cur2 (V c main_v12 : S64x128.Idx → EReal))
    (Spec.row1 (V c main_v13 : S1x128.Idx → EReal))

/-! ## The windows' blocks as rows of the arrays -/

/-- The two row-blocked inputs' block index at point t is (t, 0). -/
theorem idx_rows : ∀ t : Fin cfg0.N, (win0_0.index t 0 = t.val ∧ win0_0.index t 1 = 0) ∧ (win0_1.index t 0 = t.val ∧ win0_1.index t 1 = 0) :=
  (by decide +kernel : ∀ t : Fin grid0.N, (win0_0.index t 0 = t.val ∧ win0_0.index t 1 = 0) ∧ (win0_1.index t 0 = t.val ∧ win0_1.index t 1 = 0))

/-- The weights' and the bias's block index is (0, 0) at every point. -/
theorem idx_whole : ∀ t : Fin cfg0.N, (win0_2.index t 0 = 0 ∧ win0_2.index t 1 = 0) ∧ (win0_3.index t 0 = 0 ∧ win0_3.index t 1 = 0)
    ∧ (win0_4.index t 0 = 0 ∧ win0_4.index t 1 = 0) :=
  (by decide +kernel : ∀ t : Fin grid0.N, (win0_2.index t 0 = 0 ∧ win0_2.index t 1 = 0) ∧ (win0_3.index t 0 = 0 ∧ win0_3.index t 1 = 0)
    ∧ (win0_4.index t 0 = 0 ∧ win0_4.index t 1 = 0))

/-- Each input's block at point t, at its literal type. -/
abbrev ablk (c : Dev nD) (t : Fin cfg0.N) : Vec Ideal S8000x64 .f32 := iblk0 V c 0 t
abbrev bblk (c : Dev nD) (t : Fin cfg0.N) : Vec Ideal S8000x64 .f32 := iblk0 V c 1 t
abbrev wablk (c : Dev nD) (t : Fin cfg0.N) : Vec Ideal S64x128 .f32 := iblk0 V c 2 t
abbrev wbblk (c : Dev nD) (t : Fin cfg0.N) : Vec Ideal S64x128 .f32 := iblk0 V c 3 t
abbrev biasblk (c : Dev nD) (t : Fin cfg0.N) : Vec Ideal S1x128 .f32 := iblk0 V c 4 t

/-- Row q of the first input's block at point t is row t·8000 + q of its array. -/
theorem ablk_apply (c : Dev nD) (t : Fin cfg0.N) (q : Fin 8000) (k : Fin 64) (r : Fin 800000) (hr : r.val = t.val * 8000 + q.val) :
    ablk V c t (ix2 q k) = (V c main_v10 : S800000x64.Idx → EReal) (ix2 r k) := by
  unfold ablk iblk0
  rw [View.read_apply]
  show V c main_v10 _ = V c main_v10 _
  congr 1
  funext a
  apply Fin.ext
  match a with
  | ⟨0, _⟩ => show win0_0.index t 0 * 8000 + 1 * q.val = r.val; rw [(idx_rows t).1.1, hr]; omega
  | ⟨1, _⟩ => show win0_0.index t 1 * 64 + 1 * k.val = k.val; rw [(idx_rows t).1.2]; omega

/-- Row q of the second input's block at point t is row t·8000 + q of its array. -/
theorem bblk_apply (c : Dev nD) (t : Fin cfg0.N) (q : Fin 8000) (k : Fin 64) (r : Fin 800000) (hr : r.val = t.val * 8000 + q.val) :
    bblk V c t (ix2 q k) = (V c main_arg2 : S800000x64.Idx → EReal) (ix2 r k) := by
  unfold bblk iblk0
  rw [View.read_apply]
  show V c main_arg2 _ = V c main_arg2 _
  congr 1
  funext a
  apply Fin.ext
  match a with
  | ⟨0, _⟩ => show win0_1.index t 0 * 8000 + 1 * q.val = r.val; rw [(idx_rows t).2.1, hr]; omega
  | ⟨1, _⟩ => show win0_1.index t 1 * 64 + 1 * k.val = k.val; rw [(idx_rows t).2.2]; omega

/-- The first weights' block is the whole array at every point. -/
theorem wablk_apply (c : Dev nD) (t : Fin cfg0.N) (k : Fin 64) (j : Fin 128) :
    wablk V c t (ix2 k j) = (V c main_v11 : S64x128.Idx → EReal) (ix2 k j) := by
  unfold wablk iblk0
  rw [View.read_apply]
  show V c main_v11 _ = V c main_v11 _
  congr 1
  funext a
  apply Fin.ext
  match a with
  | ⟨0, _⟩ => show win0_2.index t 0 * 64 + 1 * k.val = k.val; rw [(idx_whole t).1.1]; omega
  | ⟨1, _⟩ => show win0_2.index t 1 * 128 + 1 * j.val = j.val; rw [(idx_whole t).1.2]; omega

/-- The second weights' block is the whole array at every point. -/
theorem wbblk_apply (c : Dev nD) (t : Fin cfg0.N) (k : Fin 64) (j : Fin 128) :
    wbblk V c t (ix2 k j) = (V c main_v12 : S64x128.Idx → EReal) (ix2 k j) := by
  unfold wbblk iblk0
  rw [View.read_apply]
  show V c main_v12 _ = V c main_v12 _
  congr 1
  funext a
  apply Fin.ext
  match a with
  | ⟨0, _⟩ => show win0_3.index t 0 * 64 + 1 * k.val = k.val; rw [(idx_whole t).2.1.1]; omega
  | ⟨1, _⟩ => show win0_3.index t 1 * 128 + 1 * j.val = j.val; rw [(idx_whole t).2.1.2]; omega

/-- The bias's block is the whole one-row array at every point. -/
theorem biasblk_apply (c : Dev nD) (t : Fin cfg0.N) (j : Fin 128) :
    biasblk V c t (ix2 (0 : Fin 1) j) = (V c main_v13 : S1x128.Idx → EReal) (ix2 (0 : Fin 1) j) := by
  unfold biasblk iblk0
  rw [View.read_apply]
  show V c main_v13 _ = V c main_v13 _
  congr 1
  funext a
  apply Fin.ext
  match a with
  | ⟨0, _⟩ => show win0_4.index t 0 * 1 + 1 * 0 = 0; rw [(idx_whole t).2.2.1]
  | ⟨1, _⟩ => show win0_4.index t 1 * 128 + 1 * j.val = j.val; rw [(idx_whole t).2.2.2]; omega

/-! ## The hidden block of a point is 8000 consecutive hidden rows -/

/-- The hidden block the body forms at point t. -/
abbrev hblk (c : Dev nD) (t : Fin cfg0.N) : Vec Ideal S8000x128 .f32 :=
  k0_pay3 (F := Ideal) (ablk V c t) (bblk V c t) (wablk V c t) (wbblk V c t) (biasblk V c t)

/-- Its row q is hidden row t·8000 + q. -/
theorem hblk_apply (c : Dev nD) (t : Fin cfg0.N) (q : Fin 8000) (j : Fin 128) (r : Fin 800000) (hr : r.val = t.val * 8000 + q.val) :
    hblk V c t (ix2 q j) = hrows V c r j := by
  refine (pay3_apply (ablk V c t) (bblk V c t) (wablk V c t) (wbblk V c t) (biasblk V c t) q j).trans ?_
  show _ = (∑ k : Fin 64, _ * _ + ∑ k : Fin 64, _ * _) + _
  refine congrArg₂ (· + ·) (congrArg₂ (· + ·) (Finset.sum_congr rfl fun k _ => ?_) (Finset.sum_congr rfl fun k _ => ?_)) ?_
  · exact congrArg₂ (· * ·) (ablk_apply V c t q k r hr) (wablk_apply V c t k j)
  · exact congrArg₂ (· * ·) (bblk_apply V c t q k r hr) (wbblk_apply V c t k j)
  · exact biasblk_apply V c t j

/-- A column of the hidden block, summed, is the column of the hidden rows summed over the block's 8000 row numbers. -/
theorem hblk_sum (c : Dev nD) (t : Fin cfg0.N) (j : Fin 128) (g : EReal → EReal) :
    ∑ q : Fin 8000, g (hblk V c t (ix2 q j)) = ∑ q ∈ Finset.range 8000, pad (fun r => g (hrows V c r j)) (t.val * 8000 + q) := by
  have ht : t.val < 100 := lt_of_lt_of_eq t.isLt N_0
  rw [Finset.sum_range]
  refine Finset.sum_congr rfl fun q _ => ?_
  have hlt : t.val * 8000 + q.val < 800000 := by have := q.isLt; omega
  unfold pad
  rw [dif_pos hlt]
  exact congrArg g (hblk_apply V c t q j ⟨_, hlt⟩ rfl)

/-! ## What the two output buffers hold after each point -/

/-- After the first point: the first block's column sums, and column sums of squares (zero, just stored and read back, plus them). -/
theorem at_first (c : Dev nD) (t : Fin cfg0.N) (h0 : t.val % 100 = 0) (j : Fin 128) :
    ((outsAt0 V c t.val t.isLt).1 : S1x128.Idx → EReal) (ix2 (0 : Fin 1) j) = ∑ q : Fin 8000, hblk V c t (ix2 q j)
    ∧ ((outsAt0 V c t.val t.isLt).2 : S1x128.Idx → EReal) (ix2 (0 : Fin 1) j)
        = ∑ q : Fin 8000, hblk V c t (ix2 q j) * hblk V c t (ix2 q j) := by
  rw [outsAt0_A V c t h0]
  dsimp only
  constructor
  · refine (congrFun (outA5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (ablk V c t) (bblk V c t) (wablk V c t) (wbblk V c t) (biasblk V c t)) (ix2 (0 : Fin 1) j)).trans ?_
    refine (pay4_apply (ablk V c t) (bblk V c t) (wablk V c t) (wbblk V c t) (biasblk V c t) (k0_pay1 (F := Ideal)) j).trans ?_
    rw [pay1_apply, zero_add]
  · refine (congrFun (outA6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (ablk V c t) (bblk V c t) (wablk V c t) (wbblk V c t) (biasblk V c t)) (ix2 (0 : Fin 1) j)).trans ?_
    refine (pay5_apply (ablk V c t) (bblk V c t) (wablk V c t) (wbblk V c t) (biasblk V c t) (k0_pay2 (F := Ideal)) j).trans ?_
    rw [pay2_apply, zero_add]

/-- After a later point: what the point before left, plus the block's column sums, and column sums of squares. -/
theorem at_later (c : Dev nD) (n : ℕ) (hn : n + 1 < cfg0.N) (j : Fin 128) :
    ((outsAt0 V c (n + 1) hn).1 : S1x128.Idx → EReal) (ix2 (0 : Fin 1) j)
        = ((outsAt0 V c n (Nat.lt_of_succ_lt hn)).1 : S1x128.Idx → EReal) (ix2 (0 : Fin 1) j)
          + ∑ q : Fin 8000, hblk V c ⟨n + 1, hn⟩ (ix2 q j)
    ∧ ((outsAt0 V c (n + 1) hn).2 : S1x128.Idx → EReal) (ix2 (0 : Fin 1) j)
        = ((outsAt0 V c n (Nat.lt_of_succ_lt hn)).2 : S1x128.Idx → EReal) (ix2 (0 : Fin 1) j)
          + ∑ q : Fin 8000, hblk V c ⟨n + 1, hn⟩ (ix2 q j) * hblk V c ⟨n + 1, hn⟩ (ix2 q j) := by
  have hN : cfg0.N = 100 := N_0
  have hB : ¬(⟨n + 1, hn⟩ : Fin cfg0.N).val % 100 = 0 := by dsimp only; omega
  rw [outsAt0_B V c ⟨n + 1, hn⟩ hB]
  dsimp only
  constructor
  · refine (congrFun (outB5 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => hB ((hcond0_0 ⟨n + 1, hn⟩).mp h)) (ablk V c ⟨n + 1, hn⟩) (bblk V c ⟨n + 1, hn⟩) (wablk V c ⟨n + 1, hn⟩) (wbblk V c ⟨n + 1, hn⟩) (biasblk V c ⟨n + 1, hn⟩)
      (outsAt0 V c n (Nat.lt_of_succ_lt hn)).1 (outsAt0 V c n (Nat.lt_of_succ_lt hn)).2) (ix2 (0 : Fin 1) j)).trans ?_
    exact pay4_apply (ablk V c ⟨n + 1, hn⟩) (bblk V c ⟨n + 1, hn⟩) (wablk V c ⟨n + 1, hn⟩) (wbblk V c ⟨n + 1, hn⟩) (biasblk V c ⟨n + 1, hn⟩) (outsAt0 V c n (Nat.lt_of_succ_lt hn)).1 j
  · refine (congrFun (outB6 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => hB ((hcond0_0 ⟨n + 1, hn⟩).mp h)) (ablk V c ⟨n + 1, hn⟩) (bblk V c ⟨n + 1, hn⟩) (wablk V c ⟨n + 1, hn⟩) (wbblk V c ⟨n + 1, hn⟩) (biasblk V c ⟨n + 1, hn⟩)
      (outsAt0 V c n (Nat.lt_of_succ_lt hn)).1 (outsAt0 V c n (Nat.lt_of_succ_lt hn)).2) (ix2 (0 : Fin 1) j)).trans ?_
    exact pay5_apply (ablk V c ⟨n + 1, hn⟩) (bblk V c ⟨n + 1, hn⟩) (wablk V c ⟨n + 1, hn⟩) (wbblk V c ⟨n + 1, hn⟩) (biasblk V c ⟨n + 1, hn⟩) (outsAt0 V c n (Nat.lt_of_succ_lt hn)).2 j

/-- So after point n the buffers hold the column sums, and column sums of squares, of the first (n+1)·8000 hidden rows. -/
theorem sums_upto (c : Dev nD) (j : Fin 128) : ∀ (n : ℕ) (hn : n < cfg0.N),
    ((outsAt0 V c n hn).1 : S1x128.Idx → EReal) (ix2 (0 : Fin 1) j)
        = ∑ r ∈ Finset.range ((n + 1) * 8000), pad (fun r => hrows V c r j) r
    ∧ ((outsAt0 V c n hn).2 : S1x128.Idx → EReal) (ix2 (0 : Fin 1) j)
        = ∑ r ∈ Finset.range ((n + 1) * 8000), pad (fun r => hrows V c r j * hrows V c r j) r
  | 0, hn => by
    obtain ⟨h1, h2⟩ := at_first V c ⟨0, hn⟩ rfl j
    refine ⟨h1.trans ?_, h2.trans ?_⟩
    · refine (hblk_sum V c ⟨0, hn⟩ j (fun x => x)).trans ?_
      simp only [Nat.zero_mul, Nat.zero_add, Nat.one_mul]
    · refine (hblk_sum V c ⟨0, hn⟩ j (fun x => x * x)).trans ?_
      simp only [Nat.zero_mul, Nat.zero_add, Nat.one_mul]
  | n + 1, hn => by
    obtain ⟨h1, h2⟩ := at_later V c n hn j
    obtain ⟨i1, i2⟩ := sums_upto c j n (Nat.lt_of_succ_lt hn)
    have e : (n + 1 + 1) * 8000 = (n + 1) * 8000 + 8000 := by omega
    refine ⟨h1.trans ?_, h2.trans ?_⟩
    · rw [e, Finset.sum_range_add, i1]
      exact congrArg (_ + ·) (hblk_sum V c ⟨n + 1, hn⟩ j (fun x => x))
    · rw [e, Finset.sum_range_add, i2]
      exact congrArg (_ + ·) (hblk_sum V c ⟨n + 1, hn⟩ j (fun x => x * x))

/-! ## The arrays after the call -/

/-- The last point. -/
def tLast : Fin cfg0.N := ⟨99, by rw [show cfg0.N = 100 from N_0]; decide⟩

/-- The one write-back of the first output, at the last point, writes what the buffer then holds: the block is the whole array. -/
theorem flushed5 (c : Dev nD) (t : Fin cfg0.N) (hf : (cfg0.win 5).flush t = true) :
    (dat0 V c).flushed 5 t = ((cfg0.win 5).blk t).view.read (Elt Ideal) (outsAt0 V c tLast.val tLast.isLt).1 := by
  have hN : cfg0.N = 100 := N_0
  have h99 : t.val = 99 := by have := (flush0_5 t).mp hf; have := t.isLt; omega
  obtain rfl : t = tLast := Fin.ext h99
  show (cfg0.win 5).cut (grid0.coords tLast) ((dat0 V c).after 5 tLast) = _
  rw [after0_5]
  have hz' : (fun a => win0_5.index tLast a * main_v17_0.ty.shape.size a) = fun _ => 0 := funext fun a => by fin_cases a <;> decide
  exact (Memref.read_access_unit_zero (Elt Ideal) main_v17_0 hz' (fun a => by rw [congrFun hz' a]; simp) _).symm

theorem flushed6 (c : Dev nD) (t : Fin cfg0.N) (hf : (cfg0.win 6).flush t = true) :
    (dat0 V c).flushed 6 t = ((cfg0.win 6).blk t).view.read (Elt Ideal) (outsAt0 V c tLast.val tLast.isLt).2 := by
  have hN : cfg0.N = 100 := N_0
  have h99 : t.val = 99 := by have := (flush0_6 t).mp hf; have := t.isLt; omega
  obtain rfl : t = tLast := Fin.ext h99
  show (cfg0.win 6).cut (grid0.coords tLast) ((dat0 V c).after 6 tLast) = _
  rw [after0_6]
  have hz' : (fun a => win0_6.index tLast a * main_v17_1.ty.shape.size a) = fun _ => 0 := funext fun a => by fin_cases a <;> decide
  exact (Memref.read_access_unit_zero (Elt Ideal) main_v17_1 hz' (fun a => by rw [congrFun hz' a]; simp) _).symm

/-- So the first output array ends holding what its buffer holds after the last point. -/
theorem arr5 (c : Dev nD) : (dat0 V c).arrAt 5 cfg0.N = (outsAt0 V c tLast.val tLast.isLt).1 :=
  (dat0 V c).arrAt_eq_of_cover 5 (outsAt0 V c tLast.val tLast.isLt).1 (flushed5 V c) fun i =>
    ⟨tLast, (flush0_5 tLast).mpr rfl, by
      show i ∈ ((View.whole main_v17_0).slice (win0_5.rect tLast)).set
      rw [View.set_slice_whole, Rect.mem_set_unit]
      intro a
      have h0 : (i 0 : Nat) < 1 := (i 0).isLt
      have h1 : (i 1 : Nat) < 128 := (i 1).isLt
      match a with
      | ⟨0, _⟩ => show win0_5.index tLast 0 * win0_5.size 0 ≤ (i 0 : Nat) ∧ (i 0 : Nat) < win0_5.index tLast 0 * win0_5.size 0 + win0_5.xsize (grid0.coords tLast) 0
                  rw [show win0_5.index tLast 0 * win0_5.size 0 = 0 from by decide +kernel, show win0_5.xsize (grid0.coords tLast) 0 = 1 from by decide +kernel]; omega
      | ⟨1, _⟩ => show win0_5.index tLast 1 * win0_5.size 1 ≤ (i 1 : Nat) ∧ (i 1 : Nat) < win0_5.index tLast 1 * win0_5.size 1 + win0_5.xsize (grid0.coords tLast) 1
                  rw [show win0_5.index tLast 1 * win0_5.size 1 = 0 from by decide +kernel, show win0_5.xsize (grid0.coords tLast) 1 = 128 from by decide +kernel]; omega⟩

theorem arr6 (c : Dev nD) : (dat0 V c).arrAt 6 cfg0.N = (outsAt0 V c tLast.val tLast.isLt).2 :=
  (dat0 V c).arrAt_eq_of_cover 6 (outsAt0 V c tLast.val tLast.isLt).2 (flushed6 V c) fun i =>
    ⟨tLast, (flush0_6 tLast).mpr rfl, by
      show i ∈ ((View.whole main_v17_1).slice (win0_6.rect tLast)).set
      rw [View.set_slice_whole, Rect.mem_set_unit]
      intro a
      have h0 : (i 0 : Nat) < 1 := (i 0).isLt
      have h1 : (i 1 : Nat) < 128 := (i 1).isLt
      match a with
      | ⟨0, _⟩ => show win0_6.index tLast 0 * win0_6.size 0 ≤ (i 0 : Nat) ∧ (i 0 : Nat) < win0_6.index tLast 0 * win0_6.size 0 + win0_6.xsize (grid0.coords tLast) 0
                  rw [show win0_6.index tLast 0 * win0_6.size 0 = 0 from by decide +kernel, show win0_6.xsize (grid0.coords tLast) 0 = 1 from by decide +kernel]; omega
      | ⟨1, _⟩ => show win0_6.index tLast 1 * win0_6.size 1 ≤ (i 1 : Nat) ∧ (i 1 : Nat) < win0_6.index tLast 1 * win0_6.size 1 + win0_6.xsize (grid0.coords tLast) 1
                  rw [show win0_6.index tLast 1 * win0_6.size 1 = 0 from by decide +kernel, show win0_6.xsize (grid0.coords tLast) 1 = 128 from by decide +kernel]; omega⟩

/-- After the last grid point the first output array holds each hidden column's sum over ALL rows. -/
theorem final_sum (c : Dev nD) (j : Fin 128) :
    ((dat0 (F := Ideal) V c).arrAt 5 cfg0.N : S1x128.Idx → EReal) (ix2 (0 : Fin 1) j) = Spec.colSum (hrows V c) j := by
  rw [arr5 V c]
  refine (sums_upto V c j 99 tLast.isLt).1.trans ?_
  exact sum_pad fun r => hrows V c r j

/-- After the last grid point the second output array holds each hidden column's sum of squares over ALL rows. -/
theorem final_sumsq (c : Dev nD) (j : Fin 128) :
    ((dat0 (F := Ideal) V c).arrAt 6 cfg0.N : S1x128.Idx → EReal) (ix2 (0 : Fin 1) j) = Spec.colSumSq (hrows V c) j := by
  rw [arr6 V c]
  refine (sums_upto V c j 99 tLast.isLt).2.trans ?_
  exact sum_pad fun r => hrows V c r j * hrows V c r j

end Cert.KernelIdeal.R0

end
-- ==== Proof.Region1.lean ====
/-
  What pallas_call 1 (the normalise-and-project call over 800000 rows, 100 grid points of 8000 rows each) leaves in its output
  array: row by row, the hidden row normalised by the given mean and variance, scaled, shifted, cut at zero and sent through
  the second linear map. Each grid point writes its own block of 8000 rows, and the blocks tile the array.
-/
import proofs.«151635_j7464653160946_1_alg».proof.Proof.Gen.KernelIdeal.Frame
import proofs.«151635_j7464653160946_1_alg».proof.Proof.Spec
import proofs.«151635_j7464653160946_1_alg».proof.Proof.Curry
import proofs.«151635_j7464653160946_1_alg».proof.Proof.LibRowOps
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.R1

open Cert.KernelIdeal Cert.KernelIdeal.Gen

variable (V : (c : Dev nD) → (b : Ref sig .tc) → Buf (Elt Ideal) ((c : Thread nD τ).loc b))

/-- The hidden rows this call recomputes (the same as the statistics call's). -/
abbrev hrows (c : Dev nD) : Fin 800000 → Fin 128 → EReal :=
  Spec.hid (Spec.cur2 (V c main_v10 : S800000x64.Idx → EReal)) (Spec.cur2 (V c main_arg2 : S800000x64.Idx → EReal))
    (Spec.cur2 (V c main_v11 : S64x128.Idx → EReal)) (Spec.cur2 (V c main_v12 : S64x128.Idx → EReal))
    (Spec.row1 (V c main_v13 : S1x128.Idx → EReal))

/-- The offsets of a whole-buffer access, however the zeros are spelt. -/
theorem hz : (![0, 0] : Fin 2 → Nat) = fun _ => 0 := funext fun a => by fin_cases a <;> rfl

/-! ## The body's arithmetic at one place of the block -/

/-- The normalised hidden block at place (q, k): row q of the two input blocks against column k of their weights, plus
    the bias; less the mean, times the reciprocal root of the variance plus eps, times the scale, plus the shift. -/
theorem pay2_apply (v0 v3 : Vec Ideal S8000x64 .f32) (v5 v8 : Vec Ideal S64x128 .f32)
    (v14 v18 v23 v29 v33 : Vec Ideal S1x128 .f32) (q : Fin 8000) (k : Fin 128) :
    k1_pay2 (F := Ideal) v0 v3 v5 v8 v14 v18 v23 v29 v33 (ix2 q k)
      = ((((∑ j : Fin 64, v0 (ix2 q j) * v5 (ix2 j k) + ∑ j : Fin 64, v3 (ix2 q j) * v8 (ix2 j k)) + v14 (ix2 (0 : Fin 1) k))
            - v23 (ix2 (0 : Fin 1) k)) * Ideal.rsqrt (v18 (ix2 (0 : Fin 1) k) + Ideal.ofBits .f32 0x3727C5AC#32))
          * v29 (ix2 (0 : Fin 1) k) + v33 (ix2 (0 : Fin 1) k) := by
  unfold k1_pay2
  simp only [shapeCast_self, addf_apply, mulf_apply, subf_apply, broadcastTo_1b_ab_apply, matmul]
  rw [Cert.RowOps.matmul_row_apply dot_S8000x64_S64x128_S8000x128_1_0_0_1_n_n rfl rfl rfl rfl rfl rfl none
      (truncf FTy.bf16 v0 bitsLt_bf16_f32) (truncf FTy.bf16 v5 bitsLt_bf16_f32) q k,
    Cert.RowOps.matmul_row_apply dot_S8000x64_S64x128_S8000x128_1_0_0_1_n_n rfl rfl rfl rfl rfl rfl none
      (truncf FTy.bf16 v3 bitsLt_bf16_f32) (truncf FTy.bf16 v8 bitsLt_bf16_f32) q k]
  rfl

/-- The stored block at place (q, o): row q of the block cut at z from below, against column o of the second weights,
    plus the second bias. -/
theorem pay1_apply (v36 : FVec Ideal S8000x128 .f32) (z : EReal) (v40 : Vec Ideal S128x128 .f32)
    (v43 : Vec Ideal S1x128 .f32) (q : Fin 8000) (o : Fin 128) :
    k1_pay1 (F := Ideal) v36 z v40 v43 (ix2 q o)
      = ∑ k : Fin 128, max (v36 (ix2 q k)) z * v40 (ix2 k o) + v43 (ix2 (0 : Fin 1) o) := by
  unfold k1_pay1
  simp only [shapeCast_self, addf_apply, broadcastTo_1b_ab_apply, matmul]
  rw [Cert.RowOps.matmul_row_apply dot_S8000x128_S128x128_S8000x128_1_0_0_1_n_n rfl rfl rfl rfl rfl rfl none
    (truncf FTy.bf16 (maximumf v36 (broadcast S8000x128 z)) bitsLt_bf16_f32) (truncf FTy.bf16 v40 bitsLt_bf16_f32) q o]
  rfl

/-- What the body leaves in the output block, at place (q, o), as the layer's second half on the blocks: the fifth
    block is the mean (subtracted) and the sixth the variance (under the root). -/
theorem out_apply (x0 x1 : Vec Ideal S8000x64 .f32) (x2 x3 : Vec Ideal S64x128 .f32)
    (x4 x5 x6 x7 x8 : Vec Ideal S1x128 .f32) (x9 : Vec Ideal S128x128 .f32) (x10 : Vec Ideal S1x128 .f32)
    (q : Fin 8000) (o : Fin 128) :
    out1_11 (F := Ideal) x0 x1 x2 x3 x4 x5 x6 x7 x8 x9 x10 (ix2 q o)
      = Spec.lin (Spec.act (Spec.hid (Spec.cur2 x0) (Spec.cur2 x1) (Spec.cur2 x2) (Spec.cur2 x3) (Spec.row1 x4))
            (Spec.row1 x5) (Spec.row1 x6) (Spec.row1 x7) (Spec.row1 x8)
            (Ideal.ofBits .f32 0x3727C5AC#32) (Ideal.ofBits .f32 0x00000000#32))
          (Spec.cur2 x9) (Spec.row1 x10) q o := by
  unfold out1_11
  rw [View.canon_unit_zero hz]
  simp only [View.ld_unit_zero (S := S8000x64) hz, View.ld_unit_zero (S := S64x128) hz, View.ld_unit_zero (S := S1x128) hz,
    View.ld_unit_zero (S := S128x128) hz]
  rw [pay1_apply]
  simp only [pay2_apply]
  rfl

/-- A row of the layer's second half depends on that row of the two inputs only: two pairs of inputs, of any numbers of
    rows, that agree on a row give the same output row. -/
theorem row_local {R R' Ka Kb H O : ℕ} (A : Fin R → Fin Ka → EReal) (B : Fin R → Fin Kb → EReal)
    (A' : Fin R' → Fin Ka → EReal) (B' : Fin R' → Fin Kb → EReal) (Wa : Fin Ka → Fin H → EReal) (Wb : Fin Kb → Fin H → EReal)
    (bias mean var g be : Fin H → EReal) (eps z : EReal) (W2 : Fin H → Fin O → EReal) (b2 : Fin O → EReal)
    (r : Fin R) (r' : Fin R') (hA : ∀ k, A r k = A' r' k) (hB : ∀ k, B r k = B' r' k) (o : Fin O) :
    Spec.lin (Spec.act (Spec.hid A B Wa Wb bias) mean var g be eps z) W2 b2 r o
      = Spec.lin (Spec.act (Spec.hid A' B' Wa Wb bias) mean var g be eps z) W2 b2 r' o := by
  simp only [Spec.lin, Spec.act, Spec.hid, hA, hB]

/-! ## The blocks as parts of the arrays -/

theorem lt100 (t : Fin cfg1.N) : t.val < 100 := lt_of_lt_of_eq t.isLt N_1

/-- The row of the arrays that place q of block t is. -/
def rowOf (t : Fin cfg1.N) (q : Fin 8000) : Fin 800000 :=
  ⟨t.val * 8000 + q.val, by have := lt100 t; have := q.isLt; omega⟩

/-- The windows' block indices at every point (decided over the grid): the two row inputs and the output move with the
    point along the rows; every other window stays at its whole array. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = t.val ∧ win1_11.index t (1 : Fin 2) = 0) :=
  (by decide +kernel : ∀ t : Fin grid1.N, _)

/-- Block t of the first row input is rows 8000 t … 8000 t + 7999 of its array. -/
theorem blk0_apply (c : Dev nD) (t : Fin cfg1.N) (q : Fin 8000) (k : Fin 64) :
    (iblk1 (F := Ideal) V c 0 t : Vec Ideal S8000x64 .f32) (ix2 q k)
      = (V c main_v10 : S800000x64.Idx → EReal) (ix2 (rowOf t q) k) := by
  have hi := (idx_facts t).1
  unfold iblk1
  rw [View.read_apply]
  show (V c main_v10 : S800000x64.Idx → EReal) _ = _
  congr 1
  funext a
  apply Fin.ext
  match a with
  | ⟨0, _⟩ => show win1_0.index t 0 * 8000 + 1 * q.val = t.val * 8000 + q.val; rw [hi.1]; omega
  | ⟨1, _⟩ => show win1_0.index t 1 * 64 + 1 * k.val = k.val; rw [hi.2]; omega

/-- Block t of the second row input is the same rows of its array. -/
theorem blk1_apply (c : Dev nD) (t : Fin cfg1.N) (q : Fin 8000) (k : Fin 64) :
    (iblk1 (F := Ideal) V c 1 t : Vec Ideal S8000x64 .f32) (ix2 q k)
      = (V c main_arg2 : S800000x64.Idx → EReal) (ix2 (rowOf t q) k) := by
  have hi := (idx_facts t).2.1
  unfold iblk1
  rw [View.read_apply]
  show (V c main_arg2 : S800000x64.Idx → EReal) _ = _
  congr 1
  funext a
  apply Fin.ext
  match a with
  | ⟨0, _⟩ => show win1_1.index t 0 * 8000 + 1 * q.val = t.val * 8000 + q.val; rw [hi.1]; omega
  | ⟨1, _⟩ => show win1_1.index t 1 * 64 + 1 * k.val = k.val; rw [hi.2]; omega

/-- Every other input window's block is its whole array, at every point. -/
theorem blk2_eq (c : Dev nD) (t : Fin cfg1.N) :
    (iblk1 (F := Ideal) V c 2 t : Vec Ideal S64x128 .f32) = (V c main_v11 : S64x128.Idx → EReal) := by
  have hi := (idx_facts t).2.2.1
  funext i
  unfold iblk1
  rw [View.read_apply]
  show (V c main_v11 : S64x128.Idx → EReal) _ = _
  congr 1
  funext a
  apply Fin.ext
  match a with
  | ⟨0, _⟩ => show win1_2.index t 0 * 64 + 1 * (i 0).val = (i 0).val; rw [hi.1]; omega
  | ⟨1, _⟩ => show win1_2.index t 1 * 128 + 1 * (i 1).val = (i 1).val; rw [hi.2]; omega

theorem blk3_eq (c : Dev nD) (t : Fin cfg1.N) :
    (iblk1 (F := Ideal) V c 3 t : Vec Ideal S64x128 .f32) = (V c main_v12 : S64x128.Idx → EReal) := by
  have hi := (idx_facts t).2.2.2.1
  funext i
  unfold iblk1
  rw [View.read_apply]
  show (V c main_v12 : S64x128.Idx → EReal) _ = _
  congr 1
  funext a
  apply Fin.ext
  match a with
  | ⟨0, _⟩ => show win1_3.index t 0 * 64 + 1 * (i 0).val = (i 0).val; rw [hi.1]; omega
  | ⟨1, _⟩ => show win1_3.index t 1 * 128 + 1 * (i 1).val = (i 1).val; rw [hi.2]; omega

theorem blk4_eq (c : Dev nD) (t : Fin cfg1.N) :
    (iblk1 (F := Ideal) V c 4 t : Vec Ideal S1x128 .f32) = (V c main_v13 : S1x128.Idx → EReal) := by
  have hi := (idx_facts t).2.2.2.2.1
  funext i
  unfold iblk1
  rw [View.read_apply]
  show (V c main_v13 : S1x128.Idx → EReal) _ = _
  congr 1
  funext a
  apply Fin.ext
  match a with
  | ⟨0, _⟩ => show win1_4.index t 0 * 1 + 1 * (i 0).val = (i 0).val; rw [hi.1]; omega
  | ⟨1, _⟩ => show win1_4.index t 1 * 128 + 1 * (i 1).val = (i 1).val; rw [hi.2]; omega

theorem blk5_eq (c : Dev nD) (t : Fin cfg1.N) :
    (iblk1 (F := Ideal) V c 5 t : Vec Ideal S1x128 .f32) = (V c main_v19 : S1x128.Idx → EReal) := by
  have hi := (idx_facts t).2.2.2.2.2.1
  funext i
  unfold iblk1
  rw [View.read_apply]
  show (V c main_v19 : S1x128.Idx → EReal) _ = _
  congr 1
  funext a
  apply Fin.ext
  match a with
  | ⟨0, _⟩ => show win1_5.index t 0 * 1 + 1 * (i 0).val = (i 0).val; rw [hi.1]; omega
  | ⟨1, _⟩ => show win1_5.index t 1 * 128 + 1 * (i 1).val = (i 1).val; rw [hi.2]; omega

theorem blk6_eq (c : Dev nD) (t : Fin cfg1.N) :
    (iblk1 (F := Ideal) V c 6 t : Vec Ideal S1x128 .f32) = (V c main_v23 : S1x128.Idx → EReal) := by
  have hi := (idx_facts t).2.2.2.2.2.2.1
  funext i
  unfold iblk1
  rw [View.read_apply]
  show (V c main_v23 : S1x128.Idx → EReal) _ = _
  congr 1
  funext a
  apply Fin.ext
  match a with
  | ⟨0, _⟩ => show win1_6.index t 0 * 1 + 1 * (i 0).val = (i 0).val; rw [hi.1]; omega
  | ⟨1, _⟩ => show win1_6.index t 1 * 128 + 1 * (i 1).val = (i 1).val; rw [hi.2]; omega

theorem blk7_eq (c : Dev nD) (t : Fin cfg1.N) :
    (iblk1 (F := Ideal) V c 7 t : Vec Ideal S1x128 .f32) = (V c main_v14 : S1x128.Idx → EReal) := by
  have hi := (idx_facts t).2.2.2.2.2.2.2.1
  funext i
  unfold iblk1
  rw [View.read_apply]
  show (V c main_v14 : S1x128.Idx → EReal) _ = _
  congr 1
  funext a
  apply Fin.ext
  match a with
  | ⟨0, _⟩ => show win1_7.index t 0 * 1 + 1 * (i 0).val = (i 0).val; rw [hi.1]; omega
  | ⟨1, _⟩ => show win1_7.index t 1 * 128 + 1 * (i 1).val = (i 1).val; rw [hi.2]; omega

theorem blk8_eq (c : Dev nD) (t : Fin cfg1.N) :
    (iblk1 (F := Ideal) V c 8 t : Vec Ideal S1x128 .f32) = (V c main_v15 : S1x128.Idx → EReal) := by
  have hi := (idx_facts t).2.2.2.2.2.2.2.2.1
  funext i
  unfold iblk1
  rw [View.read_apply]
  show (V c main_v15 : S1x128.Idx → EReal) _ = _
  congr 1
  funext a
  apply Fin.ext
  match a with
  | ⟨0, _⟩ => show win1_8.index t 0 * 1 + 1 * (i 0).val = (i 0).val; rw [hi.1]; omega
  | ⟨1, _⟩ => show win1_8.index t 1 * 128 + 1 * (i 1).val = (i 1).val; rw [hi.2]; omega

theorem blk9_eq (c : Dev nD) (t : Fin cfg1.N) :
    (iblk1 (F := Ideal) V c 9 t : Vec Ideal S128x128 .f32) = (V c main_arg9 : S128x128.Idx → EReal) := by
  have hi := (idx_facts t).2.2.2.2.2.2.2.2.2.1
  funext i
  unfold iblk1
  rw [View.read_apply]
  show (V c main_arg9 : S128x128.Idx → EReal) _ = _
  congr 1
  funext a
  apply Fin.ext
  match a with
  | ⟨0, _⟩ => show win1_9.index t 0 * 128 + 1 * (i 0).val = (i 0).val; rw [hi.1]; omega
  | ⟨1, _⟩ => show win1_9.index t 1 * 128 + 1 * (i 1).val = (i 1).val; rw [hi.2]; omega

theorem blk10_eq (c : Dev nD) (t : Fin cfg1.N) :
    (iblk1 (F := Ideal) V c 10 t : Vec Ideal S1x128 .f32) = (V c main_v16 : S1x128.Idx → EReal) := by
  have hi := (idx_facts t).2.2.2.2.2.2.2.2.2.2.1
  funext i
  unfold iblk1
  rw [View.read_apply]
  show (V c main_v16 : S1x128.Idx → EReal) _ = _
  congr 1
  funext a
  apply Fin.ext
  match a with
  | ⟨0, _⟩ => show win1_10.index t 0 * 1 + 1 * (i 0).val = (i 0).val; rw [hi.1]; omega
  | ⟨1, _⟩ => show win1_10.index t 1 * 128 + 1 * (i 1).val = (i 1).val; rw [hi.2]; omega

/-! ## From the blocks to the array -/

/-- What the output array ends holding: the layer's second half on the whole arrays. -/
abbrev G (c : Dev nD) : S800000x128.Idx → EReal :=
  Spec.unc2 (Spec.lin (Spec.act (hrows V c) (Spec.row1 (V c main_v19 : S1x128.Idx → EReal)) (Spec.row1 (V c main_v23 : S1x128.Idx → EReal))
      (Spec.row1 (V c main_v14 : S1x128.Idx → EReal)) (Spec.row1 (V c main_v15 : S1x128.Idx → EReal))
      (Ideal.ofBits .f32 0x3727C5AC#32) (Ideal.ofBits .f32 0x00000000#32))
    (Spec.cur2 (V c main_arg9 : S128x128.Idx → EReal)) (Spec.row1 (V c main_v16 : S1x128.Idx → EReal)))

/-- What point t writes back is block t of that array: a row of the result needs only that row of the two inputs. -/
theorem flushed_eq (c : Dev nD) (t : Fin cfg1.N) :
    (dat1 (F := Ideal) V c).flushed 11 t = ((cfg1.win 11).blk t).view.read (Elt Ideal) (G V c) := by
  show (cfg1.win 11).cut (grid1.coords t) ((dat1 (F := Ideal) V c).after 11 t) = _
  rw [after1_11]
  funext j
  obtain ⟨q, o, rfl⟩ : ∃ (q : Fin 8000) (o : Fin 128), j = ix2 q o := ⟨j 0, j 1, eq_ix2 j⟩
  have hi := (idx_facts t).2.2.2.2.2.2.2.2.2.2.2
  have hemb : ((cfg1.win 11).blk t).view.emb (ix2 q o) = (ix2 (rowOf t q) o : S800000x128.Idx) := by
    funext a
    apply Fin.ext
    match a with
    | ⟨0, _⟩ => show win1_11.index t 0 * 8000 + 1 * q.val = t.val * 8000 + q.val; rw [hi.1]; omega
    | ⟨1, _⟩ => show win1_11.index t 1 * 128 + 1 * o.val = o.val; rw [hi.2]; omega
  show out1_11 (F := Ideal) (iblk1 V c 0 t) (iblk1 V c 1 t) (iblk1 V c 2 t) (iblk1 V c 3 t) (iblk1 V c 4 t) (iblk1 V c 5 t)
      (iblk1 V c 6 t) (iblk1 V c 7 t) (iblk1 V c 8 t) (iblk1 V c 9 t) (iblk1 V c 10 t) (ix2 q o)
    = G V c (((cfg1.win 11).blk t).view.emb (ix2 q o))
  rw [hemb]
  refine (out_apply (iblk1 V c 0 t) (iblk1 V c 1 t) (iblk1 V c 2 t) (iblk1 V c 3 t) (iblk1 V c 4 t) (iblk1 V c 5 t)
      (iblk1 V c 6 t) (iblk1 V c 7 t) (iblk1 V c 8 t) (iblk1 V c 9 t) (iblk1 V c 10 t) q o).trans ?_
  rw [blk2_eq V c t, blk3_eq V c t, blk4_eq V c t, blk5_eq V c t, blk6_eq V c t, blk7_eq V c t, blk8_eq V c t,
    blk9_eq V c t, blk10_eq V c t]
  exact row_local _ _ _ _ _ _ _ _ _ _ _ _ _ _ _ q (rowOf t q) (fun k => blk0_apply V c t q k) (fun k => blk1_apply V c t q k) o

/-- Every row of the array is in the block of the point its number divided by 8000 names. -/
theorem cover (i : S800000x128.Idx) :
    ∃ t : Fin cfg1.N, (cfg1.win 11).flush t = true ∧ i ∈ ((cfg1.win 11).blk t).view.set := by
  have h0 : (i 0).val < 800000 := idx2_lt0 i
  have h1 : (i 1).val < 128 := idx2_lt1 i
  obtain ⟨t, ht⟩ : ∃ t : Fin cfg1.N, t.val = (i 0).val / 8000 :=
    ⟨⟨(i 0).val / 8000, lt_of_lt_of_eq (by omega : (i 0).val / 8000 < 100) N_1.symm⟩, rfl⟩
  have hi := (idx_facts t).2.2.2.2.2.2.2.2.2.2.2
  refine ⟨t, flush1_11 t, ?_⟩
  show i ∈ ((View.whole main_v24).slice (win1_11.rect t)).set
  rw [View.set_slice_whole, Rect.mem_set_unit]
  intro a
  match a with
  | ⟨0, _⟩ =>
    show win1_11.index t 0 * 8000 ≤ (i 0).val ∧ (i 0).val < win1_11.index t 0 * 8000 + 8000
    rw [hi.1, ht]; omega
  | ⟨1, _⟩ =>
    show win1_11.index t 1 * 128 ≤ (i 1).val ∧ (i 1).val < win1_11.index t 1 * 128 + 128
    rw [hi.2]; omega

/-- After the last grid point the output array holds, at (r, o): the hidden row r normalised by the mean and variance
    arrays the call is GIVEN, scaled, shifted, cut at zero, and sent through the second linear map. -/
theorem final (c : Dev nD) (r : Fin 800000) (o : Fin 128) :
    ((dat1 (F := Ideal) V c).arrAt 11 cfg1.N : S800000x128.Idx → EReal) (ix2 r o)
      = Spec.lin (Spec.act (hrows V c) (Spec.row1 (V c main_v19 : S1x128.Idx → EReal)) (Spec.row1 (V c main_v23 : S1x128.Idx → EReal))
          (Spec.row1 (V c main_v14 : S1x128.Idx → EReal)) (Spec.row1 (V c main_v15 : S1x128.Idx → EReal))
          (Ideal.ofBits .f32 0x3727C5AC#32) (Ideal.ofBits .f32 0x00000000#32))
        (Spec.cur2 (V c main_arg9 : S128x128.Idx → EReal)) (Spec.row1 (V c main_v16 : S1x128.Idx → EReal)) r o := by
  exact congrFun ((dat1 (F := Ideal) V c).arrAt_eq_of_cover 11 (G V c) (fun t _ => flushed_eq V c t) (cover)) (ix2 r o)

end Cert.KernelIdeal.R1

end
-- ==== Proof.Region2.lean ====
/-
  What pallas_call 2 (the statistics call over 50000 rows, 10 grid points of 5000 rows each) leaves in its two output arrays:
  the sum, and the sum of squares, of every hidden column over all 50000 rows. At each grid point the body adds the
  block's column sums to what the point before left (the first point starts from zero), so after point t the buffers
  hold the sums over the first (t+1)·5000 rows; only the last point's write-back reaches the array.
-/
import proofs.«151635_j7464653160946_1_alg».proof.Proof.Gen.KernelIdeal.Frame
import proofs.«151635_j7464653160946_1_alg».proof.Proof.Spec
import proofs.«151635_j7464653160946_1_alg».proof.Proof.Curry
import proofs.«151635_j7464653160946_1_alg».proof.Proof.LibRowOps
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.R2

open Cert.KernelIdeal Cert.KernelIdeal.Gen

open scoped BigOperators

/-! ## What each case of the body leaves in the two output buffers, for any float values -/

section Pieces

variable {F : FTy → Type} [FloatOps F]

theorem hz : (![0, 0] : Fin 2 → Nat) = fun _ => 0 := funext fun a => by fin_cases a <;> rfl

/-- At a later point the first output's buffer is left holding what it held plus the block's column sums. -/
theorem outB5 (c : Dev nD) (i : grid2.Coords) (arg1 : Memref sig .tc .vmem S5000x64 .f32) (harg1 : arg1.IsWhole) (arg2 : Memref sig .tc .vmem S5000x128 .f32) (harg2 : arg2.IsWhole) (arg3 : Memref sig .tc .vmem S64x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i)
    (x0 : Vec F S5000x64 .f32) (x1 : Vec F S5000x128 .f32) (x2 : Vec F S64x128 .f32) (x3 : Vec F S128x128 .f32) (x4 xo5 xo6 : Vec F S1x128 .f32) :
    out2_B_5 c i arg1 harg1 arg2 harg2 arg3 harg3 arg4 harg4 arg5 harg5 arg6 harg6 arg7 harg7 hc0 x0 x1 x2 x3 x4 xo5 xo6 = k2_pay4 x0 x1 x2 x3 x4 xo5 := by
  unfold out2_B_5
  rw [View.read_writes_eq_canon _ _ _ (cover2_B_5 c i arg1 harg1 arg2 harg2 arg3 harg3 arg4 harg4 arg5 harg5 arg6 harg6 arg7 harg7 hc0 x0 x1 x2 x3 x4 xo5 xo6)]
  unfold kernelRun2_B
  dsimp only
  sl_unfold_words
  rw [View.canon_unit_zero hz]
  simp only [View.readAt_eq_ld, harg1.read_unread, harg2.read_unread, harg3.read_unread, harg4.read_unread, harg5.read_unread,
    harg6.read_unread, View.ld_unit_zero (S := S5000x64) hz, View.ld_unit_zero (S := S5000x128) hz, View.ld_unit_zero (S := S64x128) hz,
    View.ld_unit_zero (S := S128x128) hz, View.ld_unit_zero (S := S1x128) hz]

/-- At a later point the second output's buffer is left holding what it held plus the block's column sums of squares. -/
theorem outB6 (c : Dev nD) (i : grid2.Coords) (arg1 : Memref sig .tc .vmem S5000x64 .f32) (harg1 : arg1.IsWhole) (arg2 : Memref sig .tc .vmem S5000x128 .f32) (harg2 : arg2.IsWhole) (arg3 : Memref sig .tc .vmem S64x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i)
    (x0 : Vec F S5000x64 .f32) (x1 : Vec F S5000x128 .f32) (x2 : Vec F S64x128 .f32) (x3 : Vec F S128x128 .f32) (x4 xo5 xo6 : Vec F S1x128 .f32) :
    out2_B_6 c i arg1 harg1 arg2 harg2 arg3 harg3 arg4 harg4 arg5 harg5 arg6 harg6 arg7 harg7 hc0 x0 x1 x2 x3 x4 xo5 xo6 = k2_pay5 x0 x1 x2 x3 x4 xo6 := by
  unfold out2_B_6
  rw [View.read_writes_eq_canon _ _ _ (cover2_B_6 c i arg1 harg1 arg2 harg2 arg3 harg3 arg4 harg4 arg5 harg5 arg6 harg6 arg7 harg7 hc0 x0 x1 x2 x3 x4 xo5 xo6)]
  unfold kernelRun2_B
  dsimp only
  sl_unfold_words
  rw [View.canon_unit_zero hz]
  simp only [View.readAt_eq_ld, harg1.read_unread, harg2.read_unread, harg3.read_unread, harg4.read_unread, harg5.read_unread,
    harg7.read_unread, View.ld_unit_zero (S := S5000x64) hz, View.ld_unit_zero (S := S5000x128) hz, View.ld_unit_zero (S := S64x128) hz,
    View.ld_unit_zero (S := S128x128) hz, View.ld_unit_zero (S := S1x128) hz]

/-- At the first point the first output's buffer is zeroed, read back, and left holding zero plus the block's column sums. -/
theorem outA5 (c : Dev nD) (i : grid2.Coords) (arg1 : Memref sig .tc .vmem S5000x64 .f32) (harg1 : arg1.IsWhole) (arg2 : Memref sig .tc .vmem S5000x128 .f32) (harg2 : arg2.IsWhole) (arg3 : Memref sig .tc .vmem S64x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond2_0 i)
    (x0 : Vec F S5000x64 .f32) (x1 : Vec F S5000x128 .f32) (x2 : Vec F S64x128 .f32) (x3 : Vec F S128x128 .f32) (x4 : Vec F S1x128 .f32) :
    out2_A_5 c i arg1 harg1 arg2 harg2 arg3 harg3 arg4 harg4 arg5 harg5 arg6 harg6 arg7 harg7 hc0 x0 x1 x2 x3 x4 = k2_pay4 x0 x1 x2 x3 x4 (k2_pay1 (F := F)) := by
  unfold out2_A_5
  rw [View.read_writes_eq_canon _ _ _ (cover2_A_5 c i arg1 harg1 arg2 harg2 arg3 harg3 arg4 harg4 arg5 harg5 arg6 harg6 arg7 harg7 hc0 x0 x1 x2 x3 x4)]
  unfold kernelRun2_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread,
    View.ld_unit_zero (S := S5000x64) hz, View.ld_unit_zero (S := S5000x128) hz, View.ld_unit_zero (S := S64x128) hz,
    View.ld_unit_zero (S := S128x128) hz, View.ld_unit_zero (S := S1x128) hz]

/-- At the first point the second output's buffer likewise: zero plus the block's column sums of squares. -/
theorem outA6 (c : Dev nD) (i : grid2.Coords) (arg1 : Memref sig .tc .vmem S5000x64 .f32) (harg1 : arg1.IsWhole) (arg2 : Memref sig .tc .vmem S5000x128 .f32) (harg2 : arg2.IsWhole) (arg3 : Memref sig .tc .vmem S64x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond2_0 i)
    (x0 : Vec F S5000x64 .f32) (x1 : Vec F S5000x128 .f32) (x2 : Vec F S64x128 .f32) (x3 : Vec F S128x128 .f32) (x4 : Vec F S1x128 .f32) :
    out2_A_6 c i arg1 harg1 arg2 harg2 arg3 harg3 arg4 harg4 arg5 harg5 arg6 harg6 arg7 harg7 hc0 x0 x1 x2 x3 x4 = k2_pay5 x0 x1 x2 x3 x4 (k2_pay2 (F := F)) := by
  unfold out2_A_6
  rw [View.read_writes_eq_canon _ _ _ (cover2_A_6 c i arg1 harg1 arg2 harg2 arg3 harg3 arg4 harg4 arg5 harg5 arg6 harg6 arg7 harg7 hc0 x0 x1 x2 x3 x4)]
  unfold kernelRun2_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread,
    View.ld_unit_zero (S := S5000x64) hz, View.ld_unit_zero (S := S5000x128) hz, View.ld_unit_zero (S := S64x128) hz,
    View.ld_unit_zero (S := S128x128) hz, View.ld_unit_zero (S := S1x128) hz]

end Pieces

/-! ## The body's arithmetic at an index, over the extended reals -/

/-- Over column j of an R × N matrix reduced along its rows, the source index with row k put back is (k, j). -/
theorem lift_col {R N : ℕ} (h : (⟨2, ![R, N]⟩ : Shape).Reduces [(0 : Fin 2)] ⟨1, ![N]⟩) (j : Fin N) (k : Fin R) :
    h.lift (ix1 j) k = ix2 k j := by
  funext c
  apply Fin.ext
  match c with
  | ⟨0, _⟩ => rfl
  | ⟨1, _⟩ => rfl

/-- A sum along the rows, read at column j: the sum of that column's entries. -/
theorem colSum_apply {R N : ℕ} {φ : FTy} (src : FVec Ideal ⟨2, ![R, N]⟩ φ) (acc : BitVec φ.bits)
    (h : (⟨2, ![R, N]⟩ : Shape).Reduces [(0 : Fin 2)] ⟨1, ![N]⟩) (hφ : FKind.Formats φ)
    (hacc : acc = FKind.add.neutral φ hφ) (j : Fin N) :
    multiReduction .add [(0 : Fin 2)] ⟨1, ![N]⟩ src acc h hφ hacc (ix1 j) = ∑ k : Fin R, src (ix2 k j) :=
  (Ideal.multiReduction_add_single src acc h hφ hacc (ix1 j)).trans
    (Finset.sum_congr rfl fun k _ => congrArg src (lift_col h j k))

/-- The zero row the first point stores is zero everywhere. -/
theorem pay1_apply (i : S1x128.Idx) : k2_pay1 (F := Ideal) i = 0 := Ideal.ofBits_zero_f32
theorem pay2_apply (i : S1x128.Idx) : k2_pay2 (F := Ideal) i = 0 := Ideal.ofBits_zero_f32

/-- The block's hidden entry at (q, j): row q of the first block against the first weights, plus row q of the second block
    against the second weights, plus the bias at j. -/
theorem pay3_apply (x0 : Vec Ideal S5000x64 .f32) (x1 : Vec Ideal S5000x128 .f32) (x2 : Vec Ideal S64x128 .f32) (x3 : Vec Ideal S128x128 .f32) (x4 : Vec Ideal S1x128 .f32) (q : Fin 5000) (j : Fin 128) :
    k2_pay3 (F := Ideal) x0 x1 x2 x3 x4 (ix2 q j)
      = (∑ k : Fin 64, x0 (ix2 q k) * x2 (ix2 k j) + ∑ k : Fin 128, x1 (ix2 q k) * x3 (ix2 k j)) + x4 (ix2 (0 : Fin 1) j) := by
  unfold k2_pay3
  rw [shapeCast_self, shapeCast_self, shapeCast_self, shapeCast_self]
  rw [addf_apply, addf_apply]
  refine congrArg₂ (· + ·) (congrArg₂ (· + ·) ?_ ?_) ?_
  · exact Cert.RowOps.matmul_row_apply dot_S5000x64_S64x128_S5000x128_1_0_0_1_n_n rfl rfl rfl rfl rfl rfl none
      (truncf .bf16 x0 bitsLt_bf16_f32) (truncf .bf16 x2 bitsLt_bf16_f32) q j
  · exact Cert.RowOps.matmul_row_apply dot_S5000x128_S128x128_S5000x128_1_0_0_1_n_n rfl rfl rfl rfl rfl rfl none
      (truncf .bf16 x1 bitsLt_bf16_f32) (truncf .bf16 x3 bitsLt_bf16_f32) q j
  · exact broadcastTo_1b_ab_apply x4 broadcasts_S1x128_S5000x128 q j

/-- The running column sums updated by one block: the old value at column j plus the block's column sum. -/
theorem pay4_apply (x0 : Vec Ideal S5000x64 .f32) (x1 : Vec Ideal S5000x128 .f32) (x2 : Vec Ideal S64x128 .f32) (x3 : Vec Ideal S128x128 .f32) (x4 xo : Vec Ideal S1x128 .f32) (j : Fin 128) :
    k2_pay4 (F := Ideal) x0 x1 x2 x3 x4 xo (ix2 (0 : Fin 1) j)
      = xo (ix2 (0 : Fin 1) j) + ∑ q : Fin 5000, k2_pay3 (F := Ideal) x0 x1 x2 x3 x4 (ix2 q j) := by
  unfold k2_pay4
  show shapeCast S1x128 xo shapeCasts_S1x128_S1x128 (ix2 (0 : Fin 1) j) + shapeCast S1x128 _ shapeCasts_S128_S1x128 (ix2 (0 : Fin 1) j) = _
  rw [shapeCast_self]
  refine congrArg (xo (ix2 (0 : Fin 1) j) + ·) ?_
  refine (shapeCast_a_1a_apply _ shapeCasts_S128_S1x128 (0 : Fin 1) j).trans ?_
  exact colSum_apply _ _ _ _ _ j

/-- The running column sums of squares updated by one block: the old value at column j plus the block's column sum of squares. -/
theorem pay5_apply (x0 : Vec Ideal S5000x64 .f32) (x1 : Vec Ideal S5000x128 .f32) (x2 : Vec Ideal S64x128 .f32) (x3 : Vec Ideal S128x128 .f32) (x4 xo : Vec Ideal S1x128 .f32) (j : Fin 128) :
    k2_pay5 (F := Ideal) x0 x1 x2 x3 x4 xo (ix2 (0 : Fin 1) j)
      = xo (ix2 (0 : Fin 1) j) + ∑ q : Fin 5000, k2_pay3 (F := Ideal) x0 x1 x2 x3 x4 (ix2 q j) * k2_pay3 (F := Ideal) x0 x1 x2 x3 x4 (ix2 q j) := by
  unfold k2_pay5
  show shapeCast S1x128 xo shapeCasts_S1x128_S1x128 (ix2 (0 : Fin 1) j) + shapeCast S1x128 _ shapeCasts_S128_S1x128 (ix2 (0 : Fin 1) j) = _
  rw [shapeCast_self]
  refine congrArg (xo (ix2 (0 : Fin 1) j) + ·) ?_
  refine (shapeCast_a_1a_apply _ shapeCasts_S128_S1x128 (0 : Fin 1) j).trans ?_
  exact colSum_apply _ _ _ _ _ j

/-! ## Sums over the first rows -/

/-- A function of the rows as a function of the row NUMBER: zero from the number of rows on. -/
def pad {R : ℕ} (f : Fin R → EReal) (r : ℕ) : EReal := if h : r < R then f ⟨r, h⟩ else 0

/-- Its sum over the first R numbers is the sum over all rows. -/
theorem sum_pad {R : ℕ} (f : Fin R → EReal) : ∑ r ∈ Finset.range R, pad f r = ∑ r : Fin R, f r := by
  rw [Finset.sum_range]
  exact Finset.sum_congr rfl fun r _ => dif_pos r.isLt

variable (V : (c : Dev nD) → (b : Ref sig .tc) → Buf (Elt Ideal) ((c : Thread nD τ).loc b))

/-- The hidden rows this call sums: row r of the first input block against its weights, plus row r of the second
    against its weights, plus the bias (all read off the arrays as the call finds them). -/
abbrev hrows (c : Dev nD) : Fin 50000 → Fin 128 → EReal :=
  Spec.hid (Spec.cur2 (V c main_arg0 : S50000x64.Idx → EReal)) (Spec.cur2 (V c main_v27 : S50000x128.Idx → EReal))
    (Spec.cur2 (V c main_v28 : S64x128.Idx → EReal)) (Spec.cur2 (V c main_v29 : S128x128.Idx → EReal))
    (Spec.row1 (V c main_v30 : S1x128.Idx → EReal))

/-! ## The windows' blocks as rows of the arrays -/

/-- The two row-blocked inputs' block index at point t is (t, 0). -/
theorem idx_rows : ∀ t : Fin cfg2.N, (win2_0.index t 0 = t.val ∧ win2_0.index t 1 = 0) ∧ (win2_1.index t 0 = t.val ∧ win2_1.index t 1 = 0) :=
  (by decide +kernel : ∀ t : Fin grid2.N, (win2_0.index t 0 = t.val ∧ win2_0.index t 1 = 0) ∧ (win2_1.index t 0 = t.val ∧ win2_1.index t 1 = 0))

/-- The weights' and the bias's block index is (0, 0) at every point. -/
theorem idx_whole : ∀ t : Fin cfg2.N, (win2_2.index t 0 = 0 ∧ win2_2.index t 1 = 0) ∧ (win2_3.index t 0 = 0 ∧ win2_3.index t 1 = 0)
    ∧ (win2_4.index t 0 = 0 ∧ win2_4.index t 1 = 0) :=
  (by decide +kernel : ∀ t : Fin grid2.N, (win2_2.index t 0 = 0 ∧ win2_2.index t 1 = 0) ∧ (win2_3.index t 0 = 0 ∧ win2_3.index t 1 = 0)
    ∧ (win2_4.index t 0 = 0 ∧ win2_4.index t 1 = 0))

/-- Each input's block at point t, at its literal type. -/
abbrev ablk (c : Dev nD) (t : Fin cfg2.N) : Vec Ideal S5000x64 .f32 := iblk2 V c 0 t
abbrev bblk (c : Dev nD) (t : Fin cfg2.N) : Vec Ideal S5000x128 .f32 := iblk2 V c 1 t
abbrev wablk (c : Dev nD) (t : Fin cfg2.N) : Vec Ideal S64x128 .f32 := iblk2 V c 2 t
abbrev wbblk (c : Dev nD) (t : Fin cfg2.N) : Vec Ideal S128x128 .f32 := iblk2 V c 3 t
abbrev biasblk (c : Dev nD) (t : Fin cfg2.N) : Vec Ideal S1x128 .f32 := iblk2 V c 4 t

/-- Row q of the first input's block at point t is row t·5000 + q of its array. -/
theorem ablk_apply (c : Dev nD) (t : Fin cfg2.N) (q : Fin 5000) (k : Fin 64) (r : Fin 50000) (hr : r.val = t.val * 5000 + q.val) :
    ablk V c t (ix2 q k) = (V c main_arg0 : S50000x64.Idx → EReal) (ix2 r k) := by
  unfold ablk iblk2
  rw [View.read_apply]
  show V c main_arg0 _ = V c main_arg0 _
  congr 1
  funext a
  apply Fin.ext
  match a with
  | ⟨0, _⟩ => show win2_0.index t 0 * 5000 + 1 * q.val = r.val; rw [(idx_rows t).1.1, hr]; omega
  | ⟨1, _⟩ => show win2_0.index t 1 * 64 + 1 * k.val = k.val; rw [(idx_rows t).1.2]; omega

/-- Row q of the second input's block at point t is row t·5000 + q of its array. -/
theorem bblk_apply (c : Dev nD) (t : Fin cfg2.N) (q : Fin 5000) (k : Fin 128) (r : Fin 50000) (hr : r.val = t.val * 5000 + q.val) :
    bblk V c t (ix2 q k) = (V c main_v27 : S50000x128.Idx → EReal) (ix2 r k) := by
  unfold bblk iblk2
  rw [View.read_apply]
  show V c main_v27 _ = V c main_v27 _
  congr 1
  funext a
  apply Fin.ext
  match a with
  | ⟨0, _⟩ => show win2_1.index t 0 * 5000 + 1 * q.val = r.val; rw [(idx_rows t).2.1, hr]; omega
  | ⟨1, _⟩ => show win2_1.index t 1 * 128 + 1 * k.val = k.val; rw [(idx_rows t).2.2]; omega

/-- The first weights' block is the whole array at every point. -/
theorem wablk_apply (c : Dev nD) (t : Fin cfg2.N) (k : Fin 64) (j : Fin 128) :
    wablk V c t (ix2 k j) = (V c main_v28 : S64x128.Idx → EReal) (ix2 k j) := by
  unfold wablk iblk2
  rw [View.read_apply]
  show V c main_v28 _ = V c main_v28 _
  congr 1
  funext a
  apply Fin.ext
  match a with
  | ⟨0, _⟩ => show win2_2.index t 0 * 64 + 1 * k.val = k.val; rw [(idx_whole t).1.1]; omega
  | ⟨1, _⟩ => show win2_2.index t 1 * 128 + 1 * j.val = j.val; rw [(idx_whole t).1.2]; omega

/-- The second weights' block is the whole array at every point. -/
theorem wbblk_apply (c : Dev nD) (t : Fin cfg2.N) (k : Fin 128) (j : Fin 128) :
    wbblk V c t (ix2 k j) = (V c main_v29 : S128x128.Idx → EReal) (ix2 k j) := by
  unfold wbblk iblk2
  rw [View.read_apply]
  show V c main_v29 _ = V c main_v29 _
  congr 1
  funext a
  apply Fin.ext
  match a with
  | ⟨0, _⟩ => show win2_3.index t 0 * 128 + 1 * k.val = k.val; rw [(idx_whole t).2.1.1]; omega
  | ⟨1, _⟩ => show win2_3.index t 1 * 128 + 1 * j.val = j.val; rw [(idx_whole t).2.1.2]; omega

/-- The bias's block is the whole one-row array at every point. -/
theorem biasblk_apply (c : Dev nD) (t : Fin cfg2.N) (j : Fin 128) :
    biasblk V c t (ix2 (0 : Fin 1) j) = (V c main_v30 : S1x128.Idx → EReal) (ix2 (0 : Fin 1) j) := by
  unfold biasblk iblk2
  rw [View.read_apply]
  show V c main_v30 _ = V c main_v30 _
  congr 1
  funext a
  apply Fin.ext
  match a with
  | ⟨0, _⟩ => show win2_4.index t 0 * 1 + 1 * 0 = 0; rw [(idx_whole t).2.2.1]
  | ⟨1, _⟩ => show win2_4.index t 1 * 128 + 1 * j.val = j.val; rw [(idx_whole t).2.2.2]; omega

/-! ## The hidden block of a point is 5000 consecutive hidden rows -/

/-- The hidden block the body forms at point t. -/
abbrev hblk (c : Dev nD) (t : Fin cfg2.N) : Vec Ideal S5000x128 .f32 :=
  k2_pay3 (F := Ideal) (ablk V c t) (bblk V c t) (wablk V c t) (wbblk V c t) (biasblk V c t)

/-- Its row q is hidden row t·5000 + q. -/
theorem hblk_apply (c : Dev nD) (t : Fin cfg2.N) (q : Fin 5000) (j : Fin 128) (r : Fin 50000) (hr : r.val = t.val * 5000 + q.val) :
    hblk V c t (ix2 q j) = hrows V c r j := by
  refine (pay3_apply (ablk V c t) (bblk V c t) (wablk V c t) (wbblk V c t) (biasblk V c t) q j).trans ?_
  show _ = (∑ k : Fin 64, _ * _ + ∑ k : Fin 128, _ * _) + _
  refine congrArg₂ (· + ·) (congrArg₂ (· + ·) (Finset.sum_congr rfl fun k _ => ?_) (Finset.sum_congr rfl fun k _ => ?_)) ?_
  · exact congrArg₂ (· * ·) (ablk_apply V c t q k r hr) (wablk_apply V c t k j)
  · exact congrArg₂ (· * ·) (bblk_apply V c t q k r hr) (wbblk_apply V c t k j)
  · exact biasblk_apply V c t j

/-- A column of the hidden block, summed, is the column of the hidden rows summed over the block's 5000 row numbers. -/
theorem hblk_sum (c : Dev nD) (t : Fin cfg2.N) (j : Fin 128) (g : EReal → EReal) :
    ∑ q : Fin 5000, g (hblk V c t (ix2 q j)) = ∑ q ∈ Finset.range 5000, pad (fun r => g (hrows V c r j)) (t.val * 5000 + q) := by
  have ht : t.val < 10 := lt_of_lt_of_eq t.isLt N_2
  rw [Finset.sum_range]
  refine Finset.sum_congr rfl fun q _ => ?_
  have hlt : t.val * 5000 + q.val < 50000 := by have := q.isLt; omega
  unfold pad
  rw [dif_pos hlt]
  exact congrArg g (hblk_apply V c t q j ⟨_, hlt⟩ rfl)

/-! ## What the two output buffers hold after each point -/

/-- After the first point: the first block's column sums, and column sums of squares (zero, just stored and read back, plus them). -/
theorem at_first (c : Dev nD) (t : Fin cfg2.N) (h0 : t.val % 10 = 0) (j : Fin 128) :
    ((outsAt2 V c t.val t.isLt).1 : S1x128.Idx → EReal) (ix2 (0 : Fin 1) j) = ∑ q : Fin 5000, hblk V c t (ix2 q j)
    ∧ ((outsAt2 V c t.val t.isLt).2 : S1x128.Idx → EReal) (ix2 (0 : Fin 1) j)
        = ∑ q : Fin 5000, hblk V c t (ix2 q j) * hblk V c t (ix2 q j) := by
  rw [outsAt2_A V c t h0]
  dsimp only
  constructor
  · refine (congrFun (outA5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (ablk V c t) (bblk V c t) (wablk V c t) (wbblk V c t) (biasblk V c t)) (ix2 (0 : Fin 1) j)).trans ?_
    refine (pay4_apply (ablk V c t) (bblk V c t) (wablk V c t) (wbblk V c t) (biasblk V c t) (k2_pay1 (F := Ideal)) j).trans ?_
    rw [pay1_apply, zero_add]
  · refine (congrFun (outA6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (ablk V c t) (bblk V c t) (wablk V c t) (wbblk V c t) (biasblk V c t)) (ix2 (0 : Fin 1) j)).trans ?_
    refine (pay5_apply (ablk V c t) (bblk V c t) (wablk V c t) (wbblk V c t) (biasblk V c t) (k2_pay2 (F := Ideal)) j).trans ?_
    rw [pay2_apply, zero_add]

/-- After a later point: what the point before left, plus the block's column sums, and column sums of squares. -/
theorem at_later (c : Dev nD) (n : ℕ) (hn : n + 1 < cfg2.N) (j : Fin 128) :
    ((outsAt2 V c (n + 1) hn).1 : S1x128.Idx → EReal) (ix2 (0 : Fin 1) j)
        = ((outsAt2 V c n (Nat.lt_of_succ_lt hn)).1 : S1x128.Idx → EReal) (ix2 (0 : Fin 1) j)
          + ∑ q : Fin 5000, hblk V c ⟨n + 1, hn⟩ (ix2 q j)
    ∧ ((outsAt2 V c (n + 1) hn).2 : S1x128.Idx → EReal) (ix2 (0 : Fin 1) j)
        = ((outsAt2 V c n (Nat.lt_of_succ_lt hn)).2 : S1x128.Idx → EReal) (ix2 (0 : Fin 1) j)
          + ∑ q : Fin 5000, hblk V c ⟨n + 1, hn⟩ (ix2 q j) * hblk V c ⟨n + 1, hn⟩ (ix2 q j) := by
  have hN : cfg2.N = 10 := N_2
  have hB : ¬(⟨n + 1, hn⟩ : Fin cfg2.N).val % 10 = 0 := by dsimp only; omega
  rw [outsAt2_B V c ⟨n + 1, hn⟩ hB]
  dsimp only
  constructor
  · refine (congrFun (outB5 (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (fun h => hB ((hcond2_0 ⟨n + 1, hn⟩).mp h)) (ablk V c ⟨n + 1, hn⟩) (bblk V c ⟨n + 1, hn⟩) (wablk V c ⟨n + 1, hn⟩) (wbblk V c ⟨n + 1, hn⟩) (biasblk V c ⟨n + 1, hn⟩)
      (outsAt2 V c n (Nat.lt_of_succ_lt hn)).1 (outsAt2 V c n (Nat.lt_of_succ_lt hn)).2) (ix2 (0 : Fin 1) j)).trans ?_
    exact pay4_apply (ablk V c ⟨n + 1, hn⟩) (bblk V c ⟨n + 1, hn⟩) (wablk V c ⟨n + 1, hn⟩) (wbblk V c ⟨n + 1, hn⟩) (biasblk V c ⟨n + 1, hn⟩) (outsAt2 V c n (Nat.lt_of_succ_lt hn)).1 j
  · refine (congrFun (outB6 (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (fun h => hB ((hcond2_0 ⟨n + 1, hn⟩).mp h)) (ablk V c ⟨n + 1, hn⟩) (bblk V c ⟨n + 1, hn⟩) (wablk V c ⟨n + 1, hn⟩) (wbblk V c ⟨n + 1, hn⟩) (biasblk V c ⟨n + 1, hn⟩)
      (outsAt2 V c n (Nat.lt_of_succ_lt hn)).1 (outsAt2 V c n (Nat.lt_of_succ_lt hn)).2) (ix2 (0 : Fin 1) j)).trans ?_
    exact pay5_apply (ablk V c ⟨n + 1, hn⟩) (bblk V c ⟨n + 1, hn⟩) (wablk V c ⟨n + 1, hn⟩) (wbblk V c ⟨n + 1, hn⟩) (biasblk V c ⟨n + 1, hn⟩) (outsAt2 V c n (Nat.lt_of_succ_lt hn)).2 j

/-- So after point n the buffers hold the column sums, and column sums of squares, of the first (n+1)·5000 hidden rows. -/
theorem sums_upto (c : Dev nD) (j : Fin 128) : ∀ (n : ℕ) (hn : n < cfg2.N),
    ((outsAt2 V c n hn).1 : S1x128.Idx → EReal) (ix2 (0 : Fin 1) j)
        = ∑ r ∈ Finset.range ((n + 1) * 5000), pad (fun r => hrows V c r j) r
    ∧ ((outsAt2 V c n hn).2 : S1x128.Idx → EReal) (ix2 (0 : Fin 1) j)
        = ∑ r ∈ Finset.range ((n + 1) * 5000), pad (fun r => hrows V c r j * hrows V c r j) r
  | 0, hn => by
    obtain ⟨h1, h2⟩ := at_first V c ⟨0, hn⟩ rfl j
    refine ⟨h1.trans ?_, h2.trans ?_⟩
    · refine (hblk_sum V c ⟨0, hn⟩ j (fun x => x)).trans ?_
      simp only [Nat.zero_mul, Nat.zero_add, Nat.one_mul]
    · refine (hblk_sum V c ⟨0, hn⟩ j (fun x => x * x)).trans ?_
      simp only [Nat.zero_mul, Nat.zero_add, Nat.one_mul]
  | n + 1, hn => by
    obtain ⟨h1, h2⟩ := at_later V c n hn j
    obtain ⟨i1, i2⟩ := sums_upto c j n (Nat.lt_of_succ_lt hn)
    have e : (n + 1 + 1) * 5000 = (n + 1) * 5000 + 5000 := by omega
    refine ⟨h1.trans ?_, h2.trans ?_⟩
    · rw [e, Finset.sum_range_add, i1]
      exact congrArg (_ + ·) (hblk_sum V c ⟨n + 1, hn⟩ j (fun x => x))
    · rw [e, Finset.sum_range_add, i2]
      exact congrArg (_ + ·) (hblk_sum V c ⟨n + 1, hn⟩ j (fun x => x * x))

/-! ## The arrays after the call -/

/-- The last point. -/
def tLast : Fin cfg2.N := ⟨9, by rw [show cfg2.N = 10 from N_2]; decide⟩

/-- The one write-back of the first output, at the last point, writes what the buffer then holds: the block is the whole array. -/
theorem flushed5 (c : Dev nD) (t : Fin cfg2.N) (hf : (cfg2.win 5).flush t = true) :
    (dat2 V c).flushed 5 t = ((cfg2.win 5).blk t).view.read (Elt Ideal) (outsAt2 V c tLast.val tLast.isLt).1 := by
  have hN : cfg2.N = 10 := N_2
  have h9 : t.val = 9 := by have := (flush2_5 t).mp hf; have := t.isLt; omega
  obtain rfl : t = tLast := Fin.ext h9
  show (cfg2.win 5).cut (grid2.coords tLast) ((dat2 V c).after 5 tLast) = _
  rw [after2_5]
  have hz' : (fun a => win2_5.index tLast a * main_v34_0.ty.shape.size a) = fun _ => 0 := funext fun a => by fin_cases a <;> decide
  exact (Memref.read_access_unit_zero (Elt Ideal) main_v34_0 hz' (fun a => by rw [congrFun hz' a]; simp) _).symm

theorem flushed6 (c : Dev nD) (t : Fin cfg2.N) (hf : (cfg2.win 6).flush t = true) :
    (dat2 V c).flushed 6 t = ((cfg2.win 6).blk t).view.read (Elt Ideal) (outsAt2 V c tLast.val tLast.isLt).2 := by
  have hN : cfg2.N = 10 := N_2
  have h9 : t.val = 9 := by have := (flush2_6 t).mp hf; have := t.isLt; omega
  obtain rfl : t = tLast := Fin.ext h9
  show (cfg2.win 6).cut (grid2.coords tLast) ((dat2 V c).after 6 tLast) = _
  rw [after2_6]
  have hz' : (fun a => win2_6.index tLast a * main_v34_1.ty.shape.size a) = fun _ => 0 := funext fun a => by fin_cases a <;> decide
  exact (Memref.read_access_unit_zero (Elt Ideal) main_v34_1 hz' (fun a => by rw [congrFun hz' a]; simp) _).symm

/-- So the first output array ends holding what its buffer holds after the last point. -/
theorem arr5 (c : Dev nD) : (dat2 V c).arrAt 5 cfg2.N = (outsAt2 V c tLast.val tLast.isLt).1 :=
  (dat2 V c).arrAt_eq_of_cover 5 (outsAt2 V c tLast.val tLast.isLt).1 (flushed5 V c) fun i =>
    ⟨tLast, (flush2_5 tLast).mpr rfl, by
      show i ∈ ((View.whole main_v34_0).slice (win2_5.rect tLast)).set
      rw [View.set_slice_whole, Rect.mem_set_unit]
      intro a
      have h0 : (i 0 : Nat) < 1 := (i 0).isLt
      have h1 : (i 1 : Nat) < 128 := (i 1).isLt
      match a with
      | ⟨0, _⟩ => show win2_5.index tLast 0 * win2_5.size 0 ≤ (i 0 : Nat) ∧ (i 0 : Nat) < win2_5.index tLast 0 * win2_5.size 0 + win2_5.xsize (grid2.coords tLast) 0
                  rw [show win2_5.index tLast 0 * win2_5.size 0 = 0 from by decide +kernel, show win2_5.xsize (grid2.coords tLast) 0 = 1 from by decide +kernel]; omega
      | ⟨1, _⟩ => show win2_5.index tLast 1 * win2_5.size 1 ≤ (i 1 : Nat) ∧ (i 1 : Nat) < win2_5.index tLast 1 * win2_5.size 1 + win2_5.xsize (grid2.coords tLast) 1
                  rw [show win2_5.index tLast 1 * win2_5.size 1 = 0 from by decide +kernel, show win2_5.xsize (grid2.coords tLast) 1 = 128 from by decide +kernel]; omega⟩

theorem arr6 (c : Dev nD) : (dat2 V c).arrAt 6 cfg2.N = (outsAt2 V c tLast.val tLast.isLt).2 :=
  (dat2 V c).arrAt_eq_of_cover 6 (outsAt2 V c tLast.val tLast.isLt).2 (flushed6 V c) fun i =>
    ⟨tLast, (flush2_6 tLast).mpr rfl, by
      show i ∈ ((View.whole main_v34_1).slice (win2_6.rect tLast)).set
      rw [View.set_slice_whole, Rect.mem_set_unit]
      intro a
      have h0 : (i 0 : Nat) < 1 := (i 0).isLt
      have h1 : (i 1 : Nat) < 128 := (i 1).isLt
      match a with
      | ⟨0, _⟩ => show win2_6.index tLast 0 * win2_6.size 0 ≤ (i 0 : Nat) ∧ (i 0 : Nat) < win2_6.index tLast 0 * win2_6.size 0 + win2_6.xsize (grid2.coords tLast) 0
                  rw [show win2_6.index tLast 0 * win2_6.size 0 = 0 from by decide +kernel, show win2_6.xsize (grid2.coords tLast) 0 = 1 from by decide +kernel]; omega
      | ⟨1, _⟩ => show win2_6.index tLast 1 * win2_6.size 1 ≤ (i 1 : Nat) ∧ (i 1 : Nat) < win2_6.index tLast 1 * win2_6.size 1 + win2_6.xsize (grid2.coords tLast) 1
                  rw [show win2_6.index tLast 1 * win2_6.size 1 = 0 from by decide +kernel, show win2_6.xsize (grid2.coords tLast) 1 = 128 from by decide +kernel]; omega⟩

/-- After the last grid point the first output array holds each hidden column's sum over ALL rows. -/
theorem final_sum (c : Dev nD) (j : Fin 128) :
    ((dat2 (F := Ideal) V c).arrAt 5 cfg2.N : S1x128.Idx → EReal) (ix2 (0 : Fin 1) j) = Spec.colSum (hrows V c) j := by
  rw [arr5 V c]
  refine (sums_upto V c j 9 tLast.isLt).1.trans ?_
  exact sum_pad fun r => hrows V c r j

/-- After the last grid point the second output array holds each hidden column's sum of squares over ALL rows. -/
theorem final_sumsq (c : Dev nD) (j : Fin 128) :
    ((dat2 (F := Ideal) V c).arrAt 6 cfg2.N : S1x128.Idx → EReal) (ix2 (0 : Fin 1) j) = Spec.colSumSq (hrows V c) j := by
  rw [arr6 V c]
  refine (sums_upto V c j 9 tLast.isLt).2.trans ?_
  exact sum_pad fun r => hrows V c r j * hrows V c r j

end Cert.KernelIdeal.R2

end
-- ==== Proof.Region3.lean ====
/-
  What pallas_call 3 (the normalise-and-project call over 50000 rows, 10 grid points of 5000 rows each) leaves in its output
  array: row by row, the hidden row normalised by the given mean and variance, scaled, shifted, cut at zero and sent through
  the second linear map. Each grid point writes its own block of 5000 rows, and the blocks tile the array.
-/
import proofs.«151635_j7464653160946_1_alg».proof.Proof.Gen.KernelIdeal.Frame
import proofs.«151635_j7464653160946_1_alg».proof.Proof.Spec
import proofs.«151635_j7464653160946_1_alg».proof.Proof.Curry
import proofs.«151635_j7464653160946_1_alg».proof.Proof.LibRowOps
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.R3

open Cert.KernelIdeal Cert.KernelIdeal.Gen

variable (V : (c : Dev nD) → (b : Ref sig .tc) → Buf (Elt Ideal) ((c : Thread nD τ).loc b))

/-- The hidden rows this call recomputes (the same as the statistics call's). -/
abbrev hrows (c : Dev nD) : Fin 50000 → Fin 128 → EReal :=
  Spec.hid (Spec.cur2 (V c main_arg0 : S50000x64.Idx → EReal)) (Spec.cur2 (V c main_v27 : S50000x128.Idx → EReal))
    (Spec.cur2 (V c main_v28 : S64x128.Idx → EReal)) (Spec.cur2 (V c main_v29 : S128x128.Idx → EReal))
    (Spec.row1 (V c main_v30 : S1x128.Idx → EReal))

/-- The offsets of a whole-buffer access, however the zeros are spelt. -/
theorem hz : (![0, 0] : Fin 2 → Nat) = fun _ => 0 := funext fun a => by fin_cases a <;> rfl

/-! ## The body's arithmetic at one place of the block -/

/-- The normalised hidden block at place (q, k): row q of the two input blocks (64 and 128 wide) against column k of
    their weights, plus the bias; less the mean, times the reciprocal root of the variance plus eps, times the scale,
    plus the shift. -/
theorem pay2_apply (v0 : Vec Ideal S5000x64 .f32) (v2 : Vec Ideal S5000x128 .f32) (v5 : Vec Ideal S64x128 .f32)
    (v8 : Vec Ideal S128x128 .f32) (v14 v18 v23 v29 v33 : Vec Ideal S1x128 .f32) (q : Fin 5000) (k : Fin 128) :
    k3_pay2 (F := Ideal) v0 v2 v5 v8 v14 v18 v23 v29 v33 (ix2 q k)
      = ((((∑ j : Fin 64, v0 (ix2 q j) * v5 (ix2 j k) + ∑ j : Fin 128, v2 (ix2 q j) * v8 (ix2 j k)) + v14 (ix2 (0 : Fin 1) k))
            - v23 (ix2 (0 : Fin 1) k)) * Ideal.rsqrt (v18 (ix2 (0 : Fin 1) k) + Ideal.ofBits .f32 0x3727C5AC#32))
          * v29 (ix2 (0 : Fin 1) k) + v33 (ix2 (0 : Fin 1) k) := by
  unfold k3_pay2
  simp only [shapeCast_self, addf_apply, mulf_apply, subf_apply, broadcastTo_1b_ab_apply, matmul]
  rw [Cert.RowOps.matmul_row_apply dot_S5000x64_S64x128_S5000x128_1_0_0_1_n_n rfl rfl rfl rfl rfl rfl none
      (truncf FTy.bf16 v0 bitsLt_bf16_f32) (truncf FTy.bf16 v5 bitsLt_bf16_f32) q k,
    Cert.RowOps.matmul_row_apply dot_S5000x128_S128x128_S5000x128_1_0_0_1_n_n rfl rfl rfl rfl rfl rfl none
      (truncf FTy.bf16 v2 bitsLt_bf16_f32) (truncf FTy.bf16 v8 bitsLt_bf16_f32) q k]
  rfl

/-- The stored block at place (q, o): row q of the block cut at z from below, against column o of the second weights
    (128 by 64), plus the second bias. -/
theorem pay1_apply (v36 : FVec Ideal S5000x128 .f32) (z : EReal) (v40 : Vec Ideal S128x64 .f32)
    (v43 : Vec Ideal S1x64 .f32) (q : Fin 5000) (o : Fin 64) :
    k3_pay1 (F := Ideal) v36 z v40 v43 (ix2 q o)
      = ∑ k : Fin 128, max (v36 (ix2 q k)) z * v40 (ix2 k o) + v43 (ix2 (0 : Fin 1) o) := by
  unfold k3_pay1
  simp only [shapeCast_self, addf_apply, broadcastTo_1b_ab_apply, matmul]
  rw [Cert.RowOps.matmul_row_apply dot_S5000x128_S128x64_S5000x64_1_0_0_1_n_n rfl rfl rfl rfl rfl rfl none
    (truncf FTy.bf16 (maximumf v36 (broadcast S5000x128 z)) bitsLt_bf16_f32) (truncf FTy.bf16 v40 bitsLt_bf16_f32) q o]
  rfl

/-- What the body leaves in the output block, at place (q, o), as the layer's second half on the blocks: the fifth
    block is the mean (subtracted) and the sixth the variance (under the root). -/
theorem out_apply (x0 : Vec Ideal S5000x64 .f32) (x1 : Vec Ideal S5000x128 .f32) (x2 : Vec Ideal S64x128 .f32)
    (x3 : Vec Ideal S128x128 .f32) (x4 x5 x6 x7 x8 : Vec Ideal S1x128 .f32) (x9 : Vec Ideal S128x64 .f32)
    (x10 : Vec Ideal S1x64 .f32) (q : Fin 5000) (o : Fin 64) :
    out3_11 (F := Ideal) x0 x1 x2 x3 x4 x5 x6 x7 x8 x9 x10 (ix2 q o)
      = Spec.lin (Spec.act (Spec.hid (Spec.cur2 x0) (Spec.cur2 x1) (Spec.cur2 x2) (Spec.cur2 x3) (Spec.row1 x4))
            (Spec.row1 x5) (Spec.row1 x6) (Spec.row1 x7) (Spec.row1 x8)
            (Ideal.ofBits .f32 0x3727C5AC#32) (Ideal.ofBits .f32 0x00000000#32))
          (Spec.cur2 x9) (Spec.row1 x10) q o := by
  unfold out3_11
  rw [View.canon_unit_zero hz]
  simp only [View.ld_unit_zero (S := S5000x64) hz, View.ld_unit_zero (S := S5000x128) hz, View.ld_unit_zero (S := S64x128) hz,
    View.ld_unit_zero (S := S128x128) hz, View.ld_unit_zero (S := S1x128) hz, View.ld_unit_zero (S := S128x64) hz,
    View.ld_unit_zero (S := S1x64) hz]
  rw [pay1_apply]
  simp only [pay2_apply]
  rfl

/-- A row of the layer's second half depends on that row of the two inputs only: two pairs of inputs, of any numbers of
    rows, that agree on a row give the same output row. -/
theorem row_local {R R' Ka Kb H O : ℕ} (A : Fin R → Fin Ka → EReal) (B : Fin R → Fin Kb → EReal)
    (A' : Fin R' → Fin Ka → EReal) (B' : Fin R' → Fin Kb → EReal) (Wa : Fin Ka → Fin H → EReal) (Wb : Fin Kb → Fin H → EReal)
    (bias mean var g be : Fin H → EReal) (eps z : EReal) (W2 : Fin H → Fin O → EReal) (b2 : Fin O → EReal)
    (r : Fin R) (r' : Fin R') (hA : ∀ k, A r k = A' r' k) (hB : ∀ k, B r k = B' r' k) (o : Fin O) :
    Spec.lin (Spec.act (Spec.hid A B Wa Wb bias) mean var g be eps z) W2 b2 r o
      = Spec.lin (Spec.act (Spec.hid A' B' Wa Wb bias) mean var g be eps z) W2 b2 r' o := by
  simp only [Spec.lin, Spec.act, Spec.hid, hA, hB]

/-! ## The blocks as parts of the arrays -/

theorem lt10 (t : Fin cfg3.N) : t.val < 10 := lt_of_lt_of_eq t.isLt N_3

/-- The row of the arrays that place q of block t is. -/
def rowOf (t : Fin cfg3.N) (q : Fin 5000) : Fin 50000 :=
  ⟨t.val * 5000 + q.val, by have := lt10 t; have := q.isLt; omega⟩

/-- The windows' block indices at every point (decided over the grid): the two row inputs and the output move with the
    point along the rows; every other window stays at its whole array. -/
theorem idx_facts : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0)
    ∧ (win3_8.index t (0 : Fin 2) = 0 ∧ win3_8.index t (1 : Fin 2) = 0)
    ∧ (win3_9.index t (0 : Fin 2) = 0 ∧ win3_9.index t (1 : Fin 2) = 0)
    ∧ (win3_10.index t (0 : Fin 2) = 0 ∧ win3_10.index t (1 : Fin 2) = 0)
    ∧ (win3_11.index t (0 : Fin 2) = t.val ∧ win3_11.index t (1 : Fin 2) = 0) :=
  (by decide +kernel : ∀ t : Fin grid3.N, _)

/-- Block t of the first row input is rows 5000 t … 5000 t + 4999 of its array. -/
theorem blk0_apply (c : Dev nD) (t : Fin cfg3.N) (q : Fin 5000) (k : Fin 64) :
    (iblk3 (F := Ideal) V c 0 t : Vec Ideal S5000x64 .f32) (ix2 q k)
      = (V c main_arg0 : S50000x64.Idx → EReal) (ix2 (rowOf t q) k) := by
  have hi := (idx_facts t).1
  unfold iblk3
  rw [View.read_apply]
  show (V c main_arg0 : S50000x64.Idx → EReal) _ = _
  congr 1
  funext a
  apply Fin.ext
  match a with
  | ⟨0, _⟩ => show win3_0.index t 0 * 5000 + 1 * q.val = t.val * 5000 + q.val; rw [hi.1]; omega
  | ⟨1, _⟩ => show win3_0.index t 1 * 64 + 1 * k.val = k.val; rw [hi.2]; omega

/-- Block t of the second row input (128 wide) is the same rows of its array. -/
theorem blk1_apply (c : Dev nD) (t : Fin cfg3.N) (q : Fin 5000) (k : Fin 128) :
    (iblk3 (F := Ideal) V c 1 t : Vec Ideal S5000x128 .f32) (ix2 q k)
      = (V c main_v27 : S50000x128.Idx → EReal) (ix2 (rowOf t q) k) := by
  have hi := (idx_facts t).2.1
  unfold iblk3
  rw [View.read_apply]
  show (V c main_v27 : S50000x128.Idx → EReal) _ = _
  congr 1
  funext a
  apply Fin.ext
  match a with
  | ⟨0, _⟩ => show win3_1.index t 0 * 5000 + 1 * q.val = t.val * 5000 + q.val; rw [hi.1]; omega
  | ⟨1, _⟩ => show win3_1.index t 1 * 128 + 1 * k.val = k.val; rw [hi.2]; omega

/-- Every other input window's block is its whole array, at every point. -/
theorem blk2_eq (c : Dev nD) (t : Fin cfg3.N) :
    (iblk3 (F := Ideal) V c 2 t : Vec Ideal S64x128 .f32) = (V c main_v28 : S64x128.Idx → EReal) := by
  have hi := (idx_facts t).2.2.1
  funext i
  unfold iblk3
  rw [View.read_apply]
  show (V c main_v28 : S64x128.Idx → EReal) _ = _
  congr 1
  funext a
  apply Fin.ext
  match a with
  | ⟨0, _⟩ => show win3_2.index t 0 * 64 + 1 * (i 0).val = (i 0).val; rw [hi.1]; omega
  | ⟨1, _⟩ => show win3_2.index t 1 * 128 + 1 * (i 1).val = (i 1).val; rw [hi.2]; omega

theorem blk3_eq (c : Dev nD) (t : Fin cfg3.N) :
    (iblk3 (F := Ideal) V c 3 t : Vec Ideal S128x128 .f32) = (V c main_v29 : S128x128.Idx → EReal) := by
  have hi := (idx_facts t).2.2.2.1
  funext i
  unfold iblk3
  rw [View.read_apply]
  show (V c main_v29 : S128x128.Idx → EReal) _ = _
  congr 1
  funext a
  apply Fin.ext
  match a with
  | ⟨0, _⟩ => show win3_3.index t 0 * 128 + 1 * (i 0).val = (i 0).val; rw [hi.1]; omega
  | ⟨1, _⟩ => show win3_3.index t 1 * 128 + 1 * (i 1).val = (i 1).val; rw [hi.2]; omega

theorem blk4_eq (c : Dev nD) (t : Fin cfg3.N) :
    (iblk3 (F := Ideal) V c 4 t : Vec Ideal S1x128 .f32) = (V c main_v30 : S1x128.Idx → EReal) := by
  have hi := (idx_facts t).2.2.2.2.1
  funext i
  unfold iblk3
  rw [View.read_apply]
  show (V c main_v30 : S1x128.Idx → EReal) _ = _
  congr 1
  funext a
  apply Fin.ext
  match a with
  | ⟨0, _⟩ => show win3_4.index t 0 * 1 + 1 * (i 0).val = (i 0).val; rw [hi.1]; omega
  | ⟨1, _⟩ => show win3_4.index t 1 * 128 + 1 * (i 1).val = (i 1).val; rw [hi.2]; omega

theorem blk5_eq (c : Dev nD) (t : Fin cfg3.N) :
    (iblk3 (F := Ideal) V c 5 t : Vec Ideal S1x128 .f32) = (V c main_v36 : S1x128.Idx → EReal) := by
  have hi := (idx_facts t).2.2.2.2.2.1
  funext i
  unfold iblk3
  rw [View.read_apply]
  show (V c main_v36 : S1x128.Idx → EReal) _ = _
  congr 1
  funext a
  apply Fin.ext
  match a with
  | ⟨0, _⟩ => show win3_5.index t 0 * 1 + 1 * (i 0).val = (i 0).val; rw [hi.1]; omega
  | ⟨1, _⟩ => show win3_5.index t 1 * 128 + 1 * (i 1).val = (i 1).val; rw [hi.2]; omega

theorem blk6_eq (c : Dev nD) (t : Fin cfg3.N) :
    (iblk3 (F := Ideal) V c 6 t : Vec Ideal S1x128 .f32) = (V c main_v40 : S1x128.Idx → EReal) := by
  have hi := (idx_facts t).2.2.2.2.2.2.1
  funext i
  unfold iblk3
  rw [View.read_apply]
  show (V c main_v40 : S1x128.Idx → EReal) _ = _
  congr 1
  funext a
  apply Fin.ext
  match a with
  | ⟨0, _⟩ => show win3_6.index t 0 * 1 + 1 * (i 0).val = (i 0).val; rw [hi.1]; omega
  | ⟨1, _⟩ => show win3_6.index t 1 * 128 + 1 * (i 1).val = (i 1).val; rw [hi.2]; omega

theorem blk7_eq (c : Dev nD) (t : Fin cfg3.N) :
    (iblk3 (F := Ideal) V c 7 t : Vec Ideal S1x128 .f32) = (V c main_v31 : S1x128.Idx → EReal) := by
  have hi := (idx_facts t).2.2.2.2.2.2.2.1
  funext i
  unfold iblk3
  rw [View.read_apply]
  show (V c main_v31 : S1x128.Idx → EReal) _ = _
  congr 1
  funext a
  apply Fin.ext
  match a with
  | ⟨0, _⟩ => show win3_7.index t 0 * 1 + 1 * (i 0).val = (i 0).val; rw [hi.1]; omega
  | ⟨1, _⟩ => show win3_7.index t 1 * 128 + 1 * (i 1).val = (i 1).val; rw [hi.2]; omega

theorem blk8_eq (c : Dev nD) (t : Fin cfg3.N) :
    (iblk3 (F := Ideal) V c 8 t : Vec Ideal S1x128 .f32) = (V c main_v32 : S1x128.Idx → EReal) := by
  have hi := (idx_facts t).2.2.2.2.2.2.2.2.1
  funext i
  unfold iblk3
  rw [View.read_apply]
  show (V c main_v32 : S1x128.Idx → EReal) _ = _
  congr 1
  funext a
  apply Fin.ext
  match a with
  | ⟨0, _⟩ => show win3_8.index t 0 * 1 + 1 * (i 0).val = (i 0).val; rw [hi.1]; omega
  | ⟨1, _⟩ => show win3_8.index t 1 * 128 + 1 * (i 1).val = (i 1).val; rw [hi.2]; omega

theorem blk9_eq (c : Dev nD) (t : Fin cfg3.N) :
    (iblk3 (F := Ideal) V c 9 t : Vec Ideal S128x64 .f32) = (V c main_arg15 : S128x64.Idx → EReal) := by
  have hi := (idx_facts t).2.2.2.2.2.2.2.2.2.1
  funext i
  unfold iblk3
  rw [View.read_apply]
  show (V c main_arg15 : S128x64.Idx → EReal) _ = _
  congr 1
  funext a
  apply Fin.ext
  match a with
  | ⟨0, _⟩ => show win3_9.index t 0 * 128 + 1 * (i 0).val = (i 0).val; rw [hi.1]; omega
  | ⟨1, _⟩ => show win3_9.index t 1 * 64 + 1 * (i 1).val = (i 1).val; rw [hi.2]; omega

theorem blk10_eq (c : Dev nD) (t : Fin cfg3.N) :
    (iblk3 (F := Ideal) V c 10 t : Vec Ideal S1x64 .f32) = (V c main_v33 : S1x64.Idx → EReal) := by
  have hi := (idx_facts t).2.2.2.2.2.2.2.2.2.2.1
  funext i
  unfold iblk3
  rw [View.read_apply]
  show (V c main_v33 : S1x64.Idx → EReal) _ = _
  congr 1
  funext a
  apply Fin.ext
  match a with
  | ⟨0, _⟩ => show win3_10.index t 0 * 1 + 1 * (i 0).val = (i 0).val; rw [hi.1]; omega
  | ⟨1, _⟩ => show win3_10.index t 1 * 64 + 1 * (i 1).val = (i 1).val; rw [hi.2]; omega

/-! ## From the blocks to the array -/

/-- What the output array ends holding: the layer's second half on the whole arrays. -/
abbrev G (c : Dev nD) : S50000x64.Idx → EReal :=
  Spec.unc2 (Spec.lin (Spec.act (hrows V c) (Spec.row1 (V c main_v36 : S1x128.Idx → EReal)) (Spec.row1 (V c main_v40 : S1x128.Idx → EReal))
      (Spec.row1 (V c main_v31 : S1x128.Idx → EReal)) (Spec.row1 (V c main_v32 : S1x128.Idx → EReal))
      (Ideal.ofBits .f32 0x3727C5AC#32) (Ideal.ofBits .f32 0x00000000#32))
    (Spec.cur2 (V c main_arg15 : S128x64.Idx → EReal)) (Spec.row1 (V c main_v33 : S1x64.Idx → EReal)))

/-- What point t writes back is block t of that array: a row of the result needs only that row of the two inputs. -/
theorem flushed_eq (c : Dev nD) (t : Fin cfg3.N) :
    (dat3 (F := Ideal) V c).flushed 11 t = ((cfg3.win 11).blk t).view.read (Elt Ideal) (G V c) := by
  show (cfg3.win 11).cut (grid3.coords t) ((dat3 (F := Ideal) V c).after 11 t) = _
  rw [after3_11]
  funext j
  obtain ⟨q, o, rfl⟩ : ∃ (q : Fin 5000) (o : Fin 64), j = ix2 q o := ⟨j 0, j 1, eq_ix2 j⟩
  have hi := (idx_facts t).2.2.2.2.2.2.2.2.2.2.2
  have hemb : ((cfg3.win 11).blk t).view.emb (ix2 q o) = (ix2 (rowOf t q) o : S50000x64.Idx) := by
    funext a
    apply Fin.ext
    match a with
    | ⟨0, _⟩ => show win3_11.index t 0 * 5000 + 1 * q.val = t.val * 5000 + q.val; rw [hi.1]; omega
    | ⟨1, _⟩ => show win3_11.index t 1 * 64 + 1 * o.val = o.val; rw [hi.2]; omega
  show out3_11 (F := Ideal) (iblk3 V c 0 t) (iblk3 V c 1 t) (iblk3 V c 2 t) (iblk3 V c 3 t) (iblk3 V c 4 t) (iblk3 V c 5 t)
      (iblk3 V c 6 t) (iblk3 V c 7 t) (iblk3 V c 8 t) (iblk3 V c 9 t) (iblk3 V c 10 t) (ix2 q o)
    = G V c (((cfg3.win 11).blk t).view.emb (ix2 q o))
  rw [hemb]
  refine (out_apply (iblk3 V c 0 t) (iblk3 V c 1 t) (iblk3 V c 2 t) (iblk3 V c 3 t) (iblk3 V c 4 t) (iblk3 V c 5 t)
      (iblk3 V c 6 t) (iblk3 V c 7 t) (iblk3 V c 8 t) (iblk3 V c 9 t) (iblk3 V c 10 t) q o).trans ?_
  rw [blk2_eq V c t, blk3_eq V c t, blk4_eq V c t, blk5_eq V c t, blk6_eq V c t, blk7_eq V c t, blk8_eq V c t,
    blk9_eq V c t, blk10_eq V c t]
  exact row_local _ _ _ _ _ _ _ _ _ _ _ _ _ _ _ q (rowOf t q) (fun k => blk0_apply V c t q k) (fun k => blk1_apply V c t q k) o

/-- Every row of the array is in the block of the point its number divided by 5000 names. -/
theorem cover (i : S50000x64.Idx) :
    ∃ t : Fin cfg3.N, (cfg3.win 11).flush t = true ∧ i ∈ ((cfg3.win 11).blk t).view.set := by
  have h0 : (i 0).val < 50000 := idx2_lt0 i
  have h1 : (i 1).val < 64 := idx2_lt1 i
  obtain ⟨t, ht⟩ : ∃ t : Fin cfg3.N, t.val = (i 0).val / 5000 :=
    ⟨⟨(i 0).val / 5000, lt_of_lt_of_eq (by omega : (i 0).val / 5000 < 10) N_3.symm⟩, rfl⟩
  have hi := (idx_facts t).2.2.2.2.2.2.2.2.2.2.2
  refine ⟨t, flush3_11 t, ?_⟩
  show i ∈ ((View.whole main_v41).slice (win3_11.rect t)).set
  rw [View.set_slice_whole, Rect.mem_set_unit]
  intro a
  match a with
  | ⟨0, _⟩ =>
    show win3_11.index t 0 * 5000 ≤ (i 0).val ∧ (i 0).val < win3_11.index t 0 * 5000 + 5000
    rw [hi.1, ht]; omega
  | ⟨1, _⟩ =>
    show win3_11.index t 1 * 64 ≤ (i 1).val ∧ (i 1).val < win3_11.index t 1 * 64 + 64
    rw [hi.2]; omega

/-- After the last grid point the output array holds, at (r, o): the hidden row r normalised by the mean and variance
    arrays the call is GIVEN, scaled, shifted, cut at zero, and sent through the second linear map. -/
theorem final (c : Dev nD) (r : Fin 50000) (o : Fin 64) :
    ((dat3 (F := Ideal) V c).arrAt 11 cfg3.N : S50000x64.Idx → EReal) (ix2 r o)
      = Spec.lin (Spec.act (hrows V c) (Spec.row1 (V c main_v36 : S1x128.Idx → EReal)) (Spec.row1 (V c main_v40 : S1x128.Idx → EReal))
          (Spec.row1 (V c main_v31 : S1x128.Idx → EReal)) (Spec.row1 (V c main_v32 : S1x128.Idx → EReal))
          (Ideal.ofBits .f32 0x3727C5AC#32) (Ideal.ofBits .f32 0x00000000#32))
        (Spec.cur2 (V c main_arg15 : S128x64.Idx → EReal)) (Spec.row1 (V c main_v33 : S1x64.Idx → EReal)) r o := by
  exact congrFun ((dat3 (F := Ideal) V c).arrAt_eq_of_cover 11 (G V c) (fun t _ => flushed_eq V c t) (cover)) (ix2 r o)

end Cert.KernelIdeal.R3

end
-- ==== Proof.KernelValue.lean ====
/-
  What the idealized kernel program leaves in its result array, as ONE function of the argument arrays: the fold through
  @main's eight segments read back. The last call's output is layer 2's normalise-and-project of the node rows and the
  scatter-summed rows, at the mean and variance the host stretch before it formed from call 2's two column sums; the
  scatter-sum reads call 1's output, which is layer 1's normalise-and-project of the gathered rows and the edge rows at
  the mean and variance formed from call 0's two column sums. Every array a call reads is walked back through the
  boundaries to the host operation or the call that wrote it, or to the launch memory.
-/
import proofs.«151635_j7464653160946_1_alg».proof.Proof.Gen.KernelIdeal.Frame
import proofs.«151635_j7464653160946_1_alg».proof.Proof.Spec
import proofs.«151635_j7464653160946_1_alg».proof.Proof.Curry
import proofs.«151635_j7464653160946_1_alg».proof.Proof.Top
import proofs.«151635_j7464653160946_1_alg».proof.Proof.Region0
import proofs.«151635_j7464653160946_1_alg».proof.Proof.Region1
import proofs.«151635_j7464653160946_1_alg».proof.Proof.Region2
import proofs.«151635_j7464653160946_1_alg».proof.Proof.Region3
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable (m : (ℓ : Loc nD τ sig) → Buf (Elt Ideal) ℓ) (ρ : Dev nD → PrngReg)

/-- The row indices the gather reads: the first row of the edge index array, negative entries wrapped by the number of
    nodes, as a column. -/
def rowIdx (ei : IVec S2x800000 32) : IVec S800000x1 32 :=
  broadcastInDim S800000x1 ![0] bcast_S800000_S800000x1_0
    (select
      (cmpi .slt (shapeCast S800000 (extractStridedSlice S1x800000 ![0, 0] ei slices_S2x800000_S1x800000_0_0) shapeCasts_S1x800000_S800000)
        (broadcastInDim S800000 ![] bcast_S_S800000 (constantI S_ 32 0#32)))
      (addi (shapeCast S800000 (extractStridedSlice S1x800000 ![0, 0] ei slices_S2x800000_S1x800000_0_0) shapeCasts_S1x800000_S800000)
        (broadcastInDim S800000 ![] bcast_S_S800000 (constantI S_ 32 50000#32)))
      (shapeCast S800000 (extractStridedSlice S1x800000 ![0, 0] ei slices_S2x800000_S1x800000_0_0) shapeCasts_S1x800000_S800000))

/-- The column indices the scatter-sum adds at: the second row of the edge index array, as a column. -/
def colIdx (ei : IVec S2x800000 32) : IVec S800000x1 32 :=
  broadcastInDim S800000x1 ![0] bcast_S800000_S800000x1_0
    (shapeCast S800000 (extractStridedSlice S1x800000 ![1, 0] ei slices_S2x800000_S1x800000_1_0) shapeCasts_S1x800000_S800000)

/-- The gathered node rows. -/
def xg (x : FVec Ideal S50000x64 .f32) (ei : IVec S2x800000 32) : Fin 800000 → Fin 64 → EReal :=
  Spec.cur2 (Host.gather gather_S50000x64_S800000x1_S800000x64_1_0_n_n_0_1_164 x (rowIdx ei) : S800000x64.Idx → EReal)

/-- The scatter-sum of per-edge rows into per-node rows, from the zero array. -/
def scat (ei : IVec S2x800000 32) (f : Fin 800000 → Fin 128 → EReal) : Fin 50000 → Fin 128 → EReal :=
  Spec.cur2 (Host.scatterAdd scatter_S50000x128_S800000x1_S800000x128_1_0_0_1
    (broadcastInDim S50000x128 ![] bcast_S_S50000x128 (constant S_ .f32 0x00000000#32) : FVec Ideal S50000x128 .f32)
    (colIdx ei) (Spec.unc2 f : FVec Ideal S800000x128 .f32) : S50000x128.Idx → EReal)

/-! ## What each host stretch writes, and what it therefore leaves alone -/

/-- The arrays the first host stretch writes. -/
abbrev wr0 : List (Ref sig .tc) :=
  [main_v0, main_v1, main_v2, main_v3, main_c, main_v4, main_v5, main_c_0, main_v6, main_v7, main_v8, main_v9, main_v10,
   main_v11, main_v12, main_v13, main_v14, main_v15, main_v16]
/-- The arrays the second host stretch writes. -/
abbrev wr1 : List (Ref sig .tc) :=
  [main_cst, main_v18, main_v19, main_cst_1, main_v20, main_v21, main_v22, main_v23]
/-- The arrays the third host stretch writes. -/
abbrev wr2 : List (Ref sig .tc) :=
  [main_cst_2, main_v25, main_v26, main_v27, main_v28, main_v29, main_v30, main_v31, main_v32, main_v33]
/-- The arrays the fourth host stretch writes. -/
abbrev wr3 : List (Ref sig .tc) :=
  [main_cst_3, main_v35, main_v36, main_cst_4, main_v37, main_v38, main_v39, main_v40]

theorem wr0_sub : (hostOps0 (F := Ideal)).Forall fun op => op.writes ⊆ (wr0.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem wr1_sub : (hostOps1 (F := Ideal)).Forall fun op => op.writes ⊆ (wr1.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem wr2_sub : (hostOps2 (F := Ideal)).Forall fun op => op.writes ⊆ (wr2.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem wr3_sub : (hostOps3 (F := Ideal)).Forall fun op => op.writes ⊆ (wr3.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- An array the first host stretch does not write is as launched at the first call's entry. -/
theorem W1_keep (c : Dev nD) (r : Ref sig .tc) (h : r ∉ wr0) :
    W1 m ρ c (Proc.devRef .tc r) = m ((c : Thread nD τ).loc r) :=
  StableHlo.after_of_writes_sub hostOps0 _ wr0_sub h
/-- An array the first call does not write (it is an input window's, or no window's) leaves the call as it entered. -/
theorem W2_keep (c : Dev nD) (r : Ref sig .tc) (h : r ∉ ([main_v17_0, main_v17_1] : List (Ref sig .tc))) :
    W2 m ρ c (Proc.devRef .tc r) = W1 m ρ c (Proc.devRef .tc r) := by
  by_cases hw : ∃ w, Pipeline.arrRef spec0 w = r
  · obtain ⟨w, rfl⟩ := hw
    have hin : (cfg0.win w).isOut = false :=
      (by decide : ∀ w : Fin cfg0.W, Pipeline.arrRef spec0 w ∉ ([main_v17_0, main_v17_1] : List (Ref sig .tc)) →
        (cfg0.win w).isOut = false) w h
    exact (W2_arr m ρ c w).trans (((dat0 (V1 m ρ) c).arrAt_in w hin _).trans (A_eq0 (V1 m ρ) c w))
  · exact W2_of_ne m ρ c r fun w e => hw ⟨w, e⟩
/-- An array the second host stretch does not write is unchanged by it. -/
theorem W3_keep (c : Dev nD) (r : Ref sig .tc) (h : r ∉ wr1) :
    W3 m ρ c (Proc.devRef .tc r) = W2 m ρ c (Proc.devRef .tc r) :=
  StableHlo.after_of_writes_sub hostOps1 _ wr1_sub h
/-- An array the second call does not write leaves the call as it entered. -/
theorem W4_keep (c : Dev nD) (r : Ref sig .tc) (h : r ∉ ([main_v24] : List (Ref sig .tc))) :
    W4 m ρ c (Proc.devRef .tc r) = W3 m ρ c (Proc.devRef .tc r) := by
  by_cases hw : ∃ w, Pipeline.arrRef spec1 w = r
  · obtain ⟨w, rfl⟩ := hw
    have hin : (cfg1.win w).isOut = false :=
      (by decide : ∀ w : Fin cfg1.W, Pipeline.arrRef spec1 w ∉ ([main_v24] : List (Ref sig .tc)) →
        (cfg1.win w).isOut = false) w h
    exact (W4_arr m ρ c w).trans (((dat1 (V3 m ρ) c).arrAt_in w hin _).trans (A_eq1 (V3 m ρ) c w))
  · exact W4_of_ne m ρ c r fun w e => hw ⟨w, e⟩
/-- An array the third host stretch does not write is unchanged by it. -/
theorem W5_keep (c : Dev nD) (r : Ref sig .tc) (h : r ∉ wr2) :
    W5 m ρ c (Proc.devRef .tc r) = W4 m ρ c (Proc.devRef .tc r) :=
  StableHlo.after_of_writes_sub hostOps2 _ wr2_sub h
/-- An array the third call does not write leaves the call as it entered. -/
theorem W6_keep (c : Dev nD) (r : Ref sig .tc) (h : r ∉ ([main_v34_0, main_v34_1] : List (Ref sig .tc))) :
    W6 m ρ c (Proc.devRef .tc r) = W5 m ρ c (Proc.devRef .tc r) := by
  by_cases hw : ∃ w, Pipeline.arrRef spec2 w = r
  · obtain ⟨w, rfl⟩ := hw
    have hin : (cfg2.win w).isOut = false :=
      (by decide : ∀ w : Fin cfg2.W, Pipeline.arrRef spec2 w ∉ ([main_v34_0, main_v34_1] : List (Ref sig .tc)) →
        (cfg2.win w).isOut = false) w h
    exact (W6_arr m ρ c w).trans (((dat2 (V5 m ρ) c).arrAt_in w hin _).trans (A_eq2 (V5 m ρ) c w))
  · exact W6_of_ne m ρ c r fun w e => hw ⟨w, e⟩
/-- An array the fourth host stretch does not write is unchanged by it. -/
theorem W7_keep (c : Dev nD) (r : Ref sig .tc) (h : r ∉ wr3) :
    W7 m ρ c (Proc.devRef .tc r) = W6 m ρ c (Proc.devRef .tc r) :=
  StableHlo.after_of_writes_sub hostOps3 _ wr3_sub h

/-! ## What the first host stretch leaves in the arrays the first two calls read -/

/-- The gathered node rows. -/
theorem W1_v10 (c : Dev nD) :
    (W1 m ρ c (Proc.devRef .tc main_v10) : FVec Ideal S800000x64 .f32)
      = Host.gather gather_S50000x64_S800000x1_S800000x64_1_0_n_n_0_1_164 (m ((c : Thread nD τ).loc main_arg0))
          (rowIdx (m ((c : Thread nD τ).loc main_arg1))) := by
  unfold rowIdx
  show StableHlo.after hostOps0 _ (Proc.devRef .tc main_v10) = _
  after_results
  all_goals rfl
/-- The top rows of layer 1's first weights. -/
theorem W1_v11 (c : Dev nD) :
    (W1 m ρ c (Proc.devRef .tc main_v11) : FVec Ideal S64x128 .f32)
      = extractStridedSlice S64x128 ![0, 0] (m ((c : Thread nD τ).loc main_arg5)) slices_S128x128_S64x128_0_0 := by
  show StableHlo.after hostOps0 _ (Proc.devRef .tc main_v11) = _
  after_results
  all_goals rfl
/-- The bottom rows of layer 1's first weights. -/
theorem W1_v12 (c : Dev nD) :
    (W1 m ρ c (Proc.devRef .tc main_v12) : FVec Ideal S64x128 .f32)
      = extractStridedSlice S64x128 ![64, 0] (m ((c : Thread nD τ).loc main_arg5)) slices_S128x128_S64x128_64_0 := by
  show StableHlo.after hostOps0 _ (Proc.devRef .tc main_v12) = _
  after_results
  all_goals rfl
/-- Layer 1's first bias as a row. -/
theorem W1_v13 (c : Dev nD) :
    (W1 m ρ c (Proc.devRef .tc main_v13) : FVec Ideal S1x128 .f32)
      = shapeCast S1x128 (m ((c : Thread nD τ).loc main_arg6)) shapeCasts_S128_S1x128 := by
  show StableHlo.after hostOps0 _ (Proc.devRef .tc main_v13) = _
  after_results
  all_goals rfl
/-- Layer 1's scale as a row. -/
theorem W1_v14 (c : Dev nD) :
    (W1 m ρ c (Proc.devRef .tc main_v14) : FVec Ideal S1x128 .f32)
      = shapeCast S1x128 (m ((c : Thread nD τ).loc main_arg7)) shapeCasts_S128_S1x128 := by
  show StableHlo.after hostOps0 _ (Proc.devRef .tc main_v14) = _
  after_results
  all_goals rfl
/-- Layer 1's shift as a row. -/
theorem W1_v15 (c : Dev nD) :
    (W1 m ρ c (Proc.devRef .tc main_v15) : FVec Ideal S1x128 .f32)
      = shapeCast S1x128 (m ((c : Thread nD τ).loc main_arg8)) shapeCasts_S128_S1x128 := by
  show StableHlo.after hostOps0 _ (Proc.devRef .tc main_v15) = _
  after_results
  all_goals rfl
/-- Layer 1's second bias as a row. -/
theorem W1_v16 (c : Dev nD) :
    (W1 m ρ c (Proc.devRef .tc main_v16) : FVec Ideal S1x128 .f32)
      = shapeCast S1x128 (m ((c : Thread nD τ).loc main_arg10)) shapeCasts_S128_S1x128 := by
  show StableHlo.after hostOps0 _ (Proc.devRef .tc main_v16) = _
  after_results
  all_goals rfl
/-- The second row of the edge index array as a vector. -/
theorem W1_v3 (c : Dev nD) :
    (W1 m ρ c (Proc.devRef .tc main_v3) : IVec S800000 32)
      = shapeCast S800000 (extractStridedSlice S1x800000 ![1, 0] (m ((c : Thread nD τ).loc main_arg1)) slices_S2x800000_S1x800000_1_0)
          shapeCasts_S1x800000_S800000 := by
  show StableHlo.after hostOps0 _ (Proc.devRef .tc main_v3) = _
  after_results
  all_goals rfl

/-! ## What the later host stretches compute, over any contents they start from -/

/-- The mean array: the column sums over the number of rows. -/
theorem host1_v19 (V : Valuation τ sig (Elt Ideal)) :
    (StableHlo.after hostOps1 V (Proc.devRef .tc main_v19) : FVec Ideal S1x128 .f32)
      = Host.divf (V (Proc.devRef .tc main_v17_0) : FVec Ideal S1x128 .f32)
          (broadcastInDim S1x128 ![] bcast_S_S1x128 (constant (F := Ideal) S_ .f32 0x49435000#32)) := by
  after_results
  all_goals rfl
/-- The variance array: the sums of squares over the number of rows, less the square of the mean. -/
theorem host1_v23 (V : Valuation τ sig (Elt Ideal)) :
    (StableHlo.after hostOps1 V (Proc.devRef .tc main_v23) : FVec Ideal S1x128 .f32)
      = subf (Host.divf (V (Proc.devRef .tc main_v17_1) : FVec Ideal S1x128 .f32)
            (broadcastInDim S1x128 ![] bcast_S_S1x128 (constant (F := Ideal) S_ .f32 0x49435000#32)))
          (mulf (Host.divf (V (Proc.devRef .tc main_v17_0) : FVec Ideal S1x128 .f32)
              (broadcastInDim S1x128 ![] bcast_S_S1x128 (constant (F := Ideal) S_ .f32 0x49435000#32)))
            (Host.divf (V (Proc.devRef .tc main_v17_0) : FVec Ideal S1x128 .f32)
              (broadcastInDim S1x128 ![] bcast_S_S1x128 (constant (F := Ideal) S_ .f32 0x49435000#32)))) := by
  after_results
  all_goals rfl
/-- The scatter-sum of the per-edge rows into per-node rows, from the zero array. -/
theorem host2_v27 (V : Valuation τ sig (Elt Ideal)) :
    (StableHlo.after hostOps2 V (Proc.devRef .tc main_v27) : FVec Ideal S50000x128 .f32)
      = Host.scatterAdd scatter_S50000x128_S800000x1_S800000x128_1_0_0_1
          (broadcastInDim S50000x128 ![] bcast_S_S50000x128 (constant (F := Ideal) S_ .f32 0x00000000#32))
          (broadcastInDim S800000x1 ![0] bcast_S800000_S800000x1_0 (V (Proc.devRef .tc main_v3) : IVec S800000 32))
          (V (Proc.devRef .tc main_v24) : FVec Ideal S800000x128 .f32) := by
  after_results
  all_goals rfl
/-- The top rows of layer 2's first weights. -/
theorem host2_v28 (V : Valuation τ sig (Elt Ideal)) :
    (StableHlo.after hostOps2 V (Proc.devRef .tc main_v28) : FVec Ideal S64x128 .f32)
      = extractStridedSlice S64x128 ![0, 0] (V (Proc.devRef .tc main_arg11) : FVec Ideal S192x128 .f32) slices_S192x128_S64x128_0_0 := by
  after_results
  all_goals rfl
/-- The bottom rows of layer 2's first weights. -/
theorem host2_v29 (V : Valuation τ sig (Elt Ideal)) :
    (StableHlo.after hostOps2 V (Proc.devRef .tc main_v29) : FVec Ideal S128x128 .f32)
      = extractStridedSlice S128x128 ![64, 0] (V (Proc.devRef .tc main_arg11) : FVec Ideal S192x128 .f32) slices_S192x128_S128x128_64_0 := by
  after_results
  all_goals rfl
/-- Layer 2's first bias as a row. -/
theorem host2_v30 (V : Valuation τ sig (Elt Ideal)) :
    (StableHlo.after hostOps2 V (Proc.devRef .tc main_v30) : FVec Ideal S1x128 .f32)
      = shapeCast S1x128 (V (Proc.devRef .tc main_arg12) : FVec Ideal S128 .f32) shapeCasts_S128_S1x128 := by
  after_results
  all_goals rfl
/-- Layer 2's scale as a row. -/
theorem host2_v31 (V : Valuation τ sig (Elt Ideal)) :
    (StableHlo.after hostOps2 V (Proc.devRef .tc main_v31) : FVec Ideal S1x128 .f32)
      = shapeCast S1x128 (V (Proc.devRef .tc main_arg13) : FVec Ideal S128 .f32) shapeCasts_S128_S1x128 := by
  after_results
  all_goals rfl
/-- Layer 2's shift as a row. -/
theorem host2_v32 (V : Valuation τ sig (Elt Ideal)) :
    (StableHlo.after hostOps2 V (Proc.devRef .tc main_v32) : FVec Ideal S1x128 .f32)
      = shapeCast S1x128 (V (Proc.devRef .tc main_arg14) : FVec Ideal S128 .f32) shapeCasts_S128_S1x128 := by
  after_results
  all_goals rfl
/-- Layer 2's second bias as a row. -/
theorem host2_v33 (V : Valuation τ sig (Elt Ideal)) :
    (StableHlo.after hostOps2 V (Proc.devRef .tc main_v33) : FVec Ideal S1x64 .f32)
      = shapeCast S1x64 (V (Proc.devRef .tc main_arg16) : FVec Ideal S64 .f32) shapeCasts_S64_S1x64 := by
  after_results
  all_goals rfl
/-- Layer 2's mean array. -/
theorem host3_v36 (V : Valuation τ sig (Elt Ideal)) :
    (StableHlo.after hostOps3 V (Proc.devRef .tc main_v36) : FVec Ideal S1x128 .f32)
      = Host.divf (V (Proc.devRef .tc main_v34_0) : FVec Ideal S1x128 .f32)
          (broadcastInDim S1x128 ![] bcast_S_S1x128 (constant (F := Ideal) S_ .f32 0x47435000#32)) := by
  after_results
  all_goals rfl
/-- Layer 2's variance array. -/
theorem host3_v40 (V : Valuation τ sig (Elt Ideal)) :
    (StableHlo.after hostOps3 V (Proc.devRef .tc main_v40) : FVec Ideal S1x128 .f32)
      = subf (Host.divf (V (Proc.devRef .tc main_v34_1) : FVec Ideal S1x128 .f32)
            (broadcastInDim S1x128 ![] bcast_S_S1x128 (constant (F := Ideal) S_ .f32 0x47435000#32)))
          (mulf (Host.divf (V (Proc.devRef .tc main_v34_0) : FVec Ideal S1x128 .f32)
              (broadcastInDim S1x128 ![] bcast_S_S1x128 (constant (F := Ideal) S_ .f32 0x47435000#32)))
            (Host.divf (V (Proc.devRef .tc main_v34_0) : FVec Ideal S1x128 .f32)
              (broadcastInDim S1x128 ![] bcast_S_S1x128 (constant (F := Ideal) S_ .f32 0x47435000#32)))) := by
  after_results
  all_goals rfl

/-! ## The host operations read at an index -/

/-- The top 64 rows of a 128-row matrix. -/
theorem top_128 (X : FVec Ideal S128x128 .f32) :
    Spec.cur2 (extractStridedSlice S64x128 ![0, 0] X slices_S128x128_S64x128_0_0 : S64x128.Idx → EReal)
      = fun k => Spec.cur2 (X : S128x128.Idx → EReal) (Fin.castAdd 64 k) := by
  funext k j
  exact slice2_axis0_apply 0 X slices_S128x128_S64x128_0_0 k j (Fin.castAdd 64 k) (by rw [Fin.coe_castAdd, Nat.zero_add])
/-- The bottom 64 rows of a 128-row matrix. -/
theorem bot_128 (X : FVec Ideal S128x128 .f32) :
    Spec.cur2 (extractStridedSlice S64x128 ![64, 0] X slices_S128x128_S64x128_64_0 : S64x128.Idx → EReal)
      = fun k => Spec.cur2 (X : S128x128.Idx → EReal) (Fin.natAdd 64 k) := by
  funext k j
  exact slice2_axis0_apply 64 X slices_S128x128_S64x128_64_0 k j (Fin.natAdd 64 k) (Fin.coe_natAdd 64 k)
/-- The top 64 rows of a 192-row matrix. -/
theorem top_192 (X : FVec Ideal S192x128 .f32) :
    Spec.cur2 (extractStridedSlice S64x128 ![0, 0] X slices_S192x128_S64x128_0_0 : S64x128.Idx → EReal)
      = fun k => Spec.cur2 (X : S192x128.Idx → EReal) (Fin.castAdd 128 k) := by
  funext k j
  exact slice2_axis0_apply 0 X slices_S192x128_S64x128_0_0 k j (Fin.castAdd 128 k) (by rw [Fin.coe_castAdd, Nat.zero_add])
/-- The bottom 128 rows of a 192-row matrix. -/
theorem bot_192 (X : FVec Ideal S192x128 .f32) :
    Spec.cur2 (extractStridedSlice S128x128 ![64, 0] X slices_S192x128_S128x128_64_0 : S128x128.Idx → EReal)
      = fun k => Spec.cur2 (X : S192x128.Idx → EReal) (Fin.natAdd 64 k) := by
  funext k j
  exact slice2_axis0_apply 64 X slices_S192x128_S128x128_64_0 k j (Fin.natAdd 64 k) (Fin.coe_natAdd 64 k)
/-- A vector of 128 entries as a one-row matrix. -/
theorem row_128 (x : FVec Ideal S128 .f32) :
    Spec.row1 (shapeCast S1x128 x shapeCasts_S128_S1x128 : S1x128.Idx → EReal) = Spec.cur1 (x : S128.Idx → EReal) := by
  funext j
  exact shapeCast_a_1a_apply x shapeCasts_S128_S1x128 0 j
/-- A vector of 64 entries as a one-row matrix. -/
theorem row_64 (x : FVec Ideal S64 .f32) :
    Spec.row1 (shapeCast S1x64 x shapeCasts_S64_S1x64 : S1x64.Idx → EReal) = Spec.cur1 (x : S64.Idx → EReal) := by
  funext j
  exact shapeCast_a_1a_apply x shapeCasts_S64_S1x64 0 j
/-- A row of sums over a constant is the mean of the sums. -/
theorem row_mean (s : FVec Ideal S1x128 .f32) (w : BitVec 32) :
    Spec.row1 (Host.divf s (broadcastInDim S1x128 ![] bcast_S_S1x128 (constant (F := Ideal) S_ .f32 w)) : S1x128.Idx → EReal)
      = Spec.meanK (Ideal.ofBits .f32 w) (Spec.row1 (s : S1x128.Idx → EReal)) := by
  funext j
  rfl
/-- A row of sums of squares over a constant, less the square of the mean, is the variance of the sums. -/
theorem row_var (s q : FVec Ideal S1x128 .f32) (w : BitVec 32) :
    Spec.row1 (subf (Host.divf q (broadcastInDim S1x128 ![] bcast_S_S1x128 (constant (F := Ideal) S_ .f32 w)))
        (mulf (Host.divf s (broadcastInDim S1x128 ![] bcast_S_S1x128 (constant (F := Ideal) S_ .f32 w)))
          (Host.divf s (broadcastInDim S1x128 ![] bcast_S_S1x128 (constant (F := Ideal) S_ .f32 w)))) : S1x128.Idx → EReal)
      = Spec.varK (Ideal.ofBits .f32 w) (Spec.row1 (s : S1x128.Idx → EReal)) (Spec.row1 (q : S1x128.Idx → EReal)) := by
  funext j
  rfl

/-! ## Arrays carried across several boundaries -/

/-- From the second call's entry back to the first call's entry. -/
theorem V3_V1 (c : Dev nD) (r : Ref sig .tc) (h1 : r ∉ wr1) (h0 : r ∉ ([main_v17_0, main_v17_1] : List (Ref sig .tc))) :
    V3 m ρ c r = V1 m ρ c r :=
  (W3_keep m ρ c r h1).trans (W2_keep m ρ c r h0)
/-- From the second call's exit back to the first call's entry. -/
theorem W4_W1 (c : Dev nD) (r : Ref sig .tc) (h4 : r ∉ ([main_v24] : List (Ref sig .tc))) (h1 : r ∉ wr1)
    (h0 : r ∉ ([main_v17_0, main_v17_1] : List (Ref sig .tc))) :
    W4 m ρ c (Proc.devRef .tc r) = W1 m ρ c (Proc.devRef .tc r) :=
  (W4_keep m ρ c r h4).trans ((W3_keep m ρ c r h1).trans (W2_keep m ρ c r h0))
/-- From the fourth call's entry back to the third call's entry. -/
theorem V7_V5 (c : Dev nD) (r : Ref sig .tc) (h3 : r ∉ wr3) (h2 : r ∉ ([main_v34_0, main_v34_1] : List (Ref sig .tc))) :
    V7 m ρ c r = V5 m ρ c r :=
  (W7_keep m ρ c r h3).trans (W6_keep m ρ c r h2)
/-- An argument the first two calls and the host stretches around them do not write is as launched after the second call. -/
theorem W4_arg (c : Dev nD) (r : Ref sig .tc) (h4 : r ∉ ([main_v24] : List (Ref sig .tc))) (h1 : r ∉ wr1)
    (h0 : r ∉ ([main_v17_0, main_v17_1] : List (Ref sig .tc))) (hh : r ∉ wr0) :
    W4 m ρ c (Proc.devRef .tc r) = m ((c : Thread nD τ).loc r) :=
  (W4_W1 m ρ c r h4 h1 h0).trans (W1_keep m ρ c r hh)

/-! ## Layer 1 -/

/-- Layer 1's hidden rows, of the arguments. -/
def hid1 (c : Dev nD) : Fin 800000 → Fin 128 → EReal :=
  Spec.hid (xg (m ((c : Thread nD τ).loc main_arg0)) (m ((c : Thread nD τ).loc main_arg1))) (Spec.cur2 ((m ((c : Thread nD τ).loc main_arg2)) : S800000x64.Idx → EReal))
    (fun k => Spec.cur2 ((m ((c : Thread nD τ).loc main_arg5)) : S128x128.Idx → EReal) (Fin.castAdd 64 k))
    (fun k => Spec.cur2 ((m ((c : Thread nD τ).loc main_arg5)) : S128x128.Idx → EReal) (Fin.natAdd 64 k))
    (Spec.cur1 ((m ((c : Thread nD τ).loc main_arg6)) : S128.Idx → EReal))
/-- Layer 1's output rows, of the arguments. -/
def out1 (c : Dev nD) : Fin 800000 → Fin 128 → EReal :=
  Spec.layerK (Ideal.ofBits .f32 0x49435000#32) (Ideal.ofBits .f32 0x3727C5AC#32) (Ideal.ofBits .f32 0x00000000#32) (xg (m ((c : Thread nD τ).loc main_arg0)) (m ((c : Thread nD τ).loc main_arg1))) (Spec.cur2 ((m ((c : Thread nD τ).loc main_arg2)) : S800000x64.Idx → EReal))
    (fun k => Spec.cur2 ((m ((c : Thread nD τ).loc main_arg5)) : S128x128.Idx → EReal) (Fin.castAdd 64 k))
    (fun k => Spec.cur2 ((m ((c : Thread nD τ).loc main_arg5)) : S128x128.Idx → EReal) (Fin.natAdd 64 k))
    (Spec.cur1 ((m ((c : Thread nD τ).loc main_arg6)) : S128.Idx → EReal)) (Spec.cur1 ((m ((c : Thread nD τ).loc main_arg7)) : S128.Idx → EReal)) (Spec.cur1 ((m ((c : Thread nD τ).loc main_arg8)) : S128.Idx → EReal)) (Spec.cur2 ((m ((c : Thread nD τ).loc main_arg9)) : S128x128.Idx → EReal)) (Spec.cur1 ((m ((c : Thread nD τ).loc main_arg10)) : S128.Idx → EReal))

/-- The hidden rows the first call sums are layer 1's. -/
theorem hrows0_eq (c : Dev nD) : R0.hrows (V1 m ρ) c = hid1 m c := by
  unfold hid1 xg
  dsimp only [R0.hrows]
  rw [show (V1 m ρ c main_v10 : FVec Ideal S800000x64 .f32) = _ from W1_v10 m ρ c,
    show V1 m ρ c main_arg2 = _ from W1_keep m ρ c main_arg2 (by decide),
    show (V1 m ρ c main_v11 : FVec Ideal S64x128 .f32) = _ from W1_v11 m ρ c,
    show (V1 m ρ c main_v12 : FVec Ideal S64x128 .f32) = _ from W1_v12 m ρ c,
    show (V1 m ρ c main_v13 : FVec Ideal S1x128 .f32) = _ from W1_v13 m ρ c,
    top_128, bot_128, row_128]
/-- The hidden rows the second call recomputes are layer 1's. -/
theorem hrows1_eq (c : Dev nD) : R1.hrows (V3 m ρ) c = hid1 m c := by
  rw [← hrows0_eq m ρ c]
  dsimp only [R1.hrows, R0.hrows]
  rw [V3_V1 m ρ c main_v10 (by decide) (by decide), V3_V1 m ρ c main_arg2 (by decide) (by decide),
    V3_V1 m ρ c main_v11 (by decide) (by decide), V3_V1 m ρ c main_v12 (by decide) (by decide),
    V3_V1 m ρ c main_v13 (by decide) (by decide)]
/-- The first call's first output: layer 1's column sums. -/
theorem sum1 (c : Dev nD) :
    Spec.row1 (W2 m ρ c (Proc.devRef .tc main_v17_0) : S1x128.Idx → EReal) = Spec.colSum (hid1 m c) := by
  funext j
  rw [← hrows0_eq m ρ c, ← R0.final_sum (V1 m ρ) c j]
  exact congrFun (W2_arr m ρ c 5) (ix2 (0 : Fin 1) j)
/-- The first call's second output: layer 1's column sums of squares. -/
theorem sumsq1 (c : Dev nD) :
    Spec.row1 (W2 m ρ c (Proc.devRef .tc main_v17_1) : S1x128.Idx → EReal) = Spec.colSumSq (hid1 m c) := by
  funext j
  rw [← hrows0_eq m ρ c, ← R0.final_sumsq (V1 m ρ) c j]
  exact congrFun (W2_arr m ρ c 6) (ix2 (0 : Fin 1) j)
/-- The mean the second call is given. -/
theorem mean1 (c : Dev nD) :
    Spec.row1 (V3 m ρ c main_v19 : S1x128.Idx → EReal) = Spec.meanK (Ideal.ofBits .f32 0x49435000#32) (Spec.colSum (hid1 m c)) := by
  show Spec.row1 (StableHlo.after hostOps1 (W2 m ρ c) (Proc.devRef .tc main_v19) : S1x128.Idx → EReal) = _
  rw [host1_v19, row_mean, sum1]
/-- The variance the second call is given. -/
theorem var1 (c : Dev nD) :
    Spec.row1 (V3 m ρ c main_v23 : S1x128.Idx → EReal)
      = Spec.varK (Ideal.ofBits .f32 0x49435000#32) (Spec.colSum (hid1 m c)) (Spec.colSumSq (hid1 m c)) := by
  show Spec.row1 (StableHlo.after hostOps1 (W2 m ρ c) (Proc.devRef .tc main_v23) : S1x128.Idx → EReal) = _
  rw [host1_v23, row_var, sum1, sumsq1]
/-- The scale the second call is given. -/
theorem scale1 (c : Dev nD) : Spec.row1 (V3 m ρ c main_v14 : S1x128.Idx → EReal) = (Spec.cur1 ((m ((c : Thread nD τ).loc main_arg7)) : S128.Idx → EReal)) := by
  rw [V3_V1 m ρ c main_v14 (by decide) (by decide), show (V1 m ρ c main_v14 : FVec Ideal S1x128 .f32) = _ from W1_v14 m ρ c, row_128]
/-- The shift the second call is given. -/
theorem shift1 (c : Dev nD) : Spec.row1 (V3 m ρ c main_v15 : S1x128.Idx → EReal) = (Spec.cur1 ((m ((c : Thread nD τ).loc main_arg8)) : S128.Idx → EReal)) := by
  rw [V3_V1 m ρ c main_v15 (by decide) (by decide), show (V1 m ρ c main_v15 : FVec Ideal S1x128 .f32) = _ from W1_v15 m ρ c, row_128]
/-- The second bias the second call is given. -/
theorem bias1 (c : Dev nD) : Spec.row1 (V3 m ρ c main_v16 : S1x128.Idx → EReal) = (Spec.cur1 ((m ((c : Thread nD τ).loc main_arg10)) : S128.Idx → EReal)) := by
  rw [V3_V1 m ρ c main_v16 (by decide) (by decide), show (V1 m ρ c main_v16 : FVec Ideal S1x128 .f32) = _ from W1_v16 m ρ c, row_128]
/-- The second weights the second call is given. -/
theorem weight1 (c : Dev nD) : V3 m ρ c main_arg9 = m ((c : Thread nD τ).loc main_arg9) :=
  (V3_V1 m ρ c main_arg9 (by decide) (by decide)).trans (W1_keep m ρ c main_arg9 (by decide))
/-- The second call's output: layer 1's output rows. -/
theorem out1_eq (c : Dev nD) :
    (W4 m ρ c (Proc.devRef .tc main_v24) : FVec Ideal S800000x128 .f32) = Spec.unc2 (out1 m c) := by
  refine (W4_arr m ρ c 11).trans (Spec.eq_unc2 _ _ fun r o => ?_)
  rw [R1.final (V3 m ρ) c r o, hrows1_eq, mean1, var1, scale1, shift1, bias1, weight1]
  unfold out1 Spec.layerK hid1
  rfl

/-! ## Layer 2 -/

/-- Layer 2's hidden rows, of the arguments. -/
def hid2 (c : Dev nD) : Fin 50000 → Fin 128 → EReal :=
  Spec.hid (Spec.cur2 ((m ((c : Thread nD τ).loc main_arg0)) : S50000x64.Idx → EReal)) (scat (m ((c : Thread nD τ).loc main_arg1)) (out1 m c))
    (fun k => Spec.cur2 ((m ((c : Thread nD τ).loc main_arg11)) : S192x128.Idx → EReal) (Fin.castAdd 128 k))
    (fun k => Spec.cur2 ((m ((c : Thread nD τ).loc main_arg11)) : S192x128.Idx → EReal) (Fin.natAdd 64 k))
    (Spec.cur1 ((m ((c : Thread nD τ).loc main_arg12)) : S128.Idx → EReal))

/-- The second row of the edge index array, as the third host stretch finds it. -/
theorem W4_v3 (c : Dev nD) :
    (W4 m ρ c (Proc.devRef .tc main_v3) : IVec S800000 32)
      = shapeCast S800000 (extractStridedSlice S1x800000 ![1, 0] (m ((c : Thread nD τ).loc main_arg1)) slices_S2x800000_S1x800000_1_0)
          shapeCasts_S1x800000_S800000 :=
  (W4_W1 m ρ c main_v3 (by decide) (by decide) (by decide)).trans (W1_v3 m ρ c)
/-- The scatter-summed rows the third call reads. -/
theorem scat_eq (c : Dev nD) :
    Spec.cur2 (V5 m ρ c main_v27 : S50000x128.Idx → EReal) = scat (m ((c : Thread nD τ).loc main_arg1)) (out1 m c) := by
  show Spec.cur2 (StableHlo.after hostOps2 (W4 m ρ c) (Proc.devRef .tc main_v27) : S50000x128.Idx → EReal) = _
  rw [host2_v27, W4_v3, out1_eq]
  rfl
/-- The top rows of layer 2's first weights, as the third call reads them. -/
theorem wtop2 (c : Dev nD) :
    Spec.cur2 (V5 m ρ c main_v28 : S64x128.Idx → EReal) = (fun k => Spec.cur2 ((m ((c : Thread nD τ).loc main_arg11)) : S192x128.Idx → EReal) (Fin.castAdd 128 k)) := by
  show Spec.cur2 (StableHlo.after hostOps2 (W4 m ρ c) (Proc.devRef .tc main_v28) : S64x128.Idx → EReal) = _
  rw [host2_v28, W4_arg m ρ c main_arg11 (by decide) (by decide) (by decide) (by decide), top_192]
/-- The bottom rows of layer 2's first weights, as the third call reads them. -/
theorem wbot2 (c : Dev nD) :
    Spec.cur2 (V5 m ρ c main_v29 : S128x128.Idx → EReal) = (fun k => Spec.cur2 ((m ((c : Thread nD τ).loc main_arg11)) : S192x128.Idx → EReal) (Fin.natAdd 64 k)) := by
  show Spec.cur2 (StableHlo.after hostOps2 (W4 m ρ c) (Proc.devRef .tc main_v29) : S128x128.Idx → EReal) = _
  rw [host2_v29, W4_arg m ρ c main_arg11 (by decide) (by decide) (by decide) (by decide), bot_192]
/-- Layer 2's first bias, as the third call reads it. -/
theorem hbias2 (c : Dev nD) : Spec.row1 (V5 m ρ c main_v30 : S1x128.Idx → EReal) = (Spec.cur1 ((m ((c : Thread nD τ).loc main_arg12)) : S128.Idx → EReal)) := by
  show Spec.row1 (StableHlo.after hostOps2 (W4 m ρ c) (Proc.devRef .tc main_v30) : S1x128.Idx → EReal) = _
  rw [host2_v30, W4_arg m ρ c main_arg12 (by decide) (by decide) (by decide) (by decide), row_128]
/-- Layer 2's scale, after the third host stretch. -/
theorem scale2 (c : Dev nD) : Spec.row1 (V5 m ρ c main_v31 : S1x128.Idx → EReal) = (Spec.cur1 ((m ((c : Thread nD τ).loc main_arg13)) : S128.Idx → EReal)) := by
  show Spec.row1 (StableHlo.after hostOps2 (W4 m ρ c) (Proc.devRef .tc main_v31) : S1x128.Idx → EReal) = _
  rw [host2_v31, W4_arg m ρ c main_arg13 (by decide) (by decide) (by decide) (by decide), row_128]
/-- Layer 2's shift, after the third host stretch. -/
theorem shift2 (c : Dev nD) : Spec.row1 (V5 m ρ c main_v32 : S1x128.Idx → EReal) = (Spec.cur1 ((m ((c : Thread nD τ).loc main_arg14)) : S128.Idx → EReal)) := by
  show Spec.row1 (StableHlo.after hostOps2 (W4 m ρ c) (Proc.devRef .tc main_v32) : S1x128.Idx → EReal) = _
  rw [host2_v32, W4_arg m ρ c main_arg14 (by decide) (by decide) (by decide) (by decide), row_128]
/-- Layer 2's second bias, after the third host stretch. -/
theorem bias2 (c : Dev nD) : Spec.row1 (V5 m ρ c main_v33 : S1x64.Idx → EReal) = (Spec.cur1 ((m ((c : Thread nD τ).loc main_arg16)) : S64.Idx → EReal)) := by
  show Spec.row1 (StableHlo.after hostOps2 (W4 m ρ c) (Proc.devRef .tc main_v33) : S1x64.Idx → EReal) = _
  rw [host2_v33, W4_arg m ρ c main_arg16 (by decide) (by decide) (by decide) (by decide), row_64]
/-- An argument no host stretch and none of the first two calls writes is as launched at the third call's entry. -/
theorem V5_arg (c : Dev nD) (r : Ref sig .tc) (h5 : r ∉ wr2) (h4 : r ∉ ([main_v24] : List (Ref sig .tc))) (h1 : r ∉ wr1)
    (h0 : r ∉ ([main_v17_0, main_v17_1] : List (Ref sig .tc))) (hh : r ∉ wr0) :
    V5 m ρ c r = m ((c : Thread nD τ).loc r) :=
  (W5_keep m ρ c r h5).trans (W4_arg m ρ c r h4 h1 h0 hh)
/-- The hidden rows the third call sums are layer 2's. -/
theorem hrows2_eq (c : Dev nD) : R2.hrows (V5 m ρ) c = hid2 m c := by
  unfold hid2
  dsimp only [R2.hrows]
  rw [V5_arg m ρ c main_arg0 (by decide) (by decide) (by decide) (by decide) (by decide), scat_eq, wtop2, wbot2, hbias2]
/-- The hidden rows the fourth call recomputes are layer 2's. -/
theorem hrows3_eq (c : Dev nD) : R3.hrows (V7 m ρ) c = hid2 m c := by
  rw [← hrows2_eq m ρ c]
  dsimp only [R3.hrows, R2.hrows]
  rw [V7_V5 m ρ c main_arg0 (by decide) (by decide), V7_V5 m ρ c main_v27 (by decide) (by decide),
    V7_V5 m ρ c main_v28 (by decide) (by decide), V7_V5 m ρ c main_v29 (by decide) (by decide),
    V7_V5 m ρ c main_v30 (by decide) (by decide)]
/-- The third call's first output: layer 2's column sums. -/
theorem sum2 (c : Dev nD) :
    Spec.row1 (W6 m ρ c (Proc.devRef .tc main_v34_0) : S1x128.Idx → EReal) = Spec.colSum (hid2 m c) := by
  funext j
  rw [← hrows2_eq m ρ c, ← R2.final_sum (V5 m ρ) c j]
  exact congrFun (W6_arr m ρ c 5) (ix2 (0 : Fin 1) j)
/-- The third call's second output: layer 2's column sums of squares. -/
theorem sumsq2 (c : Dev nD) :
    Spec.row1 (W6 m ρ c (Proc.devRef .tc main_v34_1) : S1x128.Idx → EReal) = Spec.colSumSq (hid2 m c) := by
  funext j
  rw [← hrows2_eq m ρ c, ← R2.final_sumsq (V5 m ρ) c j]
  exact congrFun (W6_arr m ρ c 6) (ix2 (0 : Fin 1) j)
/-- The mean the fourth call is given. -/
theorem mean2 (c : Dev nD) :
    Spec.row1 (V7 m ρ c main_v36 : S1x128.Idx → EReal) = Spec.meanK (Ideal.ofBits .f32 0x47435000#32) (Spec.colSum (hid2 m c)) := by
  show Spec.row1 (StableHlo.after hostOps3 (W6 m ρ c) (Proc.devRef .tc main_v36) : S1x128.Idx → EReal) = _
  rw [host3_v36, row_mean, sum2]
/-- The variance the fourth call is given. -/
theorem var2 (c : Dev nD) :
    Spec.row1 (V7 m ρ c main_v40 : S1x128.Idx → EReal)
      = Spec.varK (Ideal.ofBits .f32 0x47435000#32) (Spec.colSum (hid2 m c)) (Spec.colSumSq (hid2 m c)) := by
  show Spec.row1 (StableHlo.after hostOps3 (W6 m ρ c) (Proc.devRef .tc main_v40) : S1x128.Idx → EReal) = _
  rw [host3_v40, row_var, sum2, sumsq2]
/-- The second weights the fourth call is given. -/
theorem weight2 (c : Dev nD) : V7 m ρ c main_arg15 = m ((c : Thread nD τ).loc main_arg15) :=
  (V7_V5 m ρ c main_arg15 (by decide) (by decide)).trans
    (V5_arg m ρ c main_arg15 (by decide) (by decide) (by decide) (by decide) (by decide))

/-- The result array after the run, entry by entry, is the network (statistics from the column sums) of the arguments. -/
theorem kernel_value (c : Dev nD) (n : Fin 50000) (o : Fin 64) :
    (W8 (F := Ideal) m ρ c (Proc.devRef .tc main_v41) : S50000x64.Idx → EReal) (ix2 n o)
      = Spec.netK (Ideal.ofBits .f32 0x49435000#32) (Ideal.ofBits .f32 0x47435000#32)
          (Ideal.ofBits .f32 0x3727C5AC#32) (Ideal.ofBits .f32 0x00000000#32)
          (scat (m ((c : Thread nD τ).loc main_arg1)))
          (xg (m ((c : Thread nD τ).loc main_arg0)) (m ((c : Thread nD τ).loc main_arg1)))
          (Spec.cur2 (m ((c : Thread nD τ).loc main_arg2) : S800000x64.Idx → EReal))
          (Spec.cur2 (m ((c : Thread nD τ).loc main_arg5) : S128x128.Idx → EReal))
          (Spec.cur1 (m ((c : Thread nD τ).loc main_arg6) : S128.Idx → EReal))
          (Spec.cur1 (m ((c : Thread nD τ).loc main_arg7) : S128.Idx → EReal))
          (Spec.cur1 (m ((c : Thread nD τ).loc main_arg8) : S128.Idx → EReal))
          (Spec.cur2 (m ((c : Thread nD τ).loc main_arg9) : S128x128.Idx → EReal))
          (Spec.cur1 (m ((c : Thread nD τ).loc main_arg10) : S128.Idx → EReal))
          (Spec.cur2 (m ((c : Thread nD τ).loc main_arg0) : S50000x64.Idx → EReal))
          (Spec.cur2 (m ((c : Thread nD τ).loc main_arg11) : S192x128.Idx → EReal))
          (Spec.cur1 (m ((c : Thread nD τ).loc main_arg12) : S128.Idx → EReal))
          (Spec.cur1 (m ((c : Thread nD τ).loc main_arg13) : S128.Idx → EReal))
          (Spec.cur1 (m ((c : Thread nD τ).loc main_arg14) : S128.Idx → EReal))
          (Spec.cur2 (m ((c : Thread nD τ).loc main_arg15) : S128x64.Idx → EReal))
          (Spec.cur1 (m ((c : Thread nD τ).loc main_arg16) : S64.Idx → EReal)) n o := by
  refine (congrFun (W8_arr m ρ c 11) (ix2 n o)).trans ?_
  rw [R3.final (V7 m ρ) c n o, hrows3_eq, mean2, var2, V7_V5 m ρ c main_v31 (by decide) (by decide), scale2,
    V7_V5 m ρ c main_v32 (by decide) (by decide), shift2, weight2, V7_V5 m ρ c main_v33 (by decide) (by decide), bias2]
  unfold Spec.netK Spec.layerK hid2 out1 Spec.layerK
  rfl

end Cert.KernelIdeal.KValue

end
-- ==== Proof.RefValue.lean ====
/-
  What the idealized reference computes, as ONE function of the argument arrays read entry by entry: the network with
  each layer's statistics taken directly. The reference joins the gathered node rows and the edge rows side by side and
  multiplies by the whole first weight matrix; a product against joined columns splits into the two blocks' products,
  which is the form the network's specification has. The gather and the scatter-sum are carried as they are.
-/
import proofs.«151635_j7464653160946_1_alg».proof.Proof.RefRead
import proofs.«151635_j7464653160946_1_alg».proof.Proof.Spec
import proofs.«151635_j7464653160946_1_alg».proof.Proof.Curry
import proofs.«151635_j7464653160946_1_alg».proof.Proof.Top
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx

namespace Cert.ReferenceIdeal.RValue

open Cert.ReferenceIdeal Cert.ReferenceIdeal.Gen

/-- The row indices the gather reads: the first row of the edge index array, negative entries wrapped by the number of
    nodes, as a column. -/
def rowIdx (ei : IVec S2x800000 32) : IVec S800000x1 32 :=
  broadcastInDim S800000x1 ![0] bcast_S800000_S800000x1_0
    (select
      (cmpi .slt (shapeCast S800000 (extractStridedSlice S1x800000 ![0, 0] ei slices_S2x800000_S1x800000_0_0) shapeCasts_S1x800000_S800000)
        (broadcastInDim S800000 ![] bcast_S_S800000 (constantI S_ 32 0#32)))
      (addi (shapeCast S800000 (extractStridedSlice S1x800000 ![0, 0] ei slices_S2x800000_S1x800000_0_0) shapeCasts_S1x800000_S800000)
        (broadcastInDim S800000 ![] bcast_S_S800000 (constantI S_ 32 50000#32)))
      (shapeCast S800000 (extractStridedSlice S1x800000 ![0, 0] ei slices_S2x800000_S1x800000_0_0) shapeCasts_S1x800000_S800000))

/-- The column indices the scatter-sum adds at: the second row of the edge index array, as a column. -/
def colIdx (ei : IVec S2x800000 32) : IVec S800000x1 32 :=
  broadcastInDim S800000x1 ![0] bcast_S800000_S800000x1_0
    (shapeCast S800000 (extractStridedSlice S1x800000 ![1, 0] ei slices_S2x800000_S1x800000_1_0) shapeCasts_S1x800000_S800000)

/-- The gathered node rows. -/
def xg (x : FVec Ideal S50000x64 .f32) (ei : IVec S2x800000 32) : Fin 800000 → Fin 64 → EReal :=
  Spec.cur2 (Host.gather gather_S50000x64_S800000x1_S800000x64_1_0_n_n_0_1_164 x (rowIdx ei) : S800000x64.Idx → EReal)

/-- The scatter-sum of per-edge rows into per-node rows, from the zero array. -/
def scat (ei : IVec S2x800000 32) (f : Fin 800000 → Fin 128 → EReal) : Fin 50000 → Fin 128 → EReal :=
  Spec.cur2 (Host.scatterAdd scatter_S50000x128_S800000x1_S800000x128_1_0_0_1
    (broadcastInDim S50000x128 ![] bcast_S_S50000x128 (constant S_ .f32 0x00000000#32) : FVec Ideal S50000x128 .f32)
    (colIdx ei) (Spec.unc2 f : FVec Ideal S800000x128 .f32) : S50000x128.Idx → EReal)

/-! ## Sums over joined columns, and a joined array read in either block -/

/-- A sum over 128 = 64 + 64 columns is the sum over the first 64 plus the sum over the last 64. -/
theorem sum128 (f : Fin 128 → EReal) :
    ∑ k : Fin 128, f k = ∑ k : Fin 64, f (Fin.castAdd 64 k) + ∑ k : Fin 64, f (Fin.natAdd 64 k) :=
  Fin.sum_univ_add (a := 64) (b := 64) f

/-- A sum over 192 = 64 + 128 columns is the sum over the first 64 plus the sum over the last 128. -/
theorem sum192 (f : Fin 192 → EReal) :
    ∑ k : Fin 192, f k = ∑ k : Fin 64, f (Fin.castAdd 128 k) + ∑ k : Fin 128, f (Fin.natAdd 64 k) :=
  Fin.sum_univ_add (a := 64) (b := 128) f

/-- Two blocks of 64 columns joined side by side, read at a column of the first block. -/
theorem cat1_left (y x2 : S800000x64.Idx → EReal) (r : Fin 800000) (k : Fin 64) :
    concatenate S800000x128 1 [⟨S800000x64, y⟩, ⟨S800000x64, x2⟩] concatenates_S800000x64_S800000x64_S800000x128_d1
      (ix2 r (Fin.castAdd 64 k)) = y (ix2 r k) :=
  concatenate_pair_apply_left 1 y x2 concatenates_S800000x64_S800000x64_S800000x128_d1 _ rfl (ix2 r k) (fun b => by
    match b with
    | ⟨0, _⟩ => rfl
    | ⟨1, _⟩ => rfl)

/-- Two blocks of 64 columns joined side by side, read at a column of the second block. -/
theorem cat1_right (y x2 : S800000x64.Idx → EReal) (r : Fin 800000) (k : Fin 64) :
    concatenate S800000x128 1 [⟨S800000x64, y⟩, ⟨S800000x64, x2⟩] concatenates_S800000x64_S800000x64_S800000x128_d1
      (ix2 r (Fin.natAdd 64 k)) = x2 (ix2 r k) :=
  concatenate_pair_apply_right 1 y x2 concatenates_S800000x64_S800000x64_S800000x128_d1 _ rfl rfl (ix2 r k)
    (fun b hb => by
      match b with
      | ⟨0, _⟩ => rfl
      | ⟨1, _⟩ => exact absurd rfl hb)
    (by show k.val + 64 = 64 + k.val; omega)

/-- A block of 64 columns and a block of 128 columns joined side by side, read at a column of the first block. -/
theorem cat2_left (x0 : S50000x64.Idx → EReal) (y : S50000x128.Idx → EReal) (n : Fin 50000) (k : Fin 64) :
    concatenate S50000x192 1 [⟨S50000x64, x0⟩, ⟨S50000x128, y⟩] concatenates_S50000x64_S50000x128_S50000x192_d1
      (ix2 n (Fin.castAdd 128 k)) = x0 (ix2 n k) :=
  concatenate_pair_apply_left 1 x0 y concatenates_S50000x64_S50000x128_S50000x192_d1 _ rfl (ix2 n k) (fun b => by
    match b with
    | ⟨0, _⟩ => rfl
    | ⟨1, _⟩ => rfl)

/-- A block of 64 columns and a block of 128 columns joined side by side, read at a column of the second block. -/
theorem cat2_right (x0 : S50000x64.Idx → EReal) (y : S50000x128.Idx → EReal) (n : Fin 50000) (k : Fin 128) :
    concatenate S50000x192 1 [⟨S50000x64, x0⟩, ⟨S50000x128, y⟩] concatenates_S50000x64_S50000x128_S50000x192_d1
      (ix2 n (Fin.natAdd 64 k)) = y (ix2 n k) :=
  concatenate_pair_apply_right 1 x0 y concatenates_S50000x64_S50000x128_S50000x192_d1 _ rfl rfl (ix2 n k)
    (fun b hb => by
      match b with
      | ⟨0, _⟩ => rfl
      | ⟨1, _⟩ => exact absurd rfl hb)
    (by show k.val + 64 = 64 + k.val; omega)

section Stages

variable (x0 : FVec Ideal S50000x64 .f32) (x1 : IVec S2x800000 32) (x2 : FVec Ideal S800000x64 .f32)
  (x5 : FVec Ideal S128x128 .f32) (x6 x7 x8 : FVec Ideal S128 .f32) (x9 : FVec Ideal S128x128 .f32)
  (x10 : FVec Ideal S128 .f32) (x11 : FVec Ideal S192x128 .f32) (x12 x13 x14 : FVec Ideal S128 .f32)
  (x15 : FVec Ideal S128x64 .f32) (x16 : FVec Ideal S64 .f32)

/-! ## Layer 1 -/

/-- Layer 1's hidden rows: the gathered node rows against the top 64 rows of the first weight matrix, the edge rows
    against its bottom 64 rows, plus the bias. -/
abbrev hid1 : Fin 800000 → Fin 128 → EReal :=
  Spec.hid (xg x0 x1) (Spec.cur2 (x2 : S800000x64.Idx → EReal))
    (fun k : Fin 64 => Spec.cur2 (x5 : S128x128.Idx → EReal) (Fin.castAdd 64 k))
    (fun k : Fin 64 => Spec.cur2 (x5 : S128x128.Idx → EReal) (Fin.natAdd 64 k)) (Spec.cur1 (x6 : S128.Idx → EReal))

/-- Layer 1's output rows, one per edge. -/
abbrev lay1 : Fin 800000 → Fin 128 → EReal :=
  Spec.layerR (Ideal.ofBits .f32 0x49435000#32) (Ideal.ofBits .f32 0x3727C5AC#32) (Ideal.ofBits .f32 0x00000000#32)
    (xg x0 x1) (Spec.cur2 (x2 : S800000x64.Idx → EReal))
    (fun k : Fin 64 => Spec.cur2 (x5 : S128x128.Idx → EReal) (Fin.castAdd 64 k))
    (fun k : Fin 64 => Spec.cur2 (x5 : S128x128.Idx → EReal) (Fin.natAdd 64 k)) (Spec.cur1 (x6 : S128.Idx → EReal))
    (Spec.cur1 (x7 : S128.Idx → EReal)) (Spec.cur1 (x8 : S128.Idx → EReal)) (Spec.cur2 (x9 : S128x128.Idx → EReal))
    (Spec.cur1 (x10 : S128.Idx → EReal))

/-- The row indices the reference gathers at are `rowIdx`. -/
theorem v9_eq : ReadP.val_main_v9 (F := Ideal) x1 = rowIdx x1 := by
  unfold ReadP.val_main_v9 ReadP.val_main_v8 ReadP.val_main_v5 ReadP.val_main_v7 ReadP.val_main_v4 ReadP.val_main_v6
    ReadP.val_main_v1 ReadP.val_main_v0 ReadP.val_main_c ReadP.val_main_c_0 rowIdx
  rfl

/-- The gathered rows, entry by entry. -/
theorem v10_apply (r : Fin 800000) (k : Fin 64) : ReadP.val_main_v10 (F := Ideal) x0 x1 (ix2 r k) = xg x0 x1 r k := by
  show Host.gather _ x0 (ReadP.val_main_v9 (F := Ideal) x1) (ix2 r k) = Host.gather _ x0 (rowIdx x1) (ix2 r k)
  rw [v9_eq]

/-- The joined rows at a column of the first block: the gathered node row. -/
theorem v11_left (r : Fin 800000) (k : Fin 64) :
    ReadP.val_main_v11 (F := Ideal) x0 x1 x2 (ix2 r (Fin.castAdd 64 k)) = xg x0 x1 r k := by
  rw [← v10_apply x0 x1 r k]
  unfold ReadP.val_main_v11
  generalize ReadP.val_main_v10 (F := Ideal) x0 x1 = y
  exact cat1_left y x2 r k

/-- The joined rows at a column of the second block: the edge row. -/
theorem v11_right (r : Fin 800000) (k : Fin 64) :
    ReadP.val_main_v11 (F := Ideal) x0 x1 x2 (ix2 r (Fin.natAdd 64 k)) = Spec.cur2 (x2 : S800000x64.Idx → EReal) r k := by
  unfold ReadP.val_main_v11
  generalize ReadP.val_main_v10 (F := Ideal) x0 x1 = y
  exact cat1_right y x2 r k

/-- The hidden rows of layer 1: the product against the joined columns splits into the two blocks' products. -/
theorem h1_apply (r : Fin 800000) (j : Fin 128) :
    ReadP.val_main_v15 (F := Ideal) x0 x1 x2 x5 x6 (ix2 r j) = hid1 x0 x1 x2 x5 x6 r j := by
  have el : ∀ k, ReadP.lidx_main_v12 (ix2 r j) k = ix2 r k := fun k => funext fun a => Fin.ext (by
    match a with
    | ⟨0, _⟩ => rfl
    | ⟨1, _⟩ => rfl)
  have er : ∀ k, ReadP.ridx_main_v12 (ix2 r j) k = ix2 k j := fun k => funext fun a => Fin.ext (by
    match a with
    | ⟨0, _⟩ => rfl
    | ⟨1, _⟩ => rfl)
  have eb : ReadP.idx_main_v13 (ReadP.idx_main_v14 (ix2 r j)) = ix1 j := funext fun a => Fin.ext (by
    match a with
    | ⟨0, _⟩ => rfl)
  rw [ReadP.val_main_v15_apply, ReadP.val_main_v12_apply, ReadP.val_main_v14_apply, ReadP.val_main_v13_apply]
  simp only [Ideal.addf_def, el, er, eb]
  rw [sum128]
  simp only [v11_left, v11_right]
  rfl

/-- The mean of each hidden column of layer 1 over all edges. -/
theorem mean1_apply (j : Fin 128) :
    ReadP.val_main_v18 (F := Ideal) x0 x1 x2 x5 x6 (ix1 j) = Spec.meanR (Ideal.ofBits .f32 0x00000000#32) (Ideal.ofBits .f32 0x49435000#32) (hid1 x0 x1 x2 x5 x6) j := by
  have e16 : ∀ k, ReadP.idx_main_v16 (ix1 j) k = ix2 k j := fun k => funext fun a => Fin.ext (by
    match a with
    | ⟨0, _⟩ => rfl
    | ⟨1, _⟩ => rfl)
  rw [ReadP.val_main_v18_apply, ReadP.val_main_v16_apply, ReadP.val_main_v17_apply, ReadP.val_main_cst_apply,
    ReadP.val_main_cst_1_apply]
  simp only [Ideal.hostDivf_def, Ideal.ofBits_def, e16, h1_apply]
  rfl

/-- The variance of each hidden column of layer 1: the mean of the squared deviations from the mean. -/
theorem var1_apply (j : Fin 128) :
    ReadP.val_main_v25 (F := Ideal) x0 x1 x2 x5 x6 (ix1 j) = Spec.varR (Ideal.ofBits .f32 0x00000000#32) (Ideal.ofBits .f32 0x49435000#32) (hid1 x0 x1 x2 x5 x6) j := by
  have e23 : ∀ k, ReadP.idx_main_v23 (ix1 j) k = ix2 k j := fun k => funext fun a => Fin.ext (by
    match a with
    | ⟨0, _⟩ => rfl
    | ⟨1, _⟩ => rfl)
  have e20 : ∀ k : Fin 800000, ReadP.idx_main_v19 (ReadP.idx_main_v20 (ix2 k j)) = ix1 j := fun k => funext fun a => Fin.ext (by
    match a with
    | ⟨0, _⟩ => rfl)
  rw [ReadP.val_main_v25_apply, ReadP.val_main_v23_apply, ReadP.val_main_v24_apply, ReadP.val_main_cst_2_apply,
    ReadP.val_main_cst_3_apply]
  simp only [ReadP.val_main_v22_apply, ReadP.val_main_v21_apply, ReadP.val_main_v20_apply, ReadP.val_main_v19_apply,
    e23, e20, h1_apply, mean1_apply, Ideal.hostDivf_def, Ideal.ofBits_def, Ideal.subf_def, Ideal.mulf_def]
  rfl

/-- Layer 1's hidden rows normalised, scaled, shifted and cut at zero. -/
theorem act1_apply (r : Fin 800000) (j : Fin 128) :
    ReadP.val_main_v41 (F := Ideal) x0 x1 x2 x5 x6 x7 x8 (ix2 r j)
      = Spec.act (hid1 x0 x1 x2 x5 x6) (Spec.meanR (Ideal.ofBits .f32 0x00000000#32) (Ideal.ofBits .f32 0x49435000#32) (hid1 x0 x1 x2 x5 x6))
          (Spec.varR (Ideal.ofBits .f32 0x00000000#32) (Ideal.ofBits .f32 0x49435000#32) (hid1 x0 x1 x2 x5 x6)) (Spec.cur1 (x7 : S128.Idx → EReal))
          (Spec.cur1 (x8 : S128.Idx → EReal)) (Ideal.ofBits .f32 0x3727C5AC#32) (Ideal.ofBits .f32 0x00000000#32) r j := by
  have e27 : ReadP.idx_main_v26 (ReadP.idx_main_v27 (ix2 r j)) = ix1 j := funext fun a => Fin.ext (by
    match a with
    | ⟨0, _⟩ => rfl)
  have e33 : ReadP.idx_main_v32 (ReadP.idx_main_v33 (ix2 r j)) = ix1 j := funext fun a => Fin.ext (by
    match a with
    | ⟨0, _⟩ => rfl)
  have e36 : ReadP.idx_main_v35 (ReadP.idx_main_v36 (ix2 r j)) = ix1 j := funext fun a => Fin.ext (by
    match a with
    | ⟨0, _⟩ => rfl)
  have e39 : ReadP.idx_main_v38 (ReadP.idx_main_v39 (ix2 r j)) = ix1 j := funext fun a => Fin.ext (by
    match a with
    | ⟨0, _⟩ => rfl)
  rw [ReadP.val_main_v41_apply, ReadP.val_main_v40_apply, ReadP.val_main_v37_apply, ReadP.val_main_v34_apply,
    ReadP.val_main_v28_apply, ReadP.val_main_v27_apply, ReadP.val_main_v26_apply, ReadP.val_main_v33_apply,
    ReadP.val_main_v32_apply, ReadP.val_main_v31_apply, ReadP.val_main_v30_apply, ReadP.val_main_v29_apply,
    ReadP.val_main_cst_4_apply, ReadP.val_main_v36_apply, ReadP.val_main_v35_apply, ReadP.val_main_v39_apply,
    ReadP.val_main_v38_apply, ReadP.val_main_call0_v0_apply, ReadP.val_main_call0_cst_apply, e27, e33, e36, e39,
    h1_apply, mean1_apply, var1_apply]
  simp only [Ideal.addf_def, Ideal.subf_def, Ideal.mulf_def, Ideal.maximumf_def, Ideal.hostUnary_rsqrt_def,
    Ideal.ofBits_def]
  rfl

/-- Layer 1's output rows: the second linear map of the activated rows. -/
theorem out1_apply (r : Fin 800000) (j : Fin 128) :
    ReadP.val_main_v45 (F := Ideal) x0 x1 x2 x5 x6 x7 x8 x9 x10 (ix2 r j) = lay1 x0 x1 x2 x5 x6 x7 x8 x9 x10 r j := by
  have el : ∀ k, ReadP.lidx_main_v42 (ix2 r j) k = ix2 r k := fun k => funext fun a => Fin.ext (by
    match a with
    | ⟨0, _⟩ => rfl
    | ⟨1, _⟩ => rfl)
  have er : ∀ k, ReadP.ridx_main_v42 (ix2 r j) k = ix2 k j := fun k => funext fun a => Fin.ext (by
    match a with
    | ⟨0, _⟩ => rfl
    | ⟨1, _⟩ => rfl)
  have eb : ReadP.idx_main_v43 (ReadP.idx_main_v44 (ix2 r j)) = ix1 j := funext fun a => Fin.ext (by
    match a with
    | ⟨0, _⟩ => rfl)
  rw [ReadP.val_main_v45_apply, ReadP.val_main_v42_apply, ReadP.val_main_v44_apply, ReadP.val_main_v43_apply]
  simp only [Ideal.addf_def, el, er, eb, act1_apply]
  rfl

/-! ## The scatter-sum between the layers -/

/-- Layer 1's output, as an array. -/
theorem v45_eq : ReadP.val_main_v45 (F := Ideal) x0 x1 x2 x5 x6 x7 x8 x9 x10 = Spec.unc2 (lay1 x0 x1 x2 x5 x6 x7 x8 x9 x10) :=
  Spec.eq_unc2 _ _ (out1_apply x0 x1 x2 x5 x6 x7 x8 x9 x10)

/-- The array the scatter-sum starts from is the zero array. -/
theorem v46_eq : (ReadP.val_main_v46 (F := Ideal))
    = (broadcastInDim S50000x128 ![] bcast_S_S50000x128 (constant S_ .f32 0x00000000#32) : FVec Ideal S50000x128 .f32) := by
  unfold ReadP.val_main_v46 ReadP.val_main_cst_5
  rfl

/-- The column indices the reference scatters at are `colIdx`. -/
theorem v47_eq : ReadP.val_main_v47 (F := Ideal) x1 = colIdx x1 := by
  unfold ReadP.val_main_v47 ReadP.val_main_v3 ReadP.val_main_v2 colIdx
  rfl

/-- The scatter-sum of layer 1's output rows, entry by entry. -/
theorem v48_apply (n : Fin 50000) (k : Fin 128) :
    ReadP.val_main_v48 (F := Ideal) x0 x1 x2 x5 x6 x7 x8 x9 x10 (ix2 n k) = scat x1 (lay1 x0 x1 x2 x5 x6 x7 x8 x9 x10) n k := by
  show Host.scatterAdd _ (ReadP.val_main_v46 (F := Ideal)) (ReadP.val_main_v47 (F := Ideal) x1) (ReadP.val_main_v45 (F := Ideal) x0 x1 x2 x5 x6 x7 x8 x9 x10) (ix2 n k)
    = Host.scatterAdd _ (broadcastInDim S50000x128 ![] bcast_S_S50000x128 (constant S_ .f32 0x00000000#32) : FVec Ideal S50000x128 .f32) (colIdx x1)
        (Spec.unc2 (lay1 x0 x1 x2 x5 x6 x7 x8 x9 x10)) (ix2 n k)
  rw [v45_eq, v46_eq, v47_eq]

/-! ## Layer 2 -/

/-- Layer 2's hidden rows: the node rows against the top 64 rows of its first weight matrix, the summed rows against
    its bottom 128 rows, plus the bias. -/
abbrev hid2 : Fin 50000 → Fin 128 → EReal :=
  Spec.hid (Spec.cur2 (x0 : S50000x64.Idx → EReal)) (scat x1 (lay1 x0 x1 x2 x5 x6 x7 x8 x9 x10))
    (fun k : Fin 64 => Spec.cur2 (x11 : S192x128.Idx → EReal) (Fin.castAdd 128 k))
    (fun k : Fin 128 => Spec.cur2 (x11 : S192x128.Idx → EReal) (Fin.natAdd 64 k)) (Spec.cur1 (x12 : S128.Idx → EReal))

/-- The joined rows of layer 2 at a column of the first block: the node row. -/
theorem v49_left (n : Fin 50000) (k : Fin 64) :
    ReadP.val_main_v49 (F := Ideal) x0 x1 x2 x5 x6 x7 x8 x9 x10 (ix2 n (Fin.castAdd 128 k)) = Spec.cur2 (x0 : S50000x64.Idx → EReal) n k := by
  unfold ReadP.val_main_v49
  generalize ReadP.val_main_v48 (F := Ideal) x0 x1 x2 x5 x6 x7 x8 x9 x10 = y
  exact cat2_left x0 y n k

/-- The joined rows of layer 2 at a column of the second block: the summed row. -/
theorem v49_right (n : Fin 50000) (k : Fin 128) :
    ReadP.val_main_v49 (F := Ideal) x0 x1 x2 x5 x6 x7 x8 x9 x10 (ix2 n (Fin.natAdd 64 k)) = scat x1 (lay1 x0 x1 x2 x5 x6 x7 x8 x9 x10) n k := by
  rw [← v48_apply x0 x1 x2 x5 x6 x7 x8 x9 x10 n k]
  unfold ReadP.val_main_v49
  generalize ReadP.val_main_v48 (F := Ideal) x0 x1 x2 x5 x6 x7 x8 x9 x10 = y
  exact cat2_right x0 y n k

/-- The hidden rows of layer 2. -/
theorem h2_apply (n : Fin 50000) (j : Fin 128) :
    ReadP.val_main_v53 (F := Ideal) x0 x1 x2 x5 x6 x7 x8 x9 x10 x11 x12 (ix2 n j) = hid2 x0 x1 x2 x5 x6 x7 x8 x9 x10 x11 x12 n j := by
  have el : ∀ k, ReadP.lidx_main_v50 (ix2 n j) k = ix2 n k := fun k => funext fun a => Fin.ext (by
    match a with
    | ⟨0, _⟩ => rfl
    | ⟨1, _⟩ => rfl)
  have er : ∀ k, ReadP.ridx_main_v50 (ix2 n j) k = ix2 k j := fun k => funext fun a => Fin.ext (by
    match a with
    | ⟨0, _⟩ => rfl
    | ⟨1, _⟩ => rfl)
  have eb : ReadP.idx_main_v51 (ReadP.idx_main_v52 (ix2 n j)) = ix1 j := funext fun a => Fin.ext (by
    match a with
    | ⟨0, _⟩ => rfl)
  rw [ReadP.val_main_v53_apply, ReadP.val_main_v50_apply, ReadP.val_main_v52_apply, ReadP.val_main_v51_apply]
  simp only [Ideal.addf_def, el, er, eb]
  rw [sum192]
  simp only [v49_left, v49_right]
  rfl

/-- The mean of each hidden column of layer 2 over all nodes. -/
theorem mean2_apply (j : Fin 128) :
    ReadP.val_main_v56 (F := Ideal) x0 x1 x2 x5 x6 x7 x8 x9 x10 x11 x12 (ix1 j) = Spec.meanR (Ideal.ofBits .f32 0x00000000#32) (Ideal.ofBits .f32 0x47435000#32) (hid2 x0 x1 x2 x5 x6 x7 x8 x9 x10 x11 x12) j := by
  have e54 : ∀ k, ReadP.idx_main_v54 (ix1 j) k = ix2 k j := fun k => funext fun a => Fin.ext (by
    match a with
    | ⟨0, _⟩ => rfl
    | ⟨1, _⟩ => rfl)
  rw [ReadP.val_main_v56_apply, ReadP.val_main_v54_apply, ReadP.val_main_v55_apply, ReadP.val_main_cst_6_apply,
    ReadP.val_main_cst_7_apply]
  simp only [Ideal.hostDivf_def, Ideal.ofBits_def, e54, h2_apply]
  rfl

/-- The variance of each hidden column of layer 2. -/
theorem var2_apply (j : Fin 128) :
    ReadP.val_main_v63 (F := Ideal) x0 x1 x2 x5 x6 x7 x8 x9 x10 x11 x12 (ix1 j) = Spec.varR (Ideal.ofBits .f32 0x00000000#32) (Ideal.ofBits .f32 0x47435000#32) (hid2 x0 x1 x2 x5 x6 x7 x8 x9 x10 x11 x12) j := by
  have e61 : ∀ k, ReadP.idx_main_v61 (ix1 j) k = ix2 k j := fun k => funext fun a => Fin.ext (by
    match a with
    | ⟨0, _⟩ => rfl
    | ⟨1, _⟩ => rfl)
  have e58 : ∀ k : Fin 50000, ReadP.idx_main_v57 (ReadP.idx_main_v58 (ix2 k j)) = ix1 j := fun k => funext fun a => Fin.ext (by
    match a with
    | ⟨0, _⟩ => rfl)
  rw [ReadP.val_main_v63_apply, ReadP.val_main_v61_apply, ReadP.val_main_v62_apply, ReadP.val_main_cst_8_apply,
    ReadP.val_main_cst_9_apply]
  simp only [ReadP.val_main_v60_apply, ReadP.val_main_v59_apply, ReadP.val_main_v58_apply, ReadP.val_main_v57_apply,
    e61, e58, h2_apply, mean2_apply, Ideal.hostDivf_def, Ideal.ofBits_def, Ideal.subf_def, Ideal.mulf_def]
  rfl

/-- Layer 2's hidden rows normalised, scaled, shifted and cut at zero. -/
theorem act2_apply (n : Fin 50000) (j : Fin 128) :
    ReadP.val_main_v79 (F := Ideal) x0 x1 x2 x5 x6 x7 x8 x9 x10 x11 x12 x13 x14 (ix2 n j)
      = Spec.act (hid2 x0 x1 x2 x5 x6 x7 x8 x9 x10 x11 x12) (Spec.meanR (Ideal.ofBits .f32 0x00000000#32) (Ideal.ofBits .f32 0x47435000#32) (hid2 x0 x1 x2 x5 x6 x7 x8 x9 x10 x11 x12))
          (Spec.varR (Ideal.ofBits .f32 0x00000000#32) (Ideal.ofBits .f32 0x47435000#32) (hid2 x0 x1 x2 x5 x6 x7 x8 x9 x10 x11 x12)) (Spec.cur1 (x13 : S128.Idx → EReal))
          (Spec.cur1 (x14 : S128.Idx → EReal)) (Ideal.ofBits .f32 0x3727C5AC#32) (Ideal.ofBits .f32 0x00000000#32) n j := by
  have e65 : ReadP.idx_main_v64 (ReadP.idx_main_v65 (ix2 n j)) = ix1 j := funext fun a => Fin.ext (by
    match a with
    | ⟨0, _⟩ => rfl)
  have e71 : ReadP.idx_main_v70 (ReadP.idx_main_v71 (ix2 n j)) = ix1 j := funext fun a => Fin.ext (by
    match a with
    | ⟨0, _⟩ => rfl)
  have e74 : ReadP.idx_main_v73 (ReadP.idx_main_v74 (ix2 n j)) = ix1 j := funext fun a => Fin.ext (by
    match a with
    | ⟨0, _⟩ => rfl)
  have e77 : ReadP.idx_main_v76 (ReadP.idx_main_v77 (ix2 n j)) = ix1 j := funext fun a => Fin.ext (by
    match a with
    | ⟨0, _⟩ => rfl)
  rw [ReadP.val_main_v79_apply, ReadP.val_main_v78_apply, ReadP.val_main_v75_apply, ReadP.val_main_v72_apply,
    ReadP.val_main_v66_apply, ReadP.val_main_v65_apply, ReadP.val_main_v64_apply, ReadP.val_main_v71_apply,
    ReadP.val_main_v70_apply, ReadP.val_main_v69_apply, ReadP.val_main_v68_apply, ReadP.val_main_v67_apply,
    ReadP.val_main_cst_10_apply, ReadP.val_main_v74_apply, ReadP.val_main_v73_apply, ReadP.val_main_v77_apply,
    ReadP.val_main_v76_apply, ReadP.val_main_call1_v0_apply, ReadP.val_main_call1_cst_apply, e65, e71, e74, e77,
    h2_apply, mean2_apply, var2_apply]
  simp only [Ideal.addf_def, Ideal.subf_def, Ideal.mulf_def, Ideal.maximumf_def, Ideal.hostUnary_rsqrt_def,
    Ideal.ofBits_def]
  rfl

/-- Layer 2's output rows, one per node: the result. -/
theorem out2_apply (n : Fin 50000) (o : Fin 64) :
    ReadP.val_main_v83 (F := Ideal) x0 x1 x2 x5 x6 x7 x8 x9 x10 x11 x12 x13 x14 x15 x16 (ix2 n o)
      = Spec.layerR (Ideal.ofBits .f32 0x47435000#32) (Ideal.ofBits .f32 0x3727C5AC#32) (Ideal.ofBits .f32 0x00000000#32)
          (Spec.cur2 (x0 : S50000x64.Idx → EReal)) (scat x1 (lay1 x0 x1 x2 x5 x6 x7 x8 x9 x10))
          (fun k : Fin 64 => Spec.cur2 (x11 : S192x128.Idx → EReal) (Fin.castAdd 128 k))
          (fun k : Fin 128 => Spec.cur2 (x11 : S192x128.Idx → EReal) (Fin.natAdd 64 k))
          (Spec.cur1 (x12 : S128.Idx → EReal)) (Spec.cur1 (x13 : S128.Idx → EReal)) (Spec.cur1 (x14 : S128.Idx → EReal))
          (Spec.cur2 (x15 : S128x64.Idx → EReal)) (Spec.cur1 (x16 : S64.Idx → EReal)) n o := by
  have el : ∀ k, ReadP.lidx_main_v80 (ix2 n o) k = ix2 n k := fun k => funext fun a => Fin.ext (by
    match a with
    | ⟨0, _⟩ => rfl
    | ⟨1, _⟩ => rfl)
  have er : ∀ k, ReadP.ridx_main_v80 (ix2 n o) k = ix2 k o := fun k => funext fun a => Fin.ext (by
    match a with
    | ⟨0, _⟩ => rfl
    | ⟨1, _⟩ => rfl)
  have eb : ReadP.idx_main_v81 (ReadP.idx_main_v82 (ix2 n o)) = ix1 o := funext fun a => Fin.ext (by
    match a with
    | ⟨0, _⟩ => rfl)
  rw [ReadP.val_main_v83_apply, ReadP.val_main_v80_apply, ReadP.val_main_v82_apply, ReadP.val_main_v81_apply]
  simp only [Ideal.addf_def, el, er, eb, act2_apply]
  rfl

end Stages

/-- The reference's result, entry by entry, is the network (statistics taken directly) of the arguments. -/
theorem ref_value (x0 : FVec Ideal S50000x64 .f32) (x1 : IVec S2x800000 32) (x2 : FVec Ideal S800000x64 .f32)
    (x5 : FVec Ideal S128x128 .f32) (x6 x7 x8 : FVec Ideal S128 .f32) (x9 : FVec Ideal S128x128 .f32)
    (x10 : FVec Ideal S128 .f32) (x11 : FVec Ideal S192x128 .f32) (x12 x13 x14 : FVec Ideal S128 .f32)
    (x15 : FVec Ideal S128x64 .f32) (x16 : FVec Ideal S64 .f32) (n : Fin 50000) (o : Fin 64) :
    (ReadP.val_main_v83 (F := Ideal) x0 x1 x2 x5 x6 x7 x8 x9 x10 x11 x12 x13 x14 x15 x16 : S50000x64.Idx → EReal) (ix2 n o)
      = Spec.netR (Ideal.ofBits .f32 0x49435000#32) (Ideal.ofBits .f32 0x47435000#32)
          (Ideal.ofBits .f32 0x3727C5AC#32) (Ideal.ofBits .f32 0x00000000#32)
          (scat x1) (xg x0 x1) (Spec.cur2 (x2 : S800000x64.Idx → EReal)) (Spec.cur2 (x5 : S128x128.Idx → EReal))
          (Spec.cur1 (x6 : S128.Idx → EReal)) (Spec.cur1 (x7 : S128.Idx → EReal)) (Spec.cur1 (x8 : S128.Idx → EReal))
          (Spec.cur2 (x9 : S128x128.Idx → EReal)) (Spec.cur1 (x10 : S128.Idx → EReal))
          (Spec.cur2 (x0 : S50000x64.Idx → EReal)) (Spec.cur2 (x11 : S192x128.Idx → EReal))
          (Spec.cur1 (x12 : S128.Idx → EReal)) (Spec.cur1 (x13 : S128.Idx → EReal)) (Spec.cur1 (x14 : S128.Idx → EReal))
          (Spec.cur2 (x15 : S128x64.Idx → EReal)) (Spec.cur1 (x16 : S64.Idx → EReal)) n o :=
  out2_apply x0 x1 x2 x5 x6 x7 x8 x9 x10 x11 x12 x13 x14 x15 x16 n o

end Cert.ReferenceIdeal.RValue

end
-- ==== Proof.Finite.lean ====
/-
  From the precondition to real numbers. The precondition says of every float argument array that the absolute value of
  each entry is below +infinity (a conjunction of one "all entries" test per array); over the extended reals that makes
  every entry a real number. (The two integer arrays are not constrained.)
-/
import proofs.«151635_j7464653160946_1_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic Cert.Pre_finite_inputs

/-- Every entry of an array of extended reals is a real number. -/
def AllReal {s : Shape} (a : s.Idx → EReal) : Prop := ∀ i, ∃ x : ℝ, a i = (x : EReal)

/-- The shape with no axes has exactly one index. -/
instance : Subsingleton S_.Idx := ⟨fun a b => funext fun d => d.elim0⟩

/-- The pattern of +infinity denotes the top of the extended reals. -/
theorem ofBits_inf : Ideal.ofBits .f32 0x7F800000#32 = (⊤ : EReal) := by
  simp [Ideal.ofBits, Ideal.ieee]

/-- An extended real whose absolute value is below +infinity is a real number. -/
theorem real_of_abs_lt (x : EReal)
    (h : Ideal.cmp .olt (max x (-x)) (Ideal.ofBits .f32 0x7F800000#32) = 1#1) : ∃ r : ℝ, x = (r : EReal) := by
  rw [ofBits_inf] at h
  have h' : max x (-x) < ⊤ := by
    by_contra hc
    simp [Ideal.cmp, hc] at h
  induction x using EReal.rec with
  | bot => simp at h'
  | coe r => exact ⟨r, rfl⟩
  | top => simp at h'

/-- One "all entries" test that came out true: every entry of the array is a real number. -/
theorem allReal_of_all {s : Shape} {axes : List (Fin s.rank)} (a : FVec Ideal s .f32)
    (hb : S_.BroadcastsInDim s (![] : Fin 0 → Fin s.rank)) (hr : s.ReducesTo axes S_) (h0 : 0 < S_.numel) (init : IVec S_ 1)
    (j : S_.Idx)
    (h : Host.reduce IntOp.andi (cmpf .olt (Host.absf a) (broadcastInDim s ![] hb (constant S_ .f32 0x7F800000#32)))
      init hr h0 j = 1#1) : AllReal a := by
  intro i
  exact real_of_abs_lt (a i) (Host.reduce_andi_all _ _ hr h0 j h i)

/-- Where the precondition's value is "true", every float argument array holds real numbers only. -/
theorem allReal_of_fn [hP : Cert.Pre_finite_inputs.Facts]
    (a0 : FVec Ideal S50000x64 .f32) (a1 : IVec S2x800000 32) (a2 : FVec Ideal S800000x64 .f32) (a3 : FVec Ideal S1x16 .f32)
    (a4 : IVec S50000 32) (a5 : FVec Ideal S128x128 .f32) (a6 a7 a8 : FVec Ideal S128 .f32) (a9 : FVec Ideal S128x128 .f32)
    (a10 : FVec Ideal S128 .f32) (a11 : FVec Ideal S192x128 .f32) (a12 a13 a14 : FVec Ideal S128 .f32)
    (a15 : FVec Ideal S128x64 .f32) (a16 : FVec Ideal S64 .f32)
    (h : Cert.Pre_finite_inputs.fn (F := Ideal) a0 a1 a2 a3 a4 a5 a6 a7 a8 a9 a10 a11 a12 a13 a14 a15 a16 = fun _ => 1#1) :
    AllReal (s := S50000x64) a0 ∧ AllReal (s := S800000x64) a2 ∧ AllReal (s := S128x128) a5 ∧ AllReal (s := S128) a6
      ∧ AllReal (s := S128) a7 ∧ AllReal (s := S128) a8 ∧ AllReal (s := S128x128) a9 ∧ AllReal (s := S128) a10
      ∧ AllReal (s := S192x128) a11 ∧ AllReal (s := S128) a12 ∧ AllReal (s := S128) a13 ∧ AllReal (s := S128) a14
      ∧ AllReal (s := S128x64) a15 ∧ AllReal (s := S64) a16 := by
  have h1 := congrFun h ValueIdx.ix0
  dsimp only [fn, fn_part1, fn_part2, fn_part3, fn_part4] at h1
  simp only [andi, IntOp.andi_eq_one] at h1
  obtain ⟨⟨⟨⟨⟨⟨⟨⟨⟨⟨⟨⟨⟨⟨h0, h2⟩, _⟩, h5⟩, h6⟩, h7⟩, h8⟩, h9⟩, h10⟩, h11⟩, h12⟩, h13⟩, h14⟩, h15⟩, h16⟩ := h1
  exact ⟨allReal_of_all a0 _ _ _ _ _ h0, allReal_of_all a2 _ _ _ _ _ h2, allReal_of_all a5 _ _ _ _ _ h5,
    allReal_of_all a6 _ _ _ _ _ h6, allReal_of_all a7 _ _ _ _ _ h7, allReal_of_all a8 _ _ _ _ _ h8,
    allReal_of_all a9 _ _ _ _ _ h9, allReal_of_all a10 _ _ _ _ _ h10, allReal_of_all a11 _ _ _ _ _ h11,
    allReal_of_all a12 _ _ _ _ _ h12, allReal_of_all a13 _ _ _ _ _ h13, allReal_of_all a14 _ _ _ _ _ h14,
    allReal_of_all a15 _ _ _ _ _ h15, allReal_of_all a16 _ _ _ _ _ h16⟩

end Cert.Finite

end
-- ==== Proof.Consts.lean ====
/-
  The float constants the two programs spell, as the extended reals their bit patterns denote at the ideal instance:
  the two row counts the statistics are divided by, and the small positive number added to the variance. One module
  states them all, so that the unfolding of the pattern decoder happens in one place.
-/
import Idealize.ShloMosaic.PureOps.Ideal

noncomputable section

namespace Cert.Consts

open Idealize.ShloMosaic

/-- `8.0e5`, the number of edge rows, denotes the real 800000. -/
theorem ofBits_800000 : Ideal.ofBits .f32 0x49435000#32 = ((800000 : ℝ) : EReal) := by
  simp [Ideal.ofBits, Ideal.ieee, -EReal.coe_mul]; norm_num

/-- `5.0e4`, the number of node rows, denotes the real 50000. -/
theorem ofBits_50000 : Ideal.ofBits .f32 0x47435000#32 = ((50000 : ℝ) : EReal) := by
  simp [Ideal.ofBits, Ideal.ieee, -EReal.coe_mul]; norm_num

/-- `9.99999974e-6`, the number added to the variance, denotes a positive real. -/
theorem ofBits_eps_pos : ∃ e : ℝ, 0 < e ∧ Ideal.ofBits .f32 0x3727C5AC#32 = (e : EReal) := by
  -- sign 0, exponent field 110, fraction field 2606508: the value (2^23 + 2606508) · 2^(110 − 127 − 23)
  refine ⟨(10995116 : ℝ) * (2 : ℝ) ^ (-40 : ℤ), by positivity, ?_⟩
  simp [Ideal.ofBits, Ideal.ieee, -EReal.coe_mul]

end Cert.Consts

end
-- ==== Proof.Bridge.lean ====
/-
  The two idealized programs compute one function. The kernel program's result array is the network with each layer's
  mean and variance formed from the column sums S and Q (mean = S/n, variance = Q/n − mean²); the reference's is the
  network with the mean and the variance of the squared deviations taken directly. The gather before layer 1 and the
  scatter-sum between the layers are the same host operations on both sides. Under the precondition every float
  argument holds real numbers; a gathered row is a row of the node array, so it is real; layer 1's hidden rows are
  then real, the two forms of its statistics agree (E[(h − μ)²] = E[h²] − μ² over the reals), and its output is real
  because the variance is nonnegative and the added constant positive; the scatter-sum of real rows from zero is real;
  so layer 2's hidden rows are real and its two forms agree as well.
-/
import proofs.«151635_j7464653160946_1_alg».proof.Defs
import proofs.«151635_j7464653160946_1_alg».proof.Proof.Gen.KernelIdeal
import proofs.«151635_j7464653160946_1_alg».proof.Proof.Gen.ReferenceIdeal
import proofs.«151635_j7464653160946_1_alg».proof.Proof.Gen.Pre_finite_inputs
import proofs.«151635_j7464653160946_1_alg».proof.Proof.RefRun
import proofs.«151635_j7464653160946_1_alg».proof.Proof.RefRead
import proofs.«151635_j7464653160946_1_alg».proof.Proof.KernelRun
import proofs.«151635_j7464653160946_1_alg».proof.Proof.KernelValue
import proofs.«151635_j7464653160946_1_alg».proof.Proof.RefValue
import proofs.«151635_j7464653160946_1_alg».proof.Proof.Finite
import proofs.«151635_j7464653160946_1_alg».proof.Proof.Consts
import proofs.«151635_j7464653160946_1_alg».proof.Proof.Top
import proofs.«151635_j7464653160946_1_alg».proof.Proof.Spec
import proofs.«151635_j7464653160946_1_alg».proof.Proof.Curry
import Idealize.ShloMosaic.PureOps.Ideal.Laws

set_option maxRecDepth 16384

noncomputable section

open Idealize.ShloMosaic Idealize.ShloMosaic.TcCoe Idealize.SL.Sem Idealize.ShloMosaic.ValueIdx

namespace Cert.Proof.Bridge

open Cert.Spec

/-- A gathered row is a row of the table: gathered rows of a real table are real. -/
theorem xg_fin (x : FVec Ideal Cert.KernelIdeal.S50000x64 .f32) (ei : IVec Cert.KernelIdeal.S2x800000 32)
    (hx : Cert.Finite.AllReal (s := Cert.KernelIdeal.S50000x64) x) : Fin2 (Cert.KernelIdeal.KValue.xg x ei) := by
  intro r k
  exact hx _

/-- The accumulating scatter of real updates into a real array is real: each entry is the array's plus a finite sum of
    update entries. -/
theorem hostScatterAdd_real {s si su : Shape} (d : ScatterDims s si su) {w : Nat} (x : s.Idx → EReal) (idx : IVec si w)
    (upd : su.Idx → EReal) (hx : ∀ i, ∃ r : ℝ, x i = (r : EReal)) (hu : ∀ j, ∃ r : ℝ, upd j = (r : EReal)) (i : s.Idx) :
    ∃ r : ℝ, Ideal.hostScatterAdd d x idx upd i = (r : EReal) := by
  unfold Ideal.hostScatterAdd
  exact real_add (hx i) (real_sum fun j => hu j)

/-- The same for rows given as a function of (row, column), whatever the sizes. -/
theorem scatterAdd_fin {N E H w : ℕ} {si : Shape} (d : ScatterDims ⟨2, ![N, H]⟩ si ⟨2, ![E, H]⟩)
    (x : FVec Ideal ⟨2, ![N, H]⟩ .f32) (idx : IVec si w) (f : Fin E → Fin H → EReal)
    (hx : ∀ i, ∃ r : ℝ, x i = (r : EReal)) (hf : Fin2 f) :
    Fin2 (Spec.cur2 (Host.scatterAdd d x idx (Spec.unc2 f : FVec Ideal ⟨2, ![E, H]⟩ .f32) : (⟨2, ![N, H]⟩ : Shape).Idx → EReal)) := by
  intro n k
  exact hostScatterAdd_real d x idx (Spec.unc2 f) hx (fun j => hf (j 0) (j 1)) (ix2 n k)

/-- The zero array's entries are the real zero. -/
theorem zeros_real {s : Shape} (h : (⟨0, ![]⟩ : Shape).BroadcastsInDim s (![] : Fin 0 → Fin s.rank)) (i : s.Idx) :
    ∃ r : ℝ, (broadcastInDim s ![] h (constant (F := Ideal) ⟨0, ![]⟩ .f32 0x00000000#32) : s.Idx → EReal) i = (r : EReal) := by
  refine ⟨0, ?_⟩
  show Ideal.ofBits .f32 0x00000000#32 = ((0 : ℝ) : EReal)
  rw [Ideal.ofBits_zero_f32]; rfl

/-- The scatter-sum from the zero array adds, at each place, finitely many of the rows' entries: of real rows it is real. -/
theorem scat_fin (ei : IVec Cert.KernelIdeal.S2x800000 32) (f : Fin 800000 → Fin 128 → EReal) (hf : Fin2 f) :
    Fin2 (Cert.KernelIdeal.KValue.scat ei f) :=
  scatterAdd_fin _ _ _ f (fun i => zeros_real _ i) hf

theorem cast_800000 : ((800000 : ℝ) : EReal) = (((800000 : ℕ) : ℝ) : EReal) := by norm_num
theorem cast_50000 : ((50000 : ℝ) : EReal) = (((50000 : ℕ) : ℝ) : EReal) := by norm_num

section KernelSide

open Cert.KernelIdeal

/-- The common result array's entries: the network (statistics from the column sums) of the kernel program's arguments. -/
abbrev result (m : (ℓ : Loc nD τ sig) → Buf (Elt Ideal) ℓ) (c : Dev nD) : Fin 50000 → Fin 64 → EReal :=
  Spec.netK (Ideal.ofBits .f32 0x49435000#32) (Ideal.ofBits .f32 0x47435000#32)
          (Ideal.ofBits .f32 0x3727C5AC#32) (Ideal.ofBits .f32 0x00000000#32)
          (KValue.scat (m ((c : Thread nD τ).loc main_arg1)))
          (KValue.xg (m ((c : Thread nD τ).loc main_arg0)) (m ((c : Thread nD τ).loc main_arg1)))
          (Spec.cur2 (m ((c : Thread nD τ).loc main_arg2) : S800000x64.Idx → EReal))
          (Spec.cur2 (m ((c : Thread nD τ).loc main_arg5) : S128x128.Idx → EReal))
          (Spec.cur1 (m ((c : Thread nD τ).loc main_arg6) : S128.Idx → EReal))
          (Spec.cur1 (m ((c : Thread nD τ).loc main_arg7) : S128.Idx → EReal))
          (Spec.cur1 (m ((c : Thread nD τ).loc main_arg8) : S128.Idx → EReal))
          (Spec.cur2 (m ((c : Thread nD τ).loc main_arg9) : S128x128.Idx → EReal))
          (Spec.cur1 (m ((c : Thread nD τ).loc main_arg10) : S128.Idx → EReal))
          (Spec.cur2 (m ((c : Thread nD τ).loc main_arg0) : S50000x64.Idx → EReal))
          (Spec.cur2 (m ((c : Thread nD τ).loc main_arg11) : S192x128.Idx → EReal))
          (Spec.cur1 (m ((c : Thread nD τ).loc main_arg12) : S128.Idx → EReal))
          (Spec.cur1 (m ((c : Thread nD τ).loc main_arg13) : S128.Idx → EReal))
          (Spec.cur1 (m ((c : Thread nD τ).loc main_arg14) : S128.Idx → EReal))
          (Spec.cur2 (m ((c : Thread nD τ).loc main_arg15) : S128x64.Idx → EReal))
          (Spec.cur1 (m ((c : Thread nD τ).loc main_arg16) : S64.Idx → EReal))

/-- The same arguments through the network with the statistics taken directly. -/
abbrev resultR (m : (ℓ : Loc nD τ sig) → Buf (Elt Ideal) ℓ) (c : Dev nD) : Fin 50000 → Fin 64 → EReal :=
  Spec.netR (Ideal.ofBits .f32 0x49435000#32) (Ideal.ofBits .f32 0x47435000#32)
          (Ideal.ofBits .f32 0x3727C5AC#32) (Ideal.ofBits .f32 0x00000000#32)
          (KValue.scat (m ((c : Thread nD τ).loc main_arg1)))
          (KValue.xg (m ((c : Thread nD τ).loc main_arg0)) (m ((c : Thread nD τ).loc main_arg1)))
          (Spec.cur2 (m ((c : Thread nD τ).loc main_arg2) : S800000x64.Idx → EReal))
          (Spec.cur2 (m ((c : Thread nD τ).loc main_arg5) : S128x128.Idx → EReal))
          (Spec.cur1 (m ((c : Thread nD τ).loc main_arg6) : S128.Idx → EReal))
          (Spec.cur1 (m ((c : Thread nD τ).loc main_arg7) : S128.Idx → EReal))
          (Spec.cur1 (m ((c : Thread nD τ).loc main_arg8) : S128.Idx → EReal))
          (Spec.cur2 (m ((c : Thread nD τ).loc main_arg9) : S128x128.Idx → EReal))
          (Spec.cur1 (m ((c : Thread nD τ).loc main_arg10) : S128.Idx → EReal))
          (Spec.cur2 (m ((c : Thread nD τ).loc main_arg0) : S50000x64.Idx → EReal))
          (Spec.cur2 (m ((c : Thread nD τ).loc main_arg11) : S192x128.Idx → EReal))
          (Spec.cur1 (m ((c : Thread nD τ).loc main_arg12) : S128.Idx → EReal))
          (Spec.cur1 (m ((c : Thread nD τ).loc main_arg13) : S128.Idx → EReal))
          (Spec.cur1 (m ((c : Thread nD τ).loc main_arg14) : S128.Idx → EReal))
          (Spec.cur2 (m ((c : Thread nD τ).loc main_arg15) : S128x64.Idx → EReal))
          (Spec.cur1 (m ((c : Thread nD τ).loc main_arg16) : S64.Idx → EReal))

/-- The kernel program's run ends with its result array at the network of its arguments. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v41) = (Spec.unc2 (result m c) : S50000x64.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono
    (fun r h c => ⟨((h c).1).trans (Spec.eq_unc2 _ _ (fun n o => KValue.kernel_value m ρ c n o)), (h c).2⟩)
    (RunValue.run_result (F := Ideal) m ρ)

/-- Under the precondition the network's two forms agree on the kernel program's arguments. -/
theorem result_eq_resultR (m : (ℓ : Loc nD τ sig) → Buf (Elt Ideal) ℓ) (hpre : Cert.Pre_KernelIdeal m) (c : Dev nD) :
    result m c = resultR m c := by
  obtain ⟨f0, f2, f5, f6, f7, f8, f9, f10, f11, f12, f13, f14, f15, f16⟩ :=
    Cert.Finite.allReal_of_fn _ _ _ _ _ _ _ _ _ _ _ _ _ _ _ _ _ (hpre c)
  unfold result resultR
  rw [Cert.Consts.ofBits_800000, Cert.Consts.ofBits_50000, Ideal.ofBits_zero_f32, cast_800000, cast_50000]
  exact Spec.netK_eq_netR _ _ _ _ (fun f hf => scat_fin _ f hf) (xg_fin _ _ f0) (fun r k => f2 _) (fun r k => f5 _)
    (fun j => f6 _) (fun j => f7 _) (fun j => f8 _) (fun r k => f9 _) (fun j => f10 _) (fun r k => f0 _) (fun r k => f11 _)
    (fun j => f12 _) Cert.Consts.ofBits_eps_pos (by norm_num) (by norm_num)

end KernelSide

section RefSide

open Cert.ReferenceIdeal in
/-- The reference's result term, entry by entry, is the network (statistics taken directly) of ITS arguments. -/
theorem ref_result (m' : (ℓ : Loc nD τ sig) → Buf (Elt Ideal) ℓ) (c : Dev nD) (n : Fin 50000) (o : Fin 64) :
    (Cert.ReferenceIdeal.RunP.res_main_v83 m' c : S50000x64.Idx → EReal) (ix2 n o)
      = Spec.netR (Ideal.ofBits .f32 0x49435000#32) (Ideal.ofBits .f32 0x47435000#32)
          (Ideal.ofBits .f32 0x3727C5AC#32) (Ideal.ofBits .f32 0x00000000#32)
          (RValue.scat (m' ((c : Thread nD τ).loc main_arg1)))
          (RValue.xg (m' ((c : Thread nD τ).loc main_arg0)) (m' ((c : Thread nD τ).loc main_arg1)))
          (Spec.cur2 (m' ((c : Thread nD τ).loc main_arg2) : S800000x64.Idx → EReal))
          (Spec.cur2 (m' ((c : Thread nD τ).loc main_arg5) : S128x128.Idx → EReal))
          (Spec.cur1 (m' ((c : Thread nD τ).loc main_arg6) : S128.Idx → EReal))
          (Spec.cur1 (m' ((c : Thread nD τ).loc main_arg7) : S128.Idx → EReal))
          (Spec.cur1 (m' ((c : Thread nD τ).loc main_arg8) : S128.Idx → EReal))
          (Spec.cur2 (m' ((c : Thread nD τ).loc main_arg9) : S128x128.Idx → EReal))
          (Spec.cur1 (m' ((c : Thread nD τ).loc main_arg10) : S128.Idx → EReal))
          (Spec.cur2 (m' ((c : Thread nD τ).loc main_arg0) : S50000x64.Idx → EReal))
          (Spec.cur2 (m' ((c : Thread nD τ).loc main_arg11) : S192x128.Idx → EReal))
          (Spec.cur1 (m' ((c : Thread nD τ).loc main_arg12) : S128.Idx → EReal))
          (Spec.cur1 (m' ((c : Thread nD τ).loc main_arg13) : S128.Idx → EReal))
          (Spec.cur1 (m' ((c : Thread nD τ).loc main_arg14) : S128.Idx → EReal))
          (Spec.cur2 (m' ((c : Thread nD τ).loc main_arg15) : S128x64.Idx → EReal))
          (Spec.cur1 (m' ((c : Thread nD τ).loc main_arg16) : S64.Idx → EReal)) n o := by
  rw [ReadP.val_main_v83_eq]
  exact RValue.ref_value _ _ _ _ _ _ _ _ _ _ _ _ _ _ _ n o

/-- The reference's gather and scatter-sum are the kernel program's: the same operations with the same parameters. -/
theorem xg_eq (x : FVec Ideal Cert.KernelIdeal.S50000x64 .f32) (ei : IVec Cert.KernelIdeal.S2x800000 32) :
    Cert.ReferenceIdeal.RValue.xg x ei = Cert.KernelIdeal.KValue.xg x ei := rfl
theorem scat_eq (ei : IVec Cert.KernelIdeal.S2x800000 32) :
    Cert.ReferenceIdeal.RValue.scat ei = Cert.KernelIdeal.KValue.scat ei := rfl

/-- At the ideal instance, from memories agreeing on the arguments, both programs run and end with equal results:
    the kernel program's is the network with the statistics from the column sums, the reference's the network with
    the statistics taken directly, and under the precondition these are one function. -/
theorem algebraic : Cert.algebraic_KernelIdeal_ReferenceIdeal := by
  intro m ρ m' ρ' hpre hagree
  refine ⟨fun c => (Spec.unc2 (result m c) : Cert.KernelIdeal.S50000x64.Idx → EReal), kernel_run m ρ, ?_⟩
  refine (θ_run Cert.ReferenceIdeal.defs _ _).mono (fun r h c => ⟨?_, (h c).2⟩)
    (Cert.ReferenceIdeal.RunP.run (F := Ideal) m' ρ')
  rw [(h c).1]
  refine Spec.eq_unc2 _ _ (fun n o => ?_)
  rw [ref_result m' c n o, result_eq_resultR m hpre c]
  obtain ⟨e0, e1, e2, e3, e4, e5, e6, e7, e8, e9, e10, e11, e12, e13, e14, e15, e16⟩ := hagree c
  rw [e0, e1, e2, e5, e6, e7, e8, e9, e10, e11, e12, e13, e14, e15, e16, xg_eq, scat_eq]

end RefSide

end Cert.Proof.Bridge

end
-- ==== Proof.lean ====
/-
  The certificate's claim: both kernel programs and the reference run to the end with their arguments unchanged (the
  kernel programs' frames are the generated ones; the reference's is its run with the result dropped); the idealized
  kernel program is the printed program read at the ideal instance (nothing was rewritten); and at the ideal instance
  the idealized kernel program and the idealized reference end with equal results: a two-layer network whose batch
  statistics the kernel forms from column sums and the reference takes directly (Proof/Bridge.lean).
-/
import proofs.«151635_j7464653160946_1_alg».proof.Defs
import proofs.«151635_j7464653160946_1_alg».proof.Proof.Gen.Kernel
import proofs.«151635_j7464653160946_1_alg».proof.Proof.Gen.Kernel.Frame
import proofs.«151635_j7464653160946_1_alg».proof.Proof.Gen.KernelIdeal
import proofs.«151635_j7464653160946_1_alg».proof.Proof.Gen.KernelIdeal.Frame
import proofs.«151635_j7464653160946_1_alg».proof.Proof.Gen.ReferenceIdeal
import proofs.«151635_j7464653160946_1_alg».proof.Proof.Gen.Pre_finite_inputs
import proofs.«151635_j7464653160946_1_alg».proof.Proof.RefRun
import proofs.«151635_j7464653160946_1_alg».proof.Proof.Bridge

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.RunP.run (F := Ideal) m ρ),
    trivial,
    Cert.Proof.Bridge.algebraic⟩

end Cert.Proof

end
